-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000 : Shape := ⟨1, ![800000]⟩
abbrev S64x64 : Shape := ⟨2, ![64, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64x64 .f32) (main_arg7 : FVec F S64x64 .f32) (main_arg8 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x64 .f32) (main_arg1 : IVec S800000 32) (main_arg2 : IVec S800000 32) (main_arg3 : FVec F S64x64 .f32) (main_arg4 : FVec F S64x64 .f32) (main_arg5 : FVec F S64 .f32) (main_arg6 : FVec F S64x64 .f32) (main_arg7 : FVec F S64x64 .f32) (main_arg8 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_v13 main_v16
-- ==== Kernel.lean ====
abbrev S50000x64 : Shape := ⟨2, ![50000, 64]⟩
abbrev S800000 : Shape := ⟨1, ![800000]⟩
abbrev S64x64 : Shape := ⟨2, ![64, 64]⟩
abbrev S64 : Shape := ⟨1, ![64]⟩
abbrev S_ : Shape := ⟨0, ![]⟩
abbrev S800000x1 : Shape := ⟨2, ![800000, 1]⟩
abbrev S800000x64 : Shape := ⟨2, ![800000, 64]⟩
abbrev S50000 : Shape := ⟨1, ![50000]⟩
abbrev S50000x1 : Shape := ⟨2, ![50000, 1]⟩
abbrev S5000x64 : Shape := ⟨2, ![5000, 64]⟩
abbrev S1x64 : Shape := ⟨2, ![1, 64]⟩
abbrev S16384x64 : Shape := ⟨2, ![16384, 64]⟩
abbrev S16384x1 : Shape := ⟨2, ![16384, 1]⟩
abbrev S16384 : Shape := ⟨1, ![16384]⟩

abbrev nBuf : Space → Nat
  | .hbm => 81
  | .vmem => 24
  | .smem => 0
  | _ => 0

abbrev bufTy : (tb : Table) → Fin (tcTables nBuf tb) → BufTy
  | .hbm, ⟨0, _⟩ => ⟨S50000x64, .f32⟩
  | .hbm, ⟨1, _⟩ => ⟨S800000, .i32⟩
  | .hbm, ⟨2, _⟩ => ⟨S800000, .i32⟩
  | .hbm, ⟨3, _⟩ => ⟨S64x64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64x64, .f32⟩
  | .hbm, ⟨8, _⟩ => ⟨S64, .f32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x64, .f32⟩
  | .hbm, ⟨18, _⟩ => ⟨S_, .f32⟩
  | .hbm, ⟨19, _⟩ => ⟨S50000x64, .f32⟩
  | .hbm, ⟨20, _⟩ => ⟨S800000x1, .i32⟩
  | .hbm, ⟨21, _⟩ => ⟨S50000x64, .f32⟩
  | .hbm, ⟨22, _⟩ => ⟨S_, .f32⟩
  | .hbm, ⟨23, _⟩ => ⟨S800000, .f32⟩
  | .hbm, ⟨24, _⟩ => ⟨S_, .f32⟩
  | .hbm, ⟨25, _⟩ => ⟨S50000, .f32⟩
  | .hbm, ⟨26, _⟩ => ⟨S800000x1, .i32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S50000x64, .f32⟩
  | .hbm, ⟨33, _⟩ => ⟨S50000x64, .f32⟩
  | .hbm, ⟨34, _⟩ => ⟨S50000x64, .f32⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S800000x64, .f32⟩
  | .hbm, ⟨44, _⟩ => ⟨S_, .f32⟩
  | .hbm, ⟨45, _⟩ => ⟨S50000x64, .f32⟩
  | .hbm, ⟨46, _⟩ => ⟨S800000x1, .i32⟩
  | .hbm, ⟨47, _⟩ => ⟨S50000x64, .f32⟩
  | .hbm, ⟨48, _⟩ => ⟨S_, .f32⟩
  | .hbm, ⟨49, _⟩ => ⟨S800000, .f32⟩
  | .hbm, ⟨50, _⟩ => ⟨S_, .f32⟩
  | .hbm, ⟨51, _⟩ => ⟨S50000, .f32⟩
  | .hbm, ⟨52, _⟩ => ⟨S800000x1, .i32⟩
  | .hbm, ⟨53, _⟩ => ⟨S50000, .f32⟩
  | .hbm, ⟨54, _⟩ => ⟨S_, .f32⟩
  | .hbm, ⟨55, _⟩ => ⟨S50000, .f32⟩
  | .hbm, ⟨56, _⟩ => ⟨S50000, .f32⟩
  | .hbm, ⟨57, _⟩ => ⟨S50000x1, .f32⟩
  | .hbm, ⟨58, _⟩ => ⟨S50000x64, .f32⟩
  | .hbm, ⟨59, _⟩ => ⟨S50000x64, .f32⟩
  | .hbm, ⟨60, _⟩ => ⟨S50000x64, .f32⟩
  | .hbm, ⟨61, _⟩ => ⟨S_, .i32⟩
  | .hbm, ⟨62, _⟩ => ⟨S800000, .i32⟩
  | .hbm, ⟨63, _⟩ => ⟨S800000, .i1⟩
  | .hbm, ⟨64, _⟩ => ⟨S_, .i32⟩
  | .hbm, ⟨65, _⟩ => ⟨S800000, .i32⟩
  | .hbm, ⟨66, _⟩ => ⟨S800000, .i32⟩
  | .hbm, ⟨67, _⟩ => ⟨S800000, .i32⟩
  | .hbm, ⟨68, _⟩ => ⟨S800000x1, .i32⟩
  | .hbm, ⟨69, _⟩ => ⟨S800000x64, .f32⟩
  | .hbm, ⟨70, _⟩ => ⟨S_, .i32⟩
  | .hbm, ⟨71, _⟩ => ⟨S800000, .i32⟩
  | .hbm, ⟨72, _⟩ => ⟨S800000, .i1⟩
  | .hbm, ⟨73, _⟩ => ⟨S_, .i32⟩
  | .hbm, ⟨74, _⟩ => ⟨S800000, .i32⟩
  | .hbm, ⟨75, _⟩ => ⟨S800000, .i32⟩
  | .hbm, ⟨76, _⟩ => ⟨S800000, .i32⟩
  | .hbm, ⟨77, _⟩ => ⟨S800000x1, .i32⟩
  | .hbm, ⟨78, _⟩ => ⟨S800000x64, .f32⟩
  | .hbm, ⟨79, _⟩ => ⟨S800000x1, .f32⟩
  | .hbm, ⟨80, _⟩ => ⟨S800000, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S64x64, .f32⟩
  | .local _ .vmem, ⟨6, _⟩ => ⟨S64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x64, .f32⟩
  | .local _ .vmem, ⟨14, _⟩ => ⟨S64x64, .f32⟩
  | .local _ .vmem, ⟨15, _⟩ => ⟨S64, .f32⟩
  | .local _ .vmem, ⟨16, _⟩ => ⟨S5000x64, .f32⟩
  | .local _ .vmem, ⟨17, _⟩ => ⟨S5000x64, .f32⟩
  | .local _ .vmem, ⟨18, _⟩ => ⟨S16384x64, .f32⟩
  | .local _ .vmem, ⟨19, _⟩ => ⟨S16384x64, .f32⟩
  | .local _ .vmem, ⟨20, _⟩ => ⟨S16384x64, .f32⟩
  | .local _ .vmem, ⟨21, _⟩ => ⟨S16384x64, .f32⟩
  | .local _ .vmem, ⟨22, _⟩ => ⟨S16384x1, .f32⟩
  | .local _ .vmem, ⟨23, _⟩ => ⟨S16384x1, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_c_5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_6 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_7 : Ref sig .tc := ⟨.hbm, 48, rfl⟩
abbrev main_v30 : Ref sig .tc := ⟨.hbm, 49, rfl⟩
abbrev main_cst_8 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_9 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_c_10 : Ref sig .tc := ⟨.hbm, 61, rfl⟩
abbrev main_v40 : Ref sig .tc := ⟨.hbm, 62, rfl⟩
abbrev main_v41 : Ref sig .tc := ⟨.hbm, 63, rfl⟩
abbrev main_c_11 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_c_12 : Ref sig .tc := ⟨.hbm, 70, rfl⟩
abbrev main_v47 : Ref sig .tc := ⟨.hbm, 71, rfl⟩
abbrev main_v48 : Ref sig .tc := ⟨.hbm, 72, rfl⟩
abbrev main_c_13 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![49], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S16384x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S16384x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S16384x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S16384x64_S16384x64_0_0 : ∀ a, (![0, 0] : Fin 2 → Nat) a + S16384x64.size a ≤ S16384x64.size a
  h_S16384x64 : 0 < S16384x64.numel
  shapeCasts_S16384x64_S16384x64 : S16384x64.ShapeCasts S16384x64
  reduces_S16384x64_S16384 : S16384x64.Reduces [1] S16384
  shapeCasts_S16384_S16384x1 : S16384.ShapeCasts S16384x1
  inb_S16384x1_S16384x1_0_0 : ∀ a, (![0, 0] : Fin 2 → Nat) a + S16384x1.size a ≤ S16384x1.size a
  h_S16384x1 : 0 < S16384x1.numel
  shapeCasts_S800000x1_S800000 : S800000x1.ShapeCasts S800000
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S50000x64.size a
  hwx0_5 : ∀ i : grid0.Coords, EltTy.bits .f32 = 32 ∨ (Rect.block (s := S50000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S50000x64.size a
  hwx1_5 : ∀ i : grid1.Coords, EltTy.bits .f32 = 32 ∨ (Rect.block (s := S50000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hstart2_0 : ∀ (i : grid2.Coords) a, cc2_transform_0 i a * S16384x64.size a < S800000x64.size a
  hwx2_0 : ∀ i : grid2.Coords, EltTy.bits .f32 = 32 ∨ (Rect.unit (s := S800000x64) (fun a => cc2_transform_0 i a * S16384x64.size a) (fun a => (Pipeline.Clip.of (cc2_transform_0 i a) (S16384x64.size a) (S800000x64.size a)).extent (S16384x64.size a)) fun a => Pipeline.Clip.inb (Pipeline.Clip.ok_of (hstart2_0 i a))).WholeWords (EltTy.packing .f32)
  hwxs2_0 : ∀ i : grid2.Coords, EltTy.bits .f32 = 32 ∨ (Rect.unit (s := S16384x64) (fun _ => 0) (fun a => (Pipeline.Clip.of (cc2_transform_0 i a) (S16384x64.size a) (S800000x64.size a)).extent (S16384x64.size a)) fun a => (Nat.zero_add _).trans_le (Pipeline.Clip.extent_le (Pipeline.Clip.ok_of (hstart2_0 i a)))).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hstart2_1 : ∀ (i : grid2.Coords) a, cc2_transform_1 i a * S16384x64.size a < S800000x64.size a
  hwx2_1 : ∀ i : grid2.Coords, EltTy.bits .f32 = 32 ∨ (Rect.unit (s := S800000x64) (fun a => cc2_transform_1 i a * S16384x64.size a) (fun a => (Pipeline.Clip.of (cc2_transform_1 i a) (S16384x64.size a) (S800000x64.size a)).extent (S16384x64.size a)) fun a => Pipeline.Clip.inb (Pipeline.Clip.ok_of (hstart2_1 i a))).WholeWords (EltTy.packing .f32)
  hwxs2_1 : ∀ i : grid2.Coords, EltTy.bits .f32 = 32 ∨ (Rect.unit (s := S16384x64) (fun _ => 0) (fun a => (Pipeline.Clip.of (cc2_transform_1 i a) (S16384x64.size a) (S800000x64.size a)).extent (S16384x64.size a)) fun a => (Nat.zero_add _).trans_le (Pipeline.Clip.extent_le (Pipeline.Clip.ok_of (hstart2_1 i a)))).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hstart2_2 : ∀ (i : grid2.Coords) a, cc2_transform_2 i a * S16384x1.size a < S800000x1.size a
  hwx2_2 : ∀ i : grid2.Coords, EltTy.bits .f32 = 32 ∨ (Rect.unit (s := S800000x1) (fun a => cc2_transform_2 i a * S16384x1.size a) (fun a => (Pipeline.Clip.of (cc2_transform_2 i a) (S16384x1.size a) (S800000x1.size a)).extent (S16384x1.size a)) fun a => Pipeline.Clip.inb (Pipeline.Clip.ok_of (hstart2_2 i a))).WholeWords (EltTy.packing .f32)
  hwxs2_2 : ∀ i : grid2.Coords, EltTy.bits .f32 = 32 ∨ (Rect.unit (s := S16384x1) (fun _ => 0) (fun a => (Pipeline.Clip.of (cc2_transform_2 i a) (S16384x1.size a) (S800000x1.size a)).extent (S16384x1.size a)) fun a => (Nat.zero_add _).trans_le (Pipeline.Clip.extent_le (Pipeline.Clip.ok_of (hstart2_2 i a)))).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v19) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpecClip (Memref.whole main_v46) S16384x64.size cc2_transform_0 reads2_0 false false 2 stage2_0 sem2_0
    hrank2 hreads2_0 hstart2_0 nbuf2_0 (Memref.isWhole_whole _) hwx2_0 hwxs2_0 hstage2_0

abbrev win2_1 : Pipeline.Window sig grid2 :=
  Pipeline.Window.ofSpecClip (Memref.whole main_v53) S16384x64.size cc2_transform_1 reads2_1 false false 2 stage2_1 sem2_1
    hrank2 hreads2_1 hstart2_1 nbuf2_1 (Memref.isWhole_whole _) hwx2_1 hwxs2_1 hstage2_1

abbrev win2_2 : Pipeline.Window sig grid2 :=
  Pipeline.Window.ofSpecClip (Memref.whole main_v54) S16384x1.size cc2_transform_2 reads2_2 true false 2 stage2_2 sem2_2
    hrank2 hreads2_2 hstart2_2 nbuf2_2 (Memref.isWhole_whole _) hwx2_2 hwxs2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x64 : Shape := ⟨2, ![50000, 64]⟩
abbrev S800000 : Shape := ⟨1, ![800000]⟩
abbrev S64x64 : Shape := ⟨2, ![64, 64]⟩
abbrev S64 : Shape := ⟨1, ![64]⟩
abbrev S_ : Shape := ⟨0, ![]⟩
abbrev S800000x1 : Shape := ⟨2, ![800000, 1]⟩
abbrev S800000x64 : Shape := ⟨2, ![800000, 64]⟩
abbrev S50000 : Shape := ⟨1, ![50000]⟩
abbrev S50000x1 : Shape := ⟨2, ![50000, 1]⟩
abbrev S1x64 : Shape := ⟨2, ![1, 64]⟩

abbrev nBuf : Space → Nat
  | .hbm => 114
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S800000, .i32⟩
  | .hbm, ⟨2, _⟩ => ⟨S800000, .i32⟩
  | .hbm, ⟨3, _⟩ => ⟨S64x64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64x64, .f32⟩
  | .hbm, ⟨8, _⟩ => ⟨S64, .f32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x64, .f32⟩
  | .hbm, ⟨18, _⟩ => ⟨S_, .f32⟩
  | .hbm, ⟨19, _⟩ => ⟨S50000x64, .f32⟩
  | .hbm, ⟨20, _⟩ => ⟨S800000x1, .i32⟩
  | .hbm, ⟨21, _⟩ => ⟨S50000x64, .f32⟩
  | .hbm, ⟨22, _⟩ => ⟨S_, .f32⟩
  | .hbm, ⟨23, _⟩ => ⟨S800000, .f32⟩
  | .hbm, ⟨24, _⟩ => ⟨S_, .f32⟩
  | .hbm, ⟨25, _⟩ => ⟨S50000, .f32⟩
  | .hbm, ⟨26, _⟩ => ⟨S800000x1, .i32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S50000x64, .f32⟩
  | .hbm, ⟨33, _⟩ => ⟨S50000x64, .f32⟩
  | .hbm, ⟨34, _⟩ => ⟨S50000x64, .f32⟩
  | .hbm, ⟨35, _⟩ => ⟨S50000x64, .f32⟩
  | .hbm, ⟨36, _⟩ => ⟨S50000x64, .f32⟩
  | .hbm, ⟨37, _⟩ => ⟨S1x64, .f32⟩
  | .hbm, ⟨38, _⟩ => ⟨S50000x64, .f32⟩
  | .hbm, ⟨39, _⟩ => ⟨S50000x64, .f32⟩
  | .hbm, ⟨40, _⟩ => ⟨S_, .f32⟩
  | .hbm, ⟨41, _⟩ => ⟨S50000x64, .f32⟩
  | .hbm, ⟨42, _⟩ => ⟨S50000x64, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x64, .f32⟩
  | .hbm, ⟨52, _⟩ => ⟨S_, .f32⟩
  | .hbm, ⟨53, _⟩ => ⟨S50000x64, .f32⟩
  | .hbm, ⟨54, _⟩ => ⟨S800000x1, .i32⟩
  | .hbm, ⟨55, _⟩ => ⟨S50000x64, .f32⟩
  | .hbm, ⟨56, _⟩ => ⟨S_, .f32⟩
  | .hbm, ⟨57, _⟩ => ⟨S800000, .f32⟩
  | .hbm, ⟨58, _⟩ => ⟨S_, .f32⟩
  | .hbm, ⟨59, _⟩ => ⟨S50000, .f32⟩
  | .hbm, ⟨60, _⟩ => ⟨S800000x1, .i32⟩
  | .hbm, ⟨61, _⟩ => ⟨S50000, .f32⟩
  | .hbm, ⟨62, _⟩ => ⟨S_, .f32⟩
  | .hbm, ⟨63, _⟩ => ⟨S50000, .f32⟩
  | .hbm, ⟨64, _⟩ => ⟨S50000, .f32⟩
  | .hbm, ⟨65, _⟩ => ⟨S50000x1, .f32⟩
  | .hbm, ⟨66, _⟩ => ⟨S50000x64, .f32⟩
  | .hbm, ⟨67, _⟩ => ⟨S50000x64, .f32⟩
  | .hbm, ⟨68, _⟩ => ⟨S50000x64, .f32⟩
  | .hbm, ⟨69, _⟩ => ⟨S50000x64, .f32⟩
  | .hbm, ⟨70, _⟩ => ⟨S50000x64, .f32⟩
  | .hbm, ⟨71, _⟩ => ⟨S1x64, .f32⟩
  | .hbm, ⟨72, _⟩ => ⟨S50000x64, .f32⟩
  | .hbm, ⟨73, _⟩ => ⟨S50000x64, .f32⟩
  | .hbm, ⟨74, _⟩ => ⟨S_, .f32⟩
  | .hbm, ⟨75, _⟩ => ⟨S50000x64, .f32⟩
  | .hbm, ⟨76, _⟩ => ⟨S50000x64, .f32⟩
  | .hbm, ⟨77, _⟩ => ⟨S_, .i32⟩
  | .hbm, ⟨78, _⟩ => ⟨S800000, .i32⟩
  | .hbm, ⟨79, _⟩ => ⟨S800000, .i1⟩
  | .hbm, ⟨80, _⟩ => ⟨S_, .i32⟩
  | .hbm, ⟨81, _⟩ => ⟨S800000, .i32⟩
  | .hbm, ⟨82, _⟩ => ⟨S800000, .i32⟩
  | .hbm, ⟨83, _⟩ => ⟨S800000, .i32⟩
  | .hbm, ⟨84, _⟩ => ⟨S800000x1, .i32⟩
  | .hbm, ⟨85, _⟩ => ⟨S800000x64, .f32⟩
  | .hbm, ⟨86, _⟩ => ⟨S_, .i32⟩
  | .hbm, ⟨87, _⟩ => ⟨S800000, .i32⟩
  | .hbm, ⟨88, _⟩ => ⟨S800000, .i1⟩
  | .hbm, ⟨89, _⟩ => ⟨S_, .i32⟩
  | .hbm, ⟨90, _⟩ => ⟨S800000, .i32⟩
  | .hbm, ⟨91, _⟩ => ⟨S800000, .i32⟩
  | .hbm, ⟨92, _⟩ => ⟨S800000, .i32⟩
  | .hbm, ⟨93, _⟩ => ⟨S800000x1, .i32⟩
  | .hbm, ⟨94, _⟩ => ⟨S800000x64, .f32⟩
  | .hbm, ⟨95, _⟩ => ⟨S800000x64, .f32⟩
  | .hbm, ⟨96, _⟩ => ⟨S_, .f32⟩
  | .hbm, ⟨97, _⟩ => ⟨S800000, .f32⟩
  | .hbm, ⟨98, _⟩ => ⟨S800000, .f32⟩
  | .hbm, ⟨99, _⟩ => ⟨S800000, .f32⟩
  | .hbm, ⟨100, _⟩ => ⟨S_, .f32⟩
  | .hbm, ⟨101, _⟩ => ⟨S800000, .f32⟩
  | .hbm, ⟨102, _⟩ => ⟨S800000, .f32⟩
  | .hbm, ⟨103, _⟩ => ⟨S_, .f32⟩
  | .hbm, ⟨104, _⟩ => ⟨S800000, .f32⟩
  | .hbm, ⟨105, _⟩ => ⟨S800000, .f32⟩
  | .hbm, ⟨106, _⟩ => ⟨S800000, .f32⟩
  | .hbm, ⟨107, _⟩ => ⟨S800000, .f32⟩
  | .hbm, ⟨108, _⟩ => ⟨S_, .f32⟩
  | .hbm, ⟨109, _⟩ => ⟨S800000, .f32⟩
  | .hbm, ⟨110, _⟩ => ⟨S800000, .f32⟩
  | .hbm, ⟨111, _⟩ => ⟨S_, .f32⟩
  | .hbm, ⟨112, _⟩ => ⟨S800000, .f32⟩
  | .hbm, ⟨113, _⟩ => ⟨S800000, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_call0_cst : Ref sig .tc := ⟨.hbm, 40, rfl⟩
abbrev main_call0_v0 : Ref sig .tc := ⟨.hbm, 41, rfl⟩
abbrev main_v25 : Ref sig .tc := ⟨.hbm, 42, rfl⟩
abbrev main_c_4 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_6 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_7 : Ref sig .tc := ⟨.hbm, 56, rfl⟩
abbrev main_v36 : Ref sig .tc := ⟨.hbm, 57, rfl⟩
abbrev main_cst_8 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_9 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_call1_cst : Ref sig .tc := ⟨.hbm, 74, rfl⟩
abbrev main_call1_v0 : Ref sig .tc := ⟨.hbm, 75, rfl⟩
abbrev main_v51 : Ref sig .tc := ⟨.hbm, 76, rfl⟩
abbrev main_c_10 : Ref sig .tc := ⟨.hbm, 77, rfl⟩
abbrev main_v52 : Ref sig .tc := ⟨.hbm, 78, rfl⟩
abbrev main_v53 : Ref sig .tc := ⟨.hbm, 79, rfl⟩
abbrev main_c_11 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_c_12 : Ref sig .tc := ⟨.hbm, 86, rfl⟩
abbrev main_v59 : Ref sig .tc := ⟨.hbm, 87, rfl⟩
abbrev main_v60 : Ref sig .tc := ⟨.hbm, 88, rfl⟩
abbrev main_c_13 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_14 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_15 : Ref sig .tc := ⟨.hbm, 100, rfl⟩
abbrev main_v70 : Ref sig .tc := ⟨.hbm, 101, rfl⟩
abbrev main_v71 : Ref sig .tc := ⟨.hbm, 102, rfl⟩
abbrev main_cst_16 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_cst_17 : Ref sig .tc := ⟨.hbm, 108, rfl⟩
abbrev main_v76 : Ref sig .tc := ⟨.hbm, 109, rfl⟩
abbrev main_v77 : Ref sig .tc := ⟨.hbm, 110, rfl⟩
abbrev main_cst_18 : Ref sig .tc := ⟨.hbm, 111, rfl⟩
abbrev main_v78 : Ref sig .tc := ⟨.hbm, 112, rfl⟩
abbrev main_v79 : Ref sig .tc := ⟨.hbm, 113, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S800000x64_S800000_d1 : S800000x64.ReducesTo [1] S800000
  h_S_ : 0 < S_.numel
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S50000x64_S64x64_S50000x64_1_0_0_1_n_n_wf : DotDims.WF S50000x64 S64x64 S50000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.K.Data0.lean ====
/-
  The node-combine call number 0: what each of its six windows holds at a grid point, as a function of the arrays
  the call finds. Point t of ten takes rows 5000·t … 5000·t + 4999 of the two node arrays, the two 64 × 64 weight
  matrices and the bias whole, and writes max(x·W_self + h·W_neigh + b, 0) on those rows of the result.
-/
import proofs.«117563_j13804024889624_1_alg».proof.Proof.Gen.Kernel.Launch
import proofs.«117563_j13804024889624_1_alg».proof.Proof.Gen.Kernel.Skeleton
import proofs.«117563_j13804024889624_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole 5000 × 64 block, the whole 64 × 64 matrix, the whole bias vector: the rectangles the body reads and writes. -/
abbrev rA0 : Rect S5000x64 := Rect.unit (s := S5000x64) ![0, 0] S5000x64.size inb_S5000x64_S5000x64_0_0
abbrev rW0 : Rect S64x64 := Rect.unit (s := S64x64) ![0, 0] S64x64.size inb_S64x64_S64x64_0_0
abbrev rB0 : Rect S64 := Rect.unit (s := S64) ![0] S64.size inb_S64_S64_0

/-- The result block after the body, from the five input blocks: one whole-block store of the body's value. -/
def out0_5 (x0 x1 : Vec F S5000x64 .f32) (x2 x3 : Vec F S64x64 .f32) (x4 : Vec F S64 .f32) : Vec F S5000x64 .f32 :=
  View.canon [⟨rA0, k0_pay1 (View.ld x0 rA0) (View.ld x1 rA0) (View.ld x2 rW0) (View.ld x3 rW0) (View.ld x4 rB0)⟩]

/-- The call's proof data on core c: the arrays as found; after the body each input's buffer at its block and the
    result's at the body's value of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t
    = out0_5 (iblk0 V c 0 t) (iblk0 V c 1 t) (iblk0 V c 2 t) (iblk0 V c 3 t) (iblk0 V c 4 t) := by dsimp only [dat0]

end Cert.Kernel.Regions

end
-- ==== Proof.K.Data1.lean ====
/-
  The node-combine call number 1: what each of its six windows holds at a grid point, as a function of the arrays
  the call finds. Point t of ten takes rows 5000·t … 5000·t + 4999 of the two node arrays, the two 64 × 64 weight
  matrices and the bias whole, and writes max(x·W_self + h·W_neigh + b, 0) on those rows of the result.
-/
import proofs.«117563_j13804024889624_1_alg».proof.Proof.Gen.Kernel.Launch
import proofs.«117563_j13804024889624_1_alg».proof.Proof.Gen.Kernel.Skeleton
import proofs.«117563_j13804024889624_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole 5000 × 64 block, the whole 64 × 64 matrix, the whole bias vector: the rectangles the body reads and writes. -/
abbrev rA1 : Rect S5000x64 := Rect.unit (s := S5000x64) ![0, 0] S5000x64.size inb_S5000x64_S5000x64_0_0
abbrev rW1 : Rect S64x64 := Rect.unit (s := S64x64) ![0, 0] S64x64.size inb_S64x64_S64x64_0_0
abbrev rB1 : Rect S64 := Rect.unit (s := S64) ![0] S64.size inb_S64_S64_0

/-- The result block after the body, from the five input blocks: one whole-block store of the body's value. -/
def out1_5 (x0 x1 : Vec F S5000x64 .f32) (x2 x3 : Vec F S64x64 .f32) (x4 : Vec F S64 .f32) : Vec F S5000x64 .f32 :=
  View.canon [⟨rA1, k1_pay1 (View.ld x0 rA1) (View.ld x1 rA1) (View.ld x2 rW1) (View.ld x3 rW1) (View.ld x4 rB1)⟩]

/-- The call's proof data on core c: the arrays as found; after the body each input's buffer at its block and the
    result's at the body's value of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t
    = out1_5 (iblk1 V c 0 t) (iblk1 V c 1 t) (iblk1 V c 2 t) (iblk1 V c 3 t) (iblk1 V c 4 t) := by dsimp only [dat1]

end Cert.Kernel.Regions

end
-- ==== Proof.K.Data2.lean ====
/-
  The edge-score call: what each of its three windows holds at a grid point. Point t of forty-nine takes rows
  16384·t … of the two gathered edge arrays (800000 rows: the last block has 13568 rows inside the array and
  2816 past its end) and writes σ(σ(Σ_d x_src[e,d]·x_dst[e,d])) on those rows of the 800000 × 1 result. Past the
  arrays' end a staging buffer holds words nothing names; the data below fills a block out with the zero word
  there, and every window is stated on the rows inside the array only.
-/
import proofs.«117563_j13804024889624_1_alg».proof.Proof.Gen.Kernel.Launch
import proofs.«117563_j13804024889624_1_alg».proof.Proof.Gen.Kernel.Skeleton
import proofs.«117563_j13804024889624_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- The source-side block at point t as the fetch reads it: its part inside the array. -/
def xblk2 (c : Dev nD) (t : Fin cfg2.N) : (win2_0.xblock (grid2.coords t)).Idx → Elt F .f32 :=
  (win2_0.blk t).view.read (Elt F) (V c (Pipeline.arrRef spec2 0))
/-- The destination-side block likewise. -/
def yblk2 (c : Dev nD) (t : Fin cfg2.N) : (win2_1.xblock (grid2.coords t)).Idx → Elt F .f32 :=
  (win2_1.blk t).view.read (Elt F) (V c (Pipeline.arrRef spec2 1))

/-- The two blocks filled out to the staging buffer's 16384 rows with the zero word. -/
def xfill2 (c : Dev nD) (t : Fin cfg2.N) : Vec F S16384x64 .f32 :=
  win2_0.fill (grid2.coords t) (fun _ => Scalar.ofBits .f32 0#32) (xblk2 V c t)
def yfill2 (c : Dev nD) (t : Fin cfg2.N) : Vec F S16384x64 .f32 :=
  win2_1.fill (grid2.coords t) (fun _ => Scalar.ofBits .f32 0#32) (yblk2 V c t)

/-- The call's proof data on core c: the arrays as found; after the body the two inputs' buffers at their filled
    blocks and the result's at the body's value of those; nothing owed; full shares. -/
def dat2 (c : Dev nD) : Dat τ (Elt F) Unit ℕ (UR sig nD τ) ℕ cfg2 c where
  A w := V c (Pipeline.arrRef spec2 w)
  after w t := match w with
    | ⟨0, _⟩ => xfill2 V c t
    | ⟨1, _⟩ => yfill2 V c t
    | ⟨2, _⟩ => k2_pay1 (xfill2 V c t) (yfill2 V c t)
  Φ _ := Pipeline.ΦA spec2 c
  q _ := fullShare
  owed _ := 0

/-- The window the Bits-level frame says nothing about: the result's (its rows at the last point are an opaque
    function of a buffer whose tail nothing names). -/
def fgt2 : Fin cfg2.W → Bool := fun w => decide (w = 2)

theorem A_eq2 (c : Dev nD) (w : Fin cfg2.W) : (dat2 V c).A w = V c (Pipeline.arrRef spec2 w) := by
  dsimp only [dat2]
theorem after2_0 (c : Dev nD) (t : Fin cfg2.N) : (dat2 V c).after 0 t = xfill2 V c t := by dsimp only [dat2]
theorem after2_1 (c : Dev nD) (t : Fin cfg2.N) : (dat2 V c).after 1 t = yfill2 V c t := by dsimp only [dat2]
theorem after2_2 (c : Dev nD) (t : Fin cfg2.N) : (dat2 V c).after 2 t = k2_pay1 (xfill2 V c t) (yfill2 V c t) := by dsimp only [dat2]

end Cert.Kernel.Regions

end
-- ==== Proof.K.Fold.lean ====
/-
  The buffers' contents at each boundary between two items of the program, as a fold from the launch memory:
  a stretch of host operations applies them (`StableHlo.after`); a kernel call changes its result array only, to what
  its write-backs leave (the proof data's `arrAt` at the last point). Read back through the fold, each of the nine
  argument arrays holds its launch contents at the end: no host operation writes one and no call's result array is one.
  Then every call's proof data at the contents its call is entered from, and the pieces every thread state is made of.
-/
import proofs.«117563_j13804024889624_1_alg».proof.Proof.K.Data0
import proofs.«117563_j13804024889624_1_alg».proof.Proof.K.Data1
import proofs.«117563_j13804024889624_1_alg».proof.Proof.K.Data2
import proofs.«117563_j13804024889624_1_alg».proof.Proof.Gen.Kernel.Regions

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-! ## The contents at each boundary -/

/-- Core c's buffers at launch. -/
abbrev W0 : Dev nD → Valuation τ sig (Elt F) := fun c b => m (c, b)
/-- After the first aggregation (the first call's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- What the first call leaves in its result array. -/
def o2 (c : Dev nD) : Buf (Elt F) ((c : Thread nD τ).loc main_v19) := (dat0 (V1 m) c).arrAt 5 cfg0.N
/-- After the first call: its result array at what it wrote, every other buffer as entered. -/
abbrev W2 : Dev nD → Valuation τ sig (Elt F) := fun c => Function.update (W1 m c) main_v19 (o2 m c)
abbrev V2 : (c : Dev nD) → (b : Ref sig .tc) → Buf (Elt F) ((c : Thread nD τ).loc b) := fun c b => W2 m c b
/-- After the second aggregation (the second call's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- What the second call leaves in its result array. -/
def o4 (c : Dev nD) : Buf (Elt F) ((c : Thread nD τ).loc main_v39) := (dat1 (V3 m) c).arrAt 5 cfg1.N
abbrev W4 : Dev nD → Valuation τ sig (Elt F) := fun c => Function.update (W3 m c) main_v39 (o4 m c)
abbrev V4 : (c : Dev nD) → (b : Ref sig .tc) → Buf (Elt F) ((c : Thread nD τ).loc b) := fun c b => W4 m c b
/-- After the two gathers (the edge-score call's entry). -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b
/-- After the edge-score call, its result array at contents x. -/
abbrev W6x (c : Dev nD) (x : Buf (Elt F) ((c : Thread nD τ).loc main_v54)) : Valuation τ sig (Elt F) :=
  Function.update (W5 m c) main_v54 x
/-- What the edge-score call leaves in its result array, where that can be named. -/
def o6 (c : Dev nD) : Buf (Elt F) ((c : Thread nD τ).loc main_v54) := (dat2 (V5 m) c).arrAt 2 cfg2.N
abbrev W6 : Dev nD → Valuation τ sig (Elt F) := fun c => W6x m c (o6 m c)
abbrev V6 : (c : Dev nD) → (b : Ref sig .tc) → Buf (Elt F) ((c : Thread nD τ).loc b) := fun c b => W6 m c b
/-- After the closing reshape, from the edge-score result at contents x; and from the named one. -/
abbrev W7x (c : Dev nD) (x : Buf (Elt F) ((c : Thread nD τ).loc main_v54)) : Valuation τ sig (Elt F) :=
  StableHlo.after hostOps3 (W6x m c x)
abbrev W7 : Dev nD → Valuation τ sig (Elt F) := fun c => W7x m c (o6 m c)

/-! ## What each item leaves unchanged -/

theorem W1_of (c : Dev nD) (r : Ref sig .tc) (h : r ∉ hostOps0_W) : W1 m c r = W0 m c r :=
  StableHlo.after_of_writes_sub hostOps0 _ hostOps0_writes h
theorem W2_of (c : Dev nD) (r : Ref sig .tc) (h : r ∉ ([main_v19] : List (Ref sig .tc))) : W2 m c r = W1 m c r := by
  simp only [W2, Function.update_of_ne (StableHlo.devRef_ne_of_ne (List.ne_of_not_mem_cons h) : (Proc.devRef .tc r : DevRef τ sig) ≠ Proc.devRef .tc main_v19)]
theorem W3_of (c : Dev nD) (r : Ref sig .tc) (h : r ∉ hostOps1_W) : W3 m c r = W2 m c r :=
  StableHlo.after_of_writes_sub hostOps1 _ hostOps1_writes h
theorem W4_of (c : Dev nD) (r : Ref sig .tc) (h : r ∉ ([main_v39] : List (Ref sig .tc))) : W4 m c r = W3 m c r := by
  simp only [W4, Function.update_of_ne (StableHlo.devRef_ne_of_ne (List.ne_of_not_mem_cons h) : (Proc.devRef .tc r : DevRef τ sig) ≠ Proc.devRef .tc main_v39)]
theorem W5_of (c : Dev nD) (r : Ref sig .tc) (h : r ∉ hostOps2_W) : W5 m c r = W4 m c r :=
  StableHlo.after_of_writes_sub hostOps2 _ hostOps2_writes h
theorem W6x_of (c : Dev nD) (x) (r : Ref sig .tc) (h : r ∉ ([main_v54] : List (Ref sig .tc))) : W6x m c x r = W5 m c r := by
  simp only [W6x, Function.update_of_ne (StableHlo.devRef_ne_of_ne (List.ne_of_not_mem_cons h) : (Proc.devRef .tc r : DevRef τ sig) ≠ Proc.devRef .tc main_v54)]
theorem W7x_of (c : Dev nD) (x) (r : Ref sig .tc) (h : r ∉ hostOps3_W) : W7x m c x r = W6x m c x r :=
  StableHlo.after_of_writes_sub hostOps3 _ hostOps3_writes h

/-- An argument array (any reference no host operation writes and no call's result array is) ends as launched,
    whatever the edge-score call left. -/
theorem W7x_arg (c : Dev nD) (x) (r : Ref sig .tc) (h0 : r ∉ hostOps0_W) (h1 : r ∉ hostOps1_W) (h2 : r ∉ hostOps2_W)
    (h3 : r ∉ hostOps3_W) (h19 : r ∉ ([main_v19] : List (Ref sig .tc))) (h39 : r ∉ ([main_v39] : List (Ref sig .tc)))
    (h54 : r ∉ ([main_v54] : List (Ref sig .tc))) : W7x m c x r = m ((c : Thread nD τ).loc r) :=
  (W7x_of m c x r h3).trans <| (W6x_of m c x r h54).trans <| (W5_of m c r h2).trans <| (W4_of m c r h39).trans <|
    (W3_of m c r h1).trans <| (W2_of m c r h19).trans <| (W1_of m c r h0).trans rfl

theorem W7x_main_arg0 (c : Dev nD) (x) : W7x m c x main_arg0 = m ((c : Thread nD τ).loc main_arg0) :=
  W7x_arg m c x main_arg0 (by decide) (by decide) (by decide) (by decide) (by decide) (by decide) (by decide)
theorem W7x_main_arg1 (c : Dev nD) (x) : W7x m c x main_arg1 = m ((c : Thread nD τ).loc main_arg1) :=
  W7x_arg m c x main_arg1 (by decide) (by decide) (by decide) (by decide) (by decide) (by decide) (by decide)
theorem W7x_main_arg2 (c : Dev nD) (x) : W7x m c x main_arg2 = m ((c : Thread nD τ).loc main_arg2) :=
  W7x_arg m c x main_arg2 (by decide) (by decide) (by decide) (by decide) (by decide) (by decide) (by decide)
theorem W7x_main_arg3 (c : Dev nD) (x) : W7x m c x main_arg3 = m ((c : Thread nD τ).loc main_arg3) :=
  W7x_arg m c x main_arg3 (by decide) (by decide) (by decide) (by decide) (by decide) (by decide) (by decide)
theorem W7x_main_arg4 (c : Dev nD) (x) : W7x m c x main_arg4 = m ((c : Thread nD τ).loc main_arg4) :=
  W7x_arg m c x main_arg4 (by decide) (by decide) (by decide) (by decide) (by decide) (by decide) (by decide)
theorem W7x_main_arg5 (c : Dev nD) (x) : W7x m c x main_arg5 = m ((c : Thread nD τ).loc main_arg5) :=
  W7x_arg m c x main_arg5 (by decide) (by decide) (by decide) (by decide) (by decide) (by decide) (by decide)
theorem W7x_main_arg6 (c : Dev nD) (x) : W7x m c x main_arg6 = m ((c : Thread nD τ).loc main_arg6) :=
  W7x_arg m c x main_arg6 (by decide) (by decide) (by decide) (by decide) (by decide) (by decide) (by decide)
theorem W7x_main_arg7 (c : Dev nD) (x) : W7x m c x main_arg7 = m ((c : Thread nD τ).loc main_arg7) :=
  W7x_arg m c x main_arg7 (by decide) (by decide) (by decide) (by decide) (by decide) (by decide) (by decide)
theorem W7x_main_arg8 (c : Dev nD) (x) : W7x m c x main_arg8 = m ((c : Thread nD τ).loc main_arg8) :=
  W7x_arg m c x main_arg8 (by decide) (by decide) (by decide) (by decide) (by decide) (by decide) (by decide)

/-! ## Each call's arrays at its exit: the result array at what the call wrote, the others as entered -/

theorem hF0 (c : Dev nD) (w : Fin cfg0.W) : (dat0 (V1 m) c).arrAt w cfg0.N = V2 m c (Pipeline.arrRef spec0 w) := by
  match w with
  | ⟨0, _⟩ => exact ((dat0 (V1 m) c).arrAt_in 0 rfl _).trans ((A_eq0 (V1 m) c 0).trans (W2_of m c main_arg0 (by decide)).symm)
  | ⟨1, _⟩ => exact ((dat0 (V1 m) c).arrAt_in 1 rfl _).trans ((A_eq0 (V1 m) c 1).trans (W2_of m c main_v18 (by decide)).symm)
  | ⟨2, _⟩ => exact ((dat0 (V1 m) c).arrAt_in 2 rfl _).trans ((A_eq0 (V1 m) c 2).trans (W2_of m c main_arg3 (by decide)).symm)
  | ⟨3, _⟩ => exact ((dat0 (V1 m) c).arrAt_in 3 rfl _).trans ((A_eq0 (V1 m) c 3).trans (W2_of m c main_arg4 (by decide)).symm)
  | ⟨4, _⟩ => exact ((dat0 (V1 m) c).arrAt_in 4 rfl _).trans ((A_eq0 (V1 m) c 4).trans (W2_of m c main_arg5 (by decide)).symm)
  | ⟨5, _⟩ => exact (Function.update_self (β := fun b : DevRef τ sig => Buf (Elt F) ((c : Thread nD τ).1, b)) (Proc.devRef .tc main_v19) _ _).symm
theorem hrest0 (c : Dev nD) : ∀ b, b ∉ Finset.univ.image (Pipeline.arrRef spec0) → V2 m c b = V1 m c b := fun b hb =>
  W2_of m c b fun h => hb (Finset.mem_image.mpr ⟨5, Finset.mem_univ _, show Pipeline.arrRef spec0 5 = b from (List.mem_singleton.mp h).symm⟩)
theorem hF1 (c : Dev nD) (w : Fin cfg1.W) : (dat1 (V3 m) c).arrAt w cfg1.N = V4 m c (Pipeline.arrRef spec1 w) := by
  match w with
  | ⟨0, _⟩ => exact ((dat1 (V3 m) c).arrAt_in 0 rfl _).trans ((A_eq1 (V3 m) c 0).trans (W4_of m c main_v19 (by decide)).symm)
  | ⟨1, _⟩ => exact ((dat1 (V3 m) c).arrAt_in 1 rfl _).trans ((A_eq1 (V3 m) c 1).trans (W4_of m c main_v38 (by decide)).symm)
  | ⟨2, _⟩ => exact ((dat1 (V3 m) c).arrAt_in 2 rfl _).trans ((A_eq1 (V3 m) c 2).trans (W4_of m c main_arg6 (by decide)).symm)
  | ⟨3, _⟩ => exact ((dat1 (V3 m) c).arrAt_in 3 rfl _).trans ((A_eq1 (V3 m) c 3).trans (W4_of m c main_arg7 (by decide)).symm)
  | ⟨4, _⟩ => exact ((dat1 (V3 m) c).arrAt_in 4 rfl _).trans ((A_eq1 (V3 m) c 4).trans (W4_of m c main_arg8 (by decide)).symm)
  | ⟨5, _⟩ => exact (Function.update_self (β := fun b : DevRef τ sig => Buf (Elt F) ((c : Thread nD τ).1, b)) (Proc.devRef .tc main_v39) _ _).symm
theorem hrest1 (c : Dev nD) : ∀ b, b ∉ Finset.univ.image (Pipeline.arrRef spec1) → V4 m c b = V3 m c b := fun b hb =>
  W4_of m c b fun h => hb (Finset.mem_image.mpr ⟨5, Finset.mem_univ _, show Pipeline.arrRef spec1 5 = b from (List.mem_singleton.mp h).symm⟩)
theorem hF2 (c : Dev nD) (w : Fin cfg2.W) : (dat2 (V5 m) c).arrAt w cfg2.N = V6 m c (Pipeline.arrRef spec2 w) := by
  match w with
  | ⟨0, _⟩ => exact ((dat2 (V5 m) c).arrAt_in 0 rfl _).trans ((A_eq2 (V5 m) c 0).trans (W6x_of m c (o6 m c) main_v46 (by decide)).symm)
  | ⟨1, _⟩ => exact ((dat2 (V5 m) c).arrAt_in 1 rfl _).trans ((A_eq2 (V5 m) c 1).trans (W6x_of m c (o6 m c) main_v53 (by decide)).symm)
  | ⟨2, _⟩ => exact (Function.update_self (β := fun b : DevRef τ sig => Buf (Elt F) ((c : Thread nD τ).1, b)) (Proc.devRef .tc main_v54) _ _).symm
theorem hrest2 (c : Dev nD) : ∀ b, b ∉ Finset.univ.image (Pipeline.arrRef spec2) → V6 m c b = V5 m c b := fun b hb =>
  W6x_of m c (o6 m c) b fun h => hb (Finset.mem_image.mpr ⟨2, Finset.mem_univ _, show Pipeline.arrRef spec2 2 = b from (List.mem_singleton.mp h).symm⟩)

/-! ## The proof data family and the thread state's pieces -/

/-- No call has a prefetched table. -/
abbrev adm : (p : Fin 3) → (pcfgs (F := F) p).Adm := fun p => (cfgs p).toPCfg_adm
/-- Every call's proof data, each at the contents its call is entered from. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its debts, none. -/
abbrev R (c : Dev nD) : sProp 𝕄 := iprop((∃ r, prngReg c r) ∗ ∃ W, owes (c : Thread nD τ) (0 : CellTallies nD τ sig Unit) W)
/-- A stretch of host operations as an item: from the contents W to `StableHlo.after ops (W c)`, R riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.Kernel.Regions

end
-- ==== Proof.K.LastStretch.lean ====
/-
  The closing stretch of host operations — the one reshape of the edge-score result into the program's result — as an
  item whose thread state does not name what the edge-score call left: from the buffers at the contents after that
  call with its result array at SOME contents x, to the buffers after the reshape from those same contents x.
-/
import proofs.«117563_j13804024889624_1_alg».proof.Proof.K.Fold

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-- The closing reshape as an item, existential in the edge-score result array's contents: whatever contents x the
    array holds before, the stretch run from the buffers at x leaves them at the reshape of x, and that x is the
    witness after. What rides beside the buffers is untouched. -/
def seg6x : Pipeline.HostSeg (Name := ℕ) (U := UR sig nD τ) (pcfgs (F := F)) defs₀ 𝒱₀ L lv where
  prog := StableHlo.seq hostOps3
  pre c := iprop(∃ x, StableHlo.held (c : Thread nD τ) (Pipeline.ucRefs τ sig) (W6x m c x) ∗ R c)
  post c := iprop(∃ x, StableHlo.held (c : Thread nD τ) (Pipeline.ucRefs τ sig) (W7x m c x) ∗ R c)
  run c {β} k K := by
    iintro ⟨Hk, Hbd, ⟨%x, Hpre⟩, Hlev⟩
    have h := (hseg hostOps3 hostOps3_sub hostOps3_fresh (fun c => W6x m c x)).run c k K
    dsimp only [hseg, Pipeline.HostSeg.ofOps] at h
    iapply h
    isplitl [Hk]
    · iintro ⟨Hbd, Hpost⟩
      iapply Hk
      isplitl [Hbd]; · iexact Hbd
      iexists x
      iexact Hpost
    isplitl [Hbd]; · iexact Hbd
    isplitl [Hpre]; · iexact Hpre
    iexact Hlev

theorem seg6x_prog : (seg6x m).prog = StableHlo.seq hostOps3 := rfl

theorem seg6x_pre (c : Dev nD) : (seg6x m).pre c
    = iprop(∃ x, StableHlo.held (c : Thread nD τ) (Pipeline.ucRefs τ sig) (W6x m c x) ∗ R c) := rfl

theorem seg6x_post (c : Dev nD) : (seg6x m).post c
    = iprop(∃ x, StableHlo.held (c : Thread nD τ) (Pipeline.ucRefs τ sig) (W7x m c x) ∗ R c) := rfl

end Cert.Kernel.Regions

end
-- ==== Proof.K.RunFrame.lean ====
/-
  The whole program's run with the edge-score call's result left unnamed. The program is seven items in a row: an
  aggregation (host operations), the first node-combine call, the second aggregation, the second node-combine call,
  the two gathers, the edge-score call, the closing reshape. The two node-combine calls are read exactly as their
  proof data name them. The edge-score call's last grid point overhangs its arrays: the rows of its result block
  there may depend on staging words nothing names, so its result window is FORGOTTEN — the call is entered from the
  contents after the two gathers and left with its two input arrays as entered and its result array at SOME contents x.
  The closing reshape then runs from the buffers at that x, whatever it is, and no argument array is the result
  array or is written by the reshape: read back through the fold, each of the nine arguments ends as launched.
-/
import proofs.«117563_j13804024889624_1_alg».proof.Proof.K.Fold
import proofs.«117563_j13804024889624_1_alg».proof.Proof.K.LastStretch

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-! ## Every call's proof data read as a relation on what the body leaves -/

/-- Each call's proof data as a relation between what the body finds in a window's buffer and what it leaves there:
    the two node-combine calls' exactly as named; the edge-score call's with its result window forgotten. -/
def rdats : (p : Fin 3) → (c : Dev nD) → RDat τ (Elt F) Unit ℕ (UR sig nD τ) ℕ (Pipeline.pin (pcfgs (F := F)) adm p) c
  | ⟨0, _⟩ => fun c => (dat0 (V1 m) c).toR
  | ⟨1, _⟩ => fun c => (dat1 (V3 m) c).toR
  | ⟨2, _⟩ => fun c => (dat2 (V5 m) c).toRForget fgt2

/-! ## The three calls as items -/

set_option backward.isDefEq.respectTransparency.types false in
/-- The first node-combine call: entered from every unscoped buffer at the contents after the first aggregation, left
    with its result array at what its ten write-backs leave and every other buffer as entered. -/
def freg0 (hb : ∀ c : Dev nD, BodyObligation (dat0 (F := F) (V1 m) c) (defs₀ (F := F)) Variants.none () Set.univ) :
    Pipeline.RDat.RegionSeg (pcfgs (F := F)) adm (rdats m) () defs₀ 𝒱₀ L lv 0 where
  win := launch0.win.to₀
  block_pos := launch0.block_pos
  stage_whole := launch0.stage_whole
  K := PEmpty
  osem k := k.elim
  ho := Pipeline.OwnSemFacts.none _
  hbody c := (hb c).loose.toR
  hwaits := Pipeline.RDat.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.RDat.arrays_of_unscopedBufs (p := 0) (pcfgs (F := F)) adm (rdats m) launch0.win launch0.arr_whole c
      ((dat0 (V1 m) c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    rw [show (rdats m 0 c).arraysAt (Pipeline.pin (pcfgs (F := F)) adm 0).N = ((pdats m 0 c).arrays ((pdats m 0 c).arrAt · cfg0.N) : sProp 𝕄)
      from (dat0 (V1 m) c).toR_arraysAt_eq cfg0.N]
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

set_option backward.isDefEq.respectTransparency.types false in
/-- The second node-combine call, the same kernel on the first layer's output and its aggregate: entered at the
    contents after the second aggregation, left with the second layer's output written. -/
def freg1 (hb : ∀ c : Dev nD, BodyObligation (dat1 (F := F) (V3 m) c) (defs₀ (F := F)) Variants.none () Set.univ) :
    Pipeline.RDat.RegionSeg (pcfgs (F := F)) adm (rdats m) () defs₀ 𝒱₀ L lv 1 where
  win := launch1.win.to₀
  block_pos := launch1.block_pos
  stage_whole := launch1.stage_whole
  K := PEmpty
  osem k := k.elim
  ho := Pipeline.OwnSemFacts.none _
  hbody c := (hb c).loose.toR
  hwaits := Pipeline.RDat.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.RDat.arrays_of_unscopedBufs (p := 1) (pcfgs (F := F)) adm (rdats m) launch1.win launch1.arr_whole c
      ((dat1 (V3 m) c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    rw [show (rdats m 1 c).arraysAt (Pipeline.pin (pcfgs (F := F)) adm 1).N = ((pdats m 1 c).arrays ((pdats m 1 c).arrAt · cfg1.N) : sProp 𝕄)
      from (dat1 (V3 m) c).toR_arraysAt_eq cfg1.N]
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

/-! ### The edge-score call: its result array left at contents nothing names -/

/-- The TensorCore's buffers after the edge-score call, its result array at contents x. -/
abbrev V6x (c : Dev nD) (x : Buf (Elt F) ((c : Thread nD τ).loc main_v54)) :
    (b : Ref sig .tc) → Buf (Elt F) ((c : Thread nD τ).loc b) := fun b => W6x m c x b

/-- Off the call's three arrays the buffers are as the call was entered, whatever x. -/
theorem hrest2x (c : Dev nD) (x : Buf (Elt F) ((c : Thread nD τ).loc main_v54)) :
    ∀ b, b ∉ Finset.univ.image (Pipeline.arrRef spec2) → V6x m c x b = V5 m c b := fun b hb =>
  W6x_of m c x b fun h => hb (Finset.mem_image.mpr ⟨2, Finset.mem_univ _, show Pipeline.arrRef spec2 2 = b from (List.mem_singleton.mp h).symm⟩)

/-- The source-side array is an input: whatever it may hold after the write-backs is what the call was entered with,
    which is what the buffers after the call hold there, whatever x. -/
theorem in2_0 (c : Dev nD) (x : Buf (Elt F) ((c : Thread nD τ).loc main_v54)) (G) (h : (rdats m 2 c).ArrAt 0 cfg2.N G) :
    G = V6x m c x (Pipeline.arrRef spec2 0) :=
  (((dat2 (V5 m) c).toRForget_arrAt_iff (fgt := fgt2) (w := 0) rfl cfg2.N G).mp h).trans
    (((dat2 (V5 m) c).arrAt_in 0 rfl _).trans ((A_eq2 (V5 m) c 0).trans (W6x_of m c x main_v46 (by decide)).symm))
/-- The destination-side array likewise. -/
theorem in2_1 (c : Dev nD) (x : Buf (Elt F) ((c : Thread nD τ).loc main_v54)) (G) (h : (rdats m 2 c).ArrAt 1 cfg2.N G) :
    G = V6x m c x (Pipeline.arrRef spec2 1) :=
  (((dat2 (V5 m) c).toRForget_arrAt_iff (fgt := fgt2) (w := 1) rfl cfg2.N G).mp h).trans
    (((dat2 (V5 m) c).arrAt_in 1 rfl _).trans ((A_eq2 (V5 m) c 1).trans (W6x_of m c x main_v53 (by decide)).symm))
/-- The result array at x is what the buffers with the result array at x hold there. -/
theorem out2_2 (c : Dev nD) (x : Buf (Elt F) ((c : Thread nD τ).loc main_v54)) : V6x m c x (Pipeline.arrRef spec2 2) = x :=
  Function.update_self (β := fun b : DevRef τ sig => Buf (Elt F) ((c : Thread nD τ).1, b)) (Proc.devRef .tc main_v54) _ _

/-- The call's three arrays after every write-back, each at some contents it may then hold, are the three arrays as
    the buffers hold them with the result array at some x: the two inputs as entered, the result at what it holds. -/
theorem exit2 (c : Dev nD) :
    ((rdats m 2 c).arraysAt cfg2.N : sProp 𝕄)
      ⊢ iprop(∃ x, (pdats m 2 c).arrays fun w => V6x m c x (Pipeline.arrRef spec2 w)) := by
  unfold RDat.arraysAt
  rw [bigSep_W2]
  iintro ⟨⟨%G0, %h0, H0⟩, ⟨%G1, %h1, H1⟩, ⟨%G2, -, H2⟩⟩
  iexists G2
  unfold Dat.arrays
  rw [bigSep_W2]
  have e0 := in2_0 m c G2 G0 h0
  have e1 := in2_1 m c G2 G1 h1
  subst e0 e1
  beta_reduce
  rw [out2_2 m c G2]
  isplitl [H0]; · iexact H0
  isplitl [H1]; · iexact H1
  iexact H2

set_option backward.isDefEq.respectTransparency.types false in
/-- The edge-score call: entered from every unscoped buffer at the contents after the two gathers; left with every
    buffer but its result array as entered and the result array at some contents x. Its arrays are split out of the
    buffers as for the other calls; at the exit the two input arrays are as entered (no write-back touches them) and the
    result array holds whatever the forty-nine write-backs left, which names x. -/
def freg2 (hb : ∀ c : Dev nD, BodyObligationLoose (dat2 (F := F) (V5 m) c) (defs₀ (F := F)) Variants.none () Set.univ fgt2) :
    Pipeline.RDat.RegionSeg (pcfgs (F := F)) adm (rdats m) () defs₀ 𝒱₀ L lv 2 where
  win := launch2.win.to₀
  block_pos := launch2.block_pos
  stage_whole := launch2.stage_whole
  K := PEmpty
  osem k := k.elim
  ho := Pipeline.OwnSemFacts.none _
  hbody c := (hb c).toRForget
  hwaits := Pipeline.RDat.hwaits_of_owed_zero _ _ _ _ L lv 2 fun _ _ => rfl
  pre c := iprop(StableHlo.held (c : Thread nD τ) (Pipeline.ucRefs τ sig) (W5 m c) ∗ R c)
  post c := iprop(∃ x, StableHlo.held (c : Thread nD τ) (Pipeline.ucRefs τ sig) (W6x m c x) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.RDat.arrays_of_unscopedBufs (p := 2) (pcfgs (F := F)) adm (rdats m) launch2.win launch2.arr_whole c
      ((dat2 (V5 m) c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (rdats m 2 c).Φ (Fin.last _) = Pipeline.ΦA spec2 c from rfl]; unfold Pipeline.ΦA
    iintro ⟨Hr, Hp⟩
    isplitl [Hp]; · iexact Hp
    isplitr; · iempintro
    iexact Hr
  hexit c := by
    iintro ⟨Ha, HO, HY, Hrest⟩
    ihave Hx := (exit2 m c) $$ Ha
    icases Hx with ⟨%x, Ha⟩
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6x m c x) (fun w => V6x m c x (Pipeline.arrRef spec2 w)) (fun _ => rfl) (hrest2x m c x)
    rw [Pipeline.unscopedBufs_held] at hjoin
    imodintro
    iexists x
    isplitl [Ha Hrest]
    · iapply hjoin; isplitl [Ha] <;> iassumption
    isplitl [HY]; · iexact HY
    unfold Pipeline.RDat.owesAt Pipeline.owesWithin
    icases HO with ⟨%W, -, HO⟩; iexists W; iexact HO

/-! ## The program as its seven items, and the launch -/

section Run

variable (hb0 : ∀ c : Dev nD, BodyObligation (dat0 (F := F) (V1 m) c) (defs₀ (F := F)) Variants.none () Set.univ)
  (hb1 : ∀ c : Dev nD, BodyObligation (dat1 (F := F) (V3 m) c) (defs₀ (F := F)) Variants.none () Set.univ)
  (hb2 : ∀ c : Dev nD, BodyObligationLoose (dat2 (F := F) (V5 m) c) (defs₀ (F := F)) Variants.none () Set.univ fgt2)

/-- The seven items in order: each host stretch from the contents of the boundary before it, each call's record; the
    closing reshape from the buffers with the edge-score result at whatever contents the call left. -/
abbrev fsegs : List (Pipeline.RDat.Seg (pcfgs (F := F)) adm (rdats m) () defs₀ 𝒱₀ L lv) :=
  [ .host (hseg hostOps0 hostOps0_sub hostOps0_fresh (W0 m)),
    .region (freg0 m hb0),
    .host (hseg hostOps1 hostOps1_sub hostOps1_fresh (W2 m)),
    .region (freg1 m hb1),
    .host (hseg hostOps2 hostOps2_sub hostOps2_fresh (W4 m)),
    .region (freg2 m hb2),
    .host (seg6x m) ]

/-- The program is the run of the seven items: it is the chain of their fragments, and the run of a list of items is
    the chain of its fragments. -/
theorem fmain_run (c : Dev nD) : main (F := F) c = Pipeline.RDat.Seg.run (fsegs m hb0 hb1 hb2) := by
  rw [main_chain c, Pipeline.RDat.Seg.run_eq_chain]
  rfl

end Run

set_option backward.isDefEq.respectTransparency.types false in
/-- THE FRAME WITH THE EDGE-SCORE RESULT FORGOTTEN. Given the two node-combine calls' body obligations and the
    edge-score call's obligation with its result window forgotten, each at the contents its call is entered from: from
    any memory with zero counters, every weakly fair execution of the program terminates, nothing faulting, and in every
    final memory each of the nine argument arrays holds what it held at launch. -/
theorem run_frame (ρ : Dev nD → PrngReg)
    (hb0 : ∀ c : Dev nD, BodyObligation (dat0 (F := F) (V1 m) c) (defs₀ (F := F)) Variants.none () Set.univ)
    (hb1 : ∀ c : Dev nD, BodyObligation (dat1 (F := F) (V3 m) c) (defs₀ (F := F)) Variants.none () Set.univ)
    (hb2 : ∀ c : Dev nD, BodyObligationLoose (dat2 (F := F) (V5 m) c) (defs₀ (F := F)) Variants.none () Set.univ fgt2) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.RDat.θ_run_regions_kit (pcfgs (F := F)) adm (rdats m) () cellOf_inj emb₁ defs₀ 𝒱₀ L lv m ρ main (fsegs m hb0 hb1 hb2)
    (fun c Q => by rw [fmain_run m hb0 hb1 hb2 c])
    (by simp only [fsegs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(∃ x, StableHlo.held (c : Thread nD τ) (Pipeline.ucRefs τ sig) (W7x m c x) ∗ ∃ r, prngReg c r))
    (hch := ⟨fun _ => .rfl, fun _ => .rfl, fun _ => .rfl, fun _ => .rfl, fun _ => .rfl, fun _ => .rfl, fun _ => .rfl,
      fun c => by
        -- the reshape leaves the buffers at the fold's end, for some x, beside the register and the debts: regroup
        show iprop(∃ x, StableHlo.held (c : Thread nD τ) (Pipeline.ucRefs τ sig) (W7x m c x) ∗ R c)
          ⊢ iprop((∃ x, StableHlo.held (c : Thread nD τ) (Pipeline.ucRefs τ sig) (W7x m c x) ∗ ∃ r, prngReg c r)
              ∗ ∃ W, owes (c : Thread nD τ) (0 : CellTallies nD τ sig Unit) W)
        iintro ⟨%x, Hh, Hp, HO⟩
        isplitl [Hh Hp]
        · iexists x; isplitl [Hh] <;> iassumption
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s =>
      s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8))
    (hfin := fun c s' => by
      -- whatever x the edge-score call left, the buffers at the fold's end are read against the final memory
      unfold StableHlo.held
      iintro ⟨⟨%x, Hh, -⟩, HSI⟩
      ihave Hr := (pointsTo_read_all (Pipeline.ucRefs τ sig) (fun b => ((c : Thread nD τ).1, b)) (W7x m c x) s') $$ [Hh HSI]
      · isplitl [Hh] <;> iassumption
      icases Hr with ⟨%h, HSI⟩
      imodintro
      isplitr
      · ipureintro
        exact ⟨(h _ (mem_uc main_arg0 (by decide))).trans (W7x_main_arg0 m c x),
          (h _ (mem_uc main_arg1 (by decide))).trans (W7x_main_arg1 m c x),
          (h _ (mem_uc main_arg2 (by decide))).trans (W7x_main_arg2 m c x),
          (h _ (mem_uc main_arg3 (by decide))).trans (W7x_main_arg3 m c x),
          (h _ (mem_uc main_arg4 (by decide))).trans (W7x_main_arg4 m c x),
          (h _ (mem_uc main_arg5 (by decide))).trans (W7x_main_arg5 m c x),
          (h _ (mem_uc main_arg6 (by decide))).trans (W7x_main_arg6 m c x),
          (h _ (mem_uc main_arg7 (by decide))).trans (W7x_main_arg7 m c x),
          (h _ (mem_uc main_arg8 (by decide))).trans (W7x_main_arg8 m c x)⟩
      · iexact HSI)
    (hQ := fun _ h => h)

end Cert.Kernel.Regions

end
-- ==== Proof.K.Body0.lean ====
/-
  The node-combine call number 0: its body obligation. At each of the ten grid points the five input windows'
  current buffers hold their blocks — the two node arrays' rows 5000·t … 5000·t + 4999, brought in at every point;
  the two 64 × 64 weight matrices and the bias, brought in at the first point and left in place since, their block
  index never moving —; the body reads the five buffers whole and lays max(x·W_self + h·W_neigh + b, 0) over the
  whole of the result's buffer, whatever that held.
-/
import proofs.«117563_j13804024889624_1_alg».proof.Proof.K.Data0

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## What the body finds in the five input buffers

For proof data whose array is the one found at entry and whose body leaves the input's block where it was, the
window's current buffer holds the block of the point: where the window is brought in at the point that is the fetch;
where it is not, its block index has not moved since the last fetch and nothing has touched the buffer. No block of
this call overhangs its array and no point is idle for any window. -/

/-- The x rows of point t are in window 0's buffer (brought in at every point). -/
theorem found0_x {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl)
      (fun t => by rw [hafter]; unfold Dat.blockOf iblk0; rw [hA]; try rfl) t d).trans
    (by unfold Dat.fetched Dat.blockOf iblk0; rw [hA]; try rfl)

/-- The h rows of point t are in window 1's buffer (brought in at every point). -/
theorem found0_h {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl)
      (fun t => by rw [hafter]; unfold Dat.blockOf iblk0; rw [hA]; try rfl) t d).trans
    (by unfold Dat.fetched Dat.blockOf iblk0; rw [hA]; try rfl)

/-- W_self whole is in window 2's buffer at every point (brought in once, at the first). -/
theorem found0_wself {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl)
      (fun t => by rw [hafter]; unfold Dat.blockOf iblk0; rw [hA]; try rfl) t d).trans
    (by unfold Dat.fetched Dat.blockOf iblk0; rw [hA]; try rfl)

/-- W_neigh whole is in window 3's buffer at every point (brought in once, at the first). -/
theorem found0_wneigh {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl)
      (fun t => by rw [hafter]; unfold Dat.blockOf iblk0; rw [hA]; try rfl) t d).trans
    (by unfold Dat.fetched Dat.blockOf iblk0; rw [hA]; try rfl)

/-- The bias whole is in window 4's buffer at every point (brought in once, at the first). -/
theorem found0_bias {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl)
      (fun t => by rw [hafter]; unfold Dat.blockOf iblk0; rw [hA]; try rfl) t d).trans
    (by unfold Dat.fetched Dat.blockOf iblk0; rw [hA]; try rfl)

/-! ## The body's one store covers the result buffer -/

/-- The store's rectangle is the whole 5000 × 64 buffer, so every index of the buffer lies in it. -/
theorem cover0_out (p : Vec F S5000x64 .f32) (y : S5000x64.Idx) :
    ∃ pc ∈ ([⟨rA0, p⟩] : List (View.Piece (Elt F) S5000x64 .f32)), y ∈ pc.1.set :=
  View.cover_of_tiled [⟨rA0, p⟩] S5000x64.size (by rfl) y

/-! ## The body's triple -/

set_option maxHeartbeats 1000000 in
/-- The combine body on whole buffers: the five inputs' at read contents x, h, ws, wn, b and the result's at
    anything; it runs to the continuation with the inputs' as they were and the result's at out0_5 of them. The body
    is five whole loads of the inputs, one load of the result buffer whose value is never used, and one whole store. -/
theorem sound_kernel0 (c : Dev nD) (E : Set ℕ) (i : grid0.Coords)
    (mx : Memref sig .tc .vmem S5000x64 .f32) (hmx : mx.IsWhole) (mh : Memref sig .tc .vmem S5000x64 .f32) (hmh : mh.IsWhole)
    (mws : Memref sig .tc .vmem S64x64 .f32) (hmws : mws.IsWhole) (mwn : Memref sig .tc .vmem S64x64 .f32) (hmwn : mwn.IsWhole)
    (mb : Memref sig .tc .vmem S64 .f32) (hmb : mb.IsWhole) (mo : Memref sig .tc .vmem S5000x64 .f32) (hmo : mo.IsWhole)
    (x h : Vec F S5000x64 .f32) (ws wn : Vec F S64x64 .f32) (b : Vec F S64 .f32) (K : PUnit → sProp 𝕄) :
    iprop(owns (c : Thread nD τ) mx fullShare x ∗ owns (c : Thread nD τ) mh fullShare h
        ∗ owns (c : Thread nD τ) mws fullShare ws ∗ owns (c : Thread nD τ) mwn fullShare wn
        ∗ owns (c : Thread nD τ) mb fullShare b ∗ (∃ d, owns (c : Thread nD τ) mo fullShare d)
        ∗ (iprop(owns (c : Thread nD τ) mx fullShare x ∗ owns (c : Thread nD τ) mh fullShare h
            ∗ owns (c : Thread nD τ) mws fullShare ws ∗ owns (c : Thread nD τ) mwn fullShare wn
            ∗ owns (c : Thread nD τ) mb fullShare b ∗ owns (c : Thread nD τ) mo fullShare (out0_5 x h ws wn b)) -∗ K ⟨⟩))
      ⊢ wp frame (wpE (defs₀ (F := F)) Variants.none c none) E (cc0__combine_kernel i mx hmx mh hmh mws hmws mwn hmwn mb hmb mo hmo) K := by
  simp only [cc0__combine_kernel_eq_skeleton]; unfold cc0__combine_kernel_skel
  unfold owns
  iintro ⟨⟨%fx, %hfx, Hx⟩, ⟨%fh, %hfh, Hh⟩, ⟨%fws, %hfws, Hws⟩, ⟨%fwn, %hfwn, Hwn⟩, ⟨%fb, %hfb, Hb⟩, ⟨%d, %fo, -, Ho⟩, Hk⟩
  subst hfx hfh hfws hfwn hfb
  sl_exec
  sl_step
  iapply Hk
  isplitl [Hx]
  · iexists fx; isplitr; · ipureintro; rfl
    iexact Hx
  isplitl [Hh]
  · iexists fh; isplitr; · ipureintro; rfl
    iexact Hh
  isplitl [Hws]
  · iexists fws; isplitr; · ipureintro; rfl
    iexact Hws
  isplitl [Hwn]
  · iexists fwn; isplitr; · ipureintro; rfl
    iexact Hwn
  isplitl [Hb]
  · iexists fb; isplitr; · ipureintro; rfl
    iexact Hb
  iexists _; isplitr
  swap; · iexact Ho
  ipureintro
  exact View.read_writes_eq_canon _ _ _ (cover0_out _)

/-! ## The input buffers at this call's proof data -/

theorem before0_0 (c : Dev nD) (t : Fin cfg0.N) (d) : (dat0 V c).before 0 t d = iblk0 V c 0 t :=
  found0_x V (dat0 V c) (A_eq0 V c 0) (after0_0 V c) t d
theorem before0_1 (c : Dev nD) (t : Fin cfg0.N) (d) : (dat0 V c).before 1 t d = iblk0 V c 1 t :=
  found0_h V (dat0 V c) (A_eq0 V c 1) (after0_1 V c) t d
theorem before0_2 (c : Dev nD) (t : Fin cfg0.N) (d) : (dat0 V c).before 2 t d = iblk0 V c 2 t :=
  found0_wself V (dat0 V c) (A_eq0 V c 2) (after0_2 V c) t d
theorem before0_3 (c : Dev nD) (t : Fin cfg0.N) (d) : (dat0 V c).before 3 t d = iblk0 V c 3 t :=
  found0_wneigh V (dat0 V c) (A_eq0 V c 3) (after0_3 V c) t d
theorem before0_4 (c : Dev nD) (t : Fin cfg0.N) (d) : (dat0 V c).before 4 t d = iblk0 V c 4 t :=
  found0_bias V (dat0 V c) (A_eq0 V c 4) (after0_4 V c) t d

/-! ## The body obligation, at a generic point -/

/-- What the body is handed at point t: the invariant, the core's dues, and the six windows' current buffers, each
    at what it then holds. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- What it hands back: the same, each buffer at what the proof data says the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the five input buffers hold their blocks, so the body's triple applies at them; the
    invariant and the core's dues are the same before and after the point and pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Hd, ⟨%d0, Hx⟩, ⟨%d1, Hh⟩, ⟨%d2, Hws⟩, ⟨%d3, Hwn⟩, ⟨%d4, Hb⟩, ⟨%d5, Ho⟩⟩
  iapply (sound_kernel0 c Set.univ _ _ _ _ _ _ _ _ _ _ _ _ _
    (iblk0 V c 0 t) (iblk0 V c 1 t) (iblk0 V c 2 t) (iblk0 V c 3 t) (iblk0 V c 4 t) _)
  isplitl [Hx]; · iexact Hx
  isplitl [Hh]; · iexact Hh
  isplitl [Hws]; · iexact Hws
  isplitl [Hwn]; · iexact Hwn
  isplitl [Hb]; · iexact Hb
  isplitl [Ho]; · iexists _; iexact Ho
  iintro ⟨Hx, Hh, Hws, Hwn, Hb, Ho⟩
  isplitl [HΦ]; · iexact HΦ
  isplitl [Hd]; · iexact Hd
  isplitl [Hx]; · iexact Hx
  isplitl [Hh]; · iexact Hh
  isplitl [Hws]; · iexact Hws
  isplitl [Hwn]; · iexact Hwn
  isplitl [Hb]; · iexact Hb
  iexact Ho

/-- The body obligation of call 0: the six windows' buffers written out one by one, at every point. -/
theorem body_obligation0 (c : Dev nD) : BodyObligation (dat0 (F := F) V c) (defs₀ (F := F)) Variants.none () Set.univ := fun t => by
  rw [bigSep_W0, bigSep_W0]
  exact sound_body0 V c t

end Cert.Kernel.Regions

end
-- ==== Proof.K.Body1.lean ====
/-
  The node-combine call number 1: its body obligation. At each of the ten grid points the five input windows'
  current buffers hold their blocks — the two node arrays' rows 5000·t … 5000·t + 4999, brought in at every point;
  the two 64 × 64 weight matrices and the bias, brought in at the first point and left in place since, their block
  index never moving —; the body reads the five buffers whole and lays max(x·W_self + h·W_neigh + b, 0) over the
  whole of the result's buffer, whatever that held.
-/
import proofs.«117563_j13804024889624_1_alg».proof.Proof.K.Data1

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## What the body finds in the five input buffers

For proof data whose array is the one found at entry and whose body leaves the input's block where it was, the
window's current buffer holds the block of the point: where the window is brought in at the point that is the fetch;
where it is not, its block index has not moved since the last fetch and nothing has touched the buffer. No block of
this call overhangs its array and no point is idle for any window. -/

/-- The x rows of point t are in window 0's buffer (brought in at every point). -/
theorem found1_x {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl)
      (fun t => by rw [hafter]; unfold Dat.blockOf iblk1; rw [hA]; try rfl) t d).trans
    (by unfold Dat.fetched Dat.blockOf iblk1; rw [hA]; try rfl)

/-- The h rows of point t are in window 1's buffer (brought in at every point). -/
theorem found1_h {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl)
      (fun t => by rw [hafter]; unfold Dat.blockOf iblk1; rw [hA]; try rfl) t d).trans
    (by unfold Dat.fetched Dat.blockOf iblk1; rw [hA]; try rfl)

/-- W_self whole is in window 2's buffer at every point (brought in once, at the first). -/
theorem found1_wself {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl)
      (fun t => by rw [hafter]; unfold Dat.blockOf iblk1; rw [hA]; try rfl) t d).trans
    (by unfold Dat.fetched Dat.blockOf iblk1; rw [hA]; try rfl)

/-- W_neigh whole is in window 3's buffer at every point (brought in once, at the first). -/
theorem found1_wneigh {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl)
      (fun t => by rw [hafter]; unfold Dat.blockOf iblk1; rw [hA]; try rfl) t d).trans
    (by unfold Dat.fetched Dat.blockOf iblk1; rw [hA]; try rfl)

/-- The bias whole is in window 4's buffer at every point (brought in once, at the first). -/
theorem found1_bias {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl)
      (fun t => by rw [hafter]; unfold Dat.blockOf iblk1; rw [hA]; try rfl) t d).trans
    (by unfold Dat.fetched Dat.blockOf iblk1; rw [hA]; try rfl)

/-! ## The body's one store covers the result buffer -/

/-- The store's rectangle is the whole 5000 × 64 buffer, so every index of the buffer lies in it. -/
theorem cover1_out (p : Vec F S5000x64 .f32) (y : S5000x64.Idx) :
    ∃ pc ∈ ([⟨rA1, p⟩] : List (View.Piece (Elt F) S5000x64 .f32)), y ∈ pc.1.set :=
  View.cover_of_tiled [⟨rA1, p⟩] S5000x64.size (by rfl) y

/-! ## The body's triple -/

set_option maxHeartbeats 1000000 in
/-- The combine body on whole buffers: the five inputs' at read contents x, h, ws, wn, b and the result's at
    anything; it runs to the continuation with the inputs' as they were and the result's at out1_5 of them. The body
    is five whole loads of the inputs, one load of the result buffer whose value is never used, and one whole store. -/
theorem sound_kernel1 (c : Dev nD) (E : Set ℕ) (i : grid1.Coords)
    (mx : Memref sig .tc .vmem S5000x64 .f32) (hmx : mx.IsWhole) (mh : Memref sig .tc .vmem S5000x64 .f32) (hmh : mh.IsWhole)
    (mws : Memref sig .tc .vmem S64x64 .f32) (hmws : mws.IsWhole) (mwn : Memref sig .tc .vmem S64x64 .f32) (hmwn : mwn.IsWhole)
    (mb : Memref sig .tc .vmem S64 .f32) (hmb : mb.IsWhole) (mo : Memref sig .tc .vmem S5000x64 .f32) (hmo : mo.IsWhole)
    (x h : Vec F S5000x64 .f32) (ws wn : Vec F S64x64 .f32) (b : Vec F S64 .f32) (K : PUnit → sProp 𝕄) :
    iprop(owns (c : Thread nD τ) mx fullShare x ∗ owns (c : Thread nD τ) mh fullShare h
        ∗ owns (c : Thread nD τ) mws fullShare ws ∗ owns (c : Thread nD τ) mwn fullShare wn
        ∗ owns (c : Thread nD τ) mb fullShare b ∗ (∃ d, owns (c : Thread nD τ) mo fullShare d)
        ∗ (iprop(owns (c : Thread nD τ) mx fullShare x ∗ owns (c : Thread nD τ) mh fullShare h
            ∗ owns (c : Thread nD τ) mws fullShare ws ∗ owns (c : Thread nD τ) mwn fullShare wn
            ∗ owns (c : Thread nD τ) mb fullShare b ∗ owns (c : Thread nD τ) mo fullShare (out1_5 x h ws wn b)) -∗ K ⟨⟩))
      ⊢ wp frame (wpE (defs₀ (F := F)) Variants.none c none) E (cc1__combine_kernel i mx hmx mh hmh mws hmws mwn hmwn mb hmb mo hmo) K := by
  simp only [cc1__combine_kernel_eq_skeleton]; unfold cc1__combine_kernel_skel
  unfold owns
  iintro ⟨⟨%fx, %hfx, Hx⟩, ⟨%fh, %hfh, Hh⟩, ⟨%fws, %hfws, Hws⟩, ⟨%fwn, %hfwn, Hwn⟩, ⟨%fb, %hfb, Hb⟩, ⟨%d, %fo, -, Ho⟩, Hk⟩
  subst hfx hfh hfws hfwn hfb
  sl_exec
  sl_step
  iapply Hk
  isplitl [Hx]
  · iexists fx; isplitr; · ipureintro; rfl
    iexact Hx
  isplitl [Hh]
  · iexists fh; isplitr; · ipureintro; rfl
    iexact Hh
  isplitl [Hws]
  · iexists fws; isplitr; · ipureintro; rfl
    iexact Hws
  isplitl [Hwn]
  · iexists fwn; isplitr; · ipureintro; rfl
    iexact Hwn
  isplitl [Hb]
  · iexists fb; isplitr; · ipureintro; rfl
    iexact Hb
  iexists _; isplitr
  swap; · iexact Ho
  ipureintro
  exact View.read_writes_eq_canon _ _ _ (cover1_out _)

/-! ## The input buffers at this call's proof data -/

theorem before1_0 (c : Dev nD) (t : Fin cfg1.N) (d) : (dat1 V c).before 0 t d = iblk1 V c 0 t :=
  found1_x V (dat1 V c) (A_eq1 V c 0) (after1_0 V c) t d
theorem before1_1 (c : Dev nD) (t : Fin cfg1.N) (d) : (dat1 V c).before 1 t d = iblk1 V c 1 t :=
  found1_h V (dat1 V c) (A_eq1 V c 1) (after1_1 V c) t d
theorem before1_2 (c : Dev nD) (t : Fin cfg1.N) (d) : (dat1 V c).before 2 t d = iblk1 V c 2 t :=
  found1_wself V (dat1 V c) (A_eq1 V c 2) (after1_2 V c) t d
theorem before1_3 (c : Dev nD) (t : Fin cfg1.N) (d) : (dat1 V c).before 3 t d = iblk1 V c 3 t :=
  found1_wneigh V (dat1 V c) (A_eq1 V c 3) (after1_3 V c) t d
theorem before1_4 (c : Dev nD) (t : Fin cfg1.N) (d) : (dat1 V c).before 4 t d = iblk1 V c 4 t :=
  found1_bias V (dat1 V c) (A_eq1 V c 4) (after1_4 V c) t d

/-! ## The body obligation, at a generic point -/

/-- What the body is handed at point t: the invariant, the core's dues, and the six windows' current buffers, each
    at what it then holds. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- What it hands back: the same, each buffer at what the proof data says the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the five input buffers hold their blocks, so the body's triple applies at them; the
    invariant and the core's dues are the same before and after the point and pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Hd, ⟨%d0, Hx⟩, ⟨%d1, Hh⟩, ⟨%d2, Hws⟩, ⟨%d3, Hwn⟩, ⟨%d4, Hb⟩, ⟨%d5, Ho⟩⟩
  iapply (sound_kernel1 c Set.univ _ _ _ _ _ _ _ _ _ _ _ _ _
    (iblk1 V c 0 t) (iblk1 V c 1 t) (iblk1 V c 2 t) (iblk1 V c 3 t) (iblk1 V c 4 t) _)
  isplitl [Hx]; · iexact Hx
  isplitl [Hh]; · iexact Hh
  isplitl [Hws]; · iexact Hws
  isplitl [Hwn]; · iexact Hwn
  isplitl [Hb]; · iexact Hb
  isplitl [Ho]; · iexists _; iexact Ho
  iintro ⟨Hx, Hh, Hws, Hwn, Hb, Ho⟩
  isplitl [HΦ]; · iexact HΦ
  isplitl [Hd]; · iexact Hd
  isplitl [Hx]; · iexact Hx
  isplitl [Hh]; · iexact Hh
  isplitl [Hws]; · iexact Hws
  isplitl [Hwn]; · iexact Hwn
  isplitl [Hb]; · iexact Hb
  iexact Ho

/-- The body obligation of call 1: the six windows' buffers written out one by one, at every point. -/
theorem body_obligation1 (c : Dev nD) : BodyObligation (dat1 (F := F) V c) (defs₀ (F := F)) Variants.none () Set.univ := fun t => by
  rw [bigSep_W1, bigSep_W1]
  exact sound_body1 V c t

end Cert.Kernel.Regions

end
-- ==== Proof.K.Body2.lean ====
/-
  The edge-score call's body at one grid point. The body reads its two 16384 × 64 staging buffers whole, multiplies
  them lane by lane, sums each row's 64 products, applies the logistic function twice and stores the 16384 × 1
  result over the whole of the third buffer; the two input buffers are left as found.

  At the last of the forty-nine points only 13568 of a buffer's 16384 rows lie inside the 800000-row arrays. The
  row sum is, for arbitrary float values, a function of the whole vector it is given, so what the body leaves on the
  result's rows depends on the input buffers' rows past the arrays' end, which hold words nothing names. The
  obligation proved here therefore says nothing of the result's buffer: it is taken at any contents and given back
  at any contents. The two input buffers arrive holding their blocks on the rows inside the array and some filler
  past it, and are given back holding exactly that, which is what a window stated on the rows inside the array asks.
-/
import proofs.«117563_j13804024889624_1_alg».proof.Proof.K.Data2
import Idealize.ShloMosaic.Lib.Pipeline.Value

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's triple -/

set_option maxHeartbeats 1000000 in
/-- The body on three whole buffers, the inputs' reading `x0` and `x1` and the result's holding anything: it runs
    to the continuation with the inputs' as they were and the result's holding σ(σ(row sums of x0 · x1)), the
    body's arithmetic as one term (`k2_pay1`). Each of the two loads is through the rectangle at offsets zero of the
    buffer's own sizes, so it reads the contents; the one store is through that rectangle of the result's buffer and
    unmasked, so it covers the buffer and leaves its payload whatever was there (the load of the result's buffer
    before it is dead). -/
theorem sound_kernel2 (c : Dev nD) (E : Set ℕ) (i : grid2.Coords) (arg0 : Memref sig .tc .vmem S16384x64 .f32) (harg0 : arg0.IsWhole) (arg1 : Memref sig .tc .vmem S16384x64 .f32) (harg1 : arg1.IsWhole) (arg2 : Memref sig .tc .vmem S16384x1 .f32) (harg2 : arg2.IsWhole) (x0 x1 : Vec F S16384x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (k2_pay1 x0 x1)) -∗ K ⟨⟩))
      ⊢ wp frame (wpE (defs₀ (F := F)) Variants.none c none) E (cc2__edge_score_kernel i arg0 harg0 arg1 harg1 arg2 harg2) K := by
  simp only [cc2__edge_score_kernel_eq_skeleton]; unfold cc2__edge_score_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  -- the result's buffer after the one store reads the payload of what the two loads read:
  have hz : (![0, 0] : Fin 2 → Nat) = fun _ => 0 := funext fun a => by fin_cases a <;> rfl
  -- a load through the whole-buffer rectangle reads the contents,
  have hl0 : View.readAt (Elt F) arg0.view (Rect.unit (s := S16384x64) ![0, 0] S16384x64.size inb_S16384x64_S16384x64_0_0).toLoadRect f0
      = View.read (Elt F) arg0.view f0 :=
    (View.readAt_eq_ld arg0.view f0 _).trans (View.ld_unit_zero hz inb_S16384x64_S16384x64_0_0 _)
  have hl1 : View.readAt (Elt F) arg1.view (Rect.unit (s := S16384x64) ![0, 0] S16384x64.size inb_S16384x64_S16384x64_0_0).toLoadRect f1
      = View.read (Elt F) arg1.view f1 :=
    (View.readAt_eq_ld arg1.view f1 _).trans (View.ld_unit_zero hz inb_S16384x64_S16384x64_0_0 _)
  rw [hl0, hl1]
  generalize k2_pay1 (View.read (Elt F) arg0.view f0) (View.read (Elt F) arg1.view f1) = w
  -- and one store through it, which every index of the buffer lies in, leaves its payload
  have hcov : ∀ y : S16384x1.Idx, ∃ p ∈ ([⟨Rect.unit (s := S16384x1) ![0, 0] S16384x1.size inb_S16384x1_S16384x1_0_0, w⟩] :
      List (View.Piece (Elt F) S16384x1 .f32)), y ∈ p.1.set :=
    fun y => ⟨_, List.mem_singleton_self _, View.mem_set_unit_zero hz inb_S16384x1_S16384x1_0_0 y⟩
  rw [View.read_writes_eq_canon arg2.view f2
    [⟨Rect.unit (s := S16384x1) ![0, 0] S16384x1.size inb_S16384x1_S16384x1_0_0, w⟩] hcov]
  exact View.canon_unit_zero (Val := Elt F) (S := S16384x1) (e := .f32) (off := ![0, 0]) hz inb_S16384x1_S16384x1_0_0 w

-- the TensorCore's buffer contents when the region is entered
variable (V : (c : Dev nD) → (b : Ref sig .tc) → Buf (Elt F) ((c : Thread nD τ).loc b))

/-! ## What the body finds in the two input buffers -/

/-- Both inputs are fetched at every point (the block index is the point), so each input's buffer holds what the
    fetch just landed: the block's rows inside the array, and `d`, what the buffer held, on the rows past it. -/
theorem before2_0 (c : Dev nD) (t : Fin cfg2.N) (d) :
    (dat2 V c).before 0 t d = win2_0.fill (grid2.coords t) d (xblk2 V c t) := by
  unfold Dat.before; rw [if_pos (fetch2_0 t)]; rfl
theorem before2_1 (c : Dev nD) (t : Fin cfg2.N) (d) :
    (dat2 V c).before 1 t d = win2_1.fill (grid2.coords t) d (yblk2 V c t) := by
  unfold Dat.before; rw [if_pos (fetch2_1 t)]; rfl

/-! ## The body obligation, forgetting the result's window -/

/-- The library's obligation at every point, the result's window forgotten. The invariant and the core's debts pass
    through unread. Each input's buffer arrives at its block filled out with some `d` past the array's end, and
    the body leaves it so; the data say the buffer then holds the block filled out with the zero word, and cutting
    that back to the rows inside the array gives the block again, so the buffer as left is the block filled out
    with the same `d`: the form a window stated on the rows inside the array only is handed back in. The result's
    buffer arrives at any contents and leaves at the body's value of the two buffers, which is some contents. -/
theorem body_obligation2_fgt (c : Dev nD) :
    BodyObligationLoose (dat2 (F := F) V c) (defs₀ (F := F)) Variants.none () Set.univ fgt2 := fun t => by
  rw [bigSep_W2, bigSep_W2]
  -- the mask forgets window 2 only; no point is idle for any window and all three are stated on the rows inside
  -- the array
  have hm0 : fgt2 0 = false := by decide
  have hm1 : fgt2 1 = false := by decide
  have hm2 : fgt2 2 = true := by decide
  simp only [hm0, hm1, hm2]
  rw [show (dat2 V c).Φ t.succ = (dat2 V c).Φ t.castSucc from rfl,
    show (dat2 V c).owesAt () t.succ = (dat2 V c).owesAt () t.castSucc from rfl]
  iintro ⟨HΦ, Ho, ⟨%d0, H0⟩, ⟨%d1, H1⟩, ⟨%X, H2⟩⟩
  rw [before2_0 V c t d0, before2_1 V c t d1]
  iapply (sound_kernel2 (F := F) c Set.univ (grid2.coords t)
    (st2_0 t) (hstage2_0 ((cfg2.slots t 0).cast nbuf2_0)) (st2_1 t) (hstage2_1 ((cfg2.slots t 1).cast nbuf2_1))
    (st2_2 t) (hstage2_2 ((cfg2.slots t 2).cast nbuf2_2))
    (win2_0.fill (grid2.coords t) d0 (xblk2 V c t)) (win2_1.fill (grid2.coords t) d1 (yblk2 V c t)) _)
  isplitl [H0]; · iexact H0
  isplitl [H1]; · iexact H1
  isplitl [H2]; · iexists X; iexact H2
  iintro ⟨H0, H1, H2⟩
  isplitl [HΦ]; · iexact HΦ
  isplitl [Ho]; · iexact Ho
  -- the zero-filled block cut back to the rows inside the array is the block
  have hx : (win2 0).cut (grid2.coords t) ((dat2 V c).after 0 t) = xblk2 V c t := by
    rw [after2_0]; exact win2_0.cut_fill _ _ _
  have hy : (win2 1).cut (grid2.coords t) ((dat2 V c).after 1 t) = yblk2 V c t := by
    rw [after2_1]; exact win2_1.cut_fill _ _ _
  isplitl [H0]
  · iexists d0; rw [hx]; iexact H0
  isplitl [H1]
  · iexists d1; rw [hy]; iexact H1
  · iexists _; iexact H2

end Cert.Kernel.Regions

end
-- ==== Proof.KI.Data0.lean ====
/-
  The node-combine call number 0: what each of its six windows holds at a grid point, as a function of the arrays
  the call finds. Point t of ten takes rows 5000·t … 5000·t + 4999 of the two node arrays, the two 64 × 64 weight
  matrices and the bias whole, and writes max(x·W_self + h·W_neigh + b, 0) on those rows of the result.
-/
import proofs.«117563_j13804024889624_1_alg».proof.Proof.Gen.KernelIdeal.Launch
import proofs.«117563_j13804024889624_1_alg».proof.Proof.Gen.KernelIdeal.Skeleton
import proofs.«117563_j13804024889624_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole 5000 × 64 block, the whole 64 × 64 matrix, the whole bias vector: the rectangles the body reads and writes. -/
abbrev rA0 : Rect S5000x64 := Rect.unit (s := S5000x64) ![0, 0] S5000x64.size inb_S5000x64_S5000x64_0_0
abbrev rW0 : Rect S64x64 := Rect.unit (s := S64x64) ![0, 0] S64x64.size inb_S64x64_S64x64_0_0
abbrev rB0 : Rect S64 := Rect.unit (s := S64) ![0] S64.size inb_S64_S64_0

/-- The result block after the body, from the five input blocks: one whole-block store of the body's value. -/
def out0_5 (x0 x1 : Vec F S5000x64 .f32) (x2 x3 : Vec F S64x64 .f32) (x4 : Vec F S64 .f32) : Vec F S5000x64 .f32 :=
  View.canon [⟨rA0, k0_pay1 (View.ld x0 rA0) (View.ld x1 rA0) (View.ld x2 rW0) (View.ld x3 rW0) (View.ld x4 rB0)⟩]

/-- The call's proof data on core c: the arrays as found; after the body each input's buffer at its block and the
    result's at the body's value of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t
    = out0_5 (iblk0 V c 0 t) (iblk0 V c 1 t) (iblk0 V c 2 t) (iblk0 V c 3 t) (iblk0 V c 4 t) := by dsimp only [dat0]

end Cert.KernelIdeal.Regions

end
-- ==== Proof.KI.Data1.lean ====
/-
  The node-combine call number 1: what each of its six windows holds at a grid point, as a function of the arrays
  the call finds. Point t of ten takes rows 5000·t … 5000·t + 4999 of the two node arrays, the two 64 × 64 weight
  matrices and the bias whole, and writes max(x·W_self + h·W_neigh + b, 0) on those rows of the result.
-/
import proofs.«117563_j13804024889624_1_alg».proof.Proof.Gen.KernelIdeal.Launch
import proofs.«117563_j13804024889624_1_alg».proof.Proof.Gen.KernelIdeal.Skeleton
import proofs.«117563_j13804024889624_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole 5000 × 64 block, the whole 64 × 64 matrix, the whole bias vector: the rectangles the body reads and writes. -/
abbrev rA1 : Rect S5000x64 := Rect.unit (s := S5000x64) ![0, 0] S5000x64.size inb_S5000x64_S5000x64_0_0
abbrev rW1 : Rect S64x64 := Rect.unit (s := S64x64) ![0, 0] S64x64.size inb_S64x64_S64x64_0_0
abbrev rB1 : Rect S64 := Rect.unit (s := S64) ![0] S64.size inb_S64_S64_0

/-- The result block after the body, from the five input blocks: one whole-block store of the body's value. -/
def out1_5 (x0 x1 : Vec F S5000x64 .f32) (x2 x3 : Vec F S64x64 .f32) (x4 : Vec F S64 .f32) : Vec F S5000x64 .f32 :=
  View.canon [⟨rA1, k1_pay1 (View.ld x0 rA1) (View.ld x1 rA1) (View.ld x2 rW1) (View.ld x3 rW1) (View.ld x4 rB1)⟩]

/-- The call's proof data on core c: the arrays as found; after the body each input's buffer at its block and the
    result's at the body's value of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t
    = out1_5 (iblk1 V c 0 t) (iblk1 V c 1 t) (iblk1 V c 2 t) (iblk1 V c 3 t) (iblk1 V c 4 t) := by dsimp only [dat1]

end Cert.KernelIdeal.Regions

end
-- ==== Proof.KI.Data2.lean ====
/-
  The edge-score call: what each of its three windows holds at a grid point. Point t of forty-nine takes rows
  16384·t … of the two gathered edge arrays (800000 rows: the last block has 13568 rows inside the array and
  2816 past its end) and writes σ(σ(Σ_d x_src[e,d]·x_dst[e,d])) on those rows of the 800000 × 1 result. Past the
  arrays' end a staging buffer holds words nothing names; the data below fills a block out with the zero word
  there, and every window is stated on the rows inside the array only.
-/
import proofs.«117563_j13804024889624_1_alg».proof.Proof.Gen.KernelIdeal.Launch
import proofs.«117563_j13804024889624_1_alg».proof.Proof.Gen.KernelIdeal.Skeleton
import proofs.«117563_j13804024889624_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- The source-side block at point t as the fetch reads it: its part inside the array. -/
def xblk2 (c : Dev nD) (t : Fin cfg2.N) : (win2_0.xblock (grid2.coords t)).Idx → Elt F .f32 :=
  (win2_0.blk t).view.read (Elt F) (V c (Pipeline.arrRef spec2 0))
/-- The destination-side block likewise. -/
def yblk2 (c : Dev nD) (t : Fin cfg2.N) : (win2_1.xblock (grid2.coords t)).Idx → Elt F .f32 :=
  (win2_1.blk t).view.read (Elt F) (V c (Pipeline.arrRef spec2 1))

/-- The two blocks filled out to the staging buffer's 16384 rows with the zero word. -/
def xfill2 (c : Dev nD) (t : Fin cfg2.N) : Vec F S16384x64 .f32 :=
  win2_0.fill (grid2.coords t) (fun _ => Scalar.ofBits .f32 0#32) (xblk2 V c t)
def yfill2 (c : Dev nD) (t : Fin cfg2.N) : Vec F S16384x64 .f32 :=
  win2_1.fill (grid2.coords t) (fun _ => Scalar.ofBits .f32 0#32) (yblk2 V c t)

/-- The call's proof data on core c: the arrays as found; after the body the two inputs' buffers at their filled
    blocks and the result's at the body's value of those; nothing owed; full shares. -/
def dat2 (c : Dev nD) : Dat τ (Elt F) Unit ℕ (UR sig nD τ) ℕ cfg2 c where
  A w := V c (Pipeline.arrRef spec2 w)
  after w t := match w with
    | ⟨0, _⟩ => xfill2 V c t
    | ⟨1, _⟩ => yfill2 V c t
    | ⟨2, _⟩ => k2_pay1 (xfill2 V c t) (yfill2 V c t)
  Φ _ := Pipeline.ΦA spec2 c
  q _ := fullShare
  owed _ := 0

/-- The window the Bits-level frame says nothing about: the result's (its rows at the last point are an opaque
    function of a buffer whose tail nothing names). -/
def fgt2 : Fin cfg2.W → Bool := fun w => decide (w = 2)

theorem A_eq2 (c : Dev nD) (w : Fin cfg2.W) : (dat2 V c).A w = V c (Pipeline.arrRef spec2 w) := by
  dsimp only [dat2]
theorem after2_0 (c : Dev nD) (t : Fin cfg2.N) : (dat2 V c).after 0 t = xfill2 V c t := by dsimp only [dat2]
theorem after2_1 (c : Dev nD) (t : Fin cfg2.N) : (dat2 V c).after 1 t = yfill2 V c t := by dsimp only [dat2]
theorem after2_2 (c : Dev nD) (t : Fin cfg2.N) : (dat2 V c).after 2 t = k2_pay1 (xfill2 V c t) (yfill2 V c t) := by dsimp only [dat2]

end Cert.KernelIdeal.Regions

end
-- ==== Proof.KI.Fold.lean ====
/-
  The buffers' contents at each boundary between two items of the program, as a fold from the launch memory:
  a stretch of host operations applies them (`StableHlo.after`); a kernel call changes its result array only, to what
  its write-backs leave (the proof data's `arrAt` at the last point). Read back through the fold, each of the nine
  argument arrays holds its launch contents at the end: no host operation writes one and no call's result array is one.
  Then every call's proof data at the contents its call is entered from, and the pieces every thread state is made of.
-/
import proofs.«117563_j13804024889624_1_alg».proof.Proof.KI.Data0
import proofs.«117563_j13804024889624_1_alg».proof.Proof.KI.Data1
import proofs.«117563_j13804024889624_1_alg».proof.Proof.KI.Data2
import proofs.«117563_j13804024889624_1_alg».proof.Proof.Gen.KernelIdeal.Regions

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-! ## The contents at each boundary -/

/-- Core c's buffers at launch. -/
abbrev W0 : Dev nD → Valuation τ sig (Elt F) := fun c b => m (c, b)
/-- After the first aggregation (the first call's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- What the first call leaves in its result array. -/
def o2 (c : Dev nD) : Buf (Elt F) ((c : Thread nD τ).loc main_v19) := (dat0 (V1 m) c).arrAt 5 cfg0.N
/-- After the first call: its result array at what it wrote, every other buffer as entered. -/
abbrev W2 : Dev nD → Valuation τ sig (Elt F) := fun c => Function.update (W1 m c) main_v19 (o2 m c)
abbrev V2 : (c : Dev nD) → (b : Ref sig .tc) → Buf (Elt F) ((c : Thread nD τ).loc b) := fun c b => W2 m c b
/-- After the second aggregation (the second call's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- What the second call leaves in its result array. -/
def o4 (c : Dev nD) : Buf (Elt F) ((c : Thread nD τ).loc main_v39) := (dat1 (V3 m) c).arrAt 5 cfg1.N
abbrev W4 : Dev nD → Valuation τ sig (Elt F) := fun c => Function.update (W3 m c) main_v39 (o4 m c)
abbrev V4 : (c : Dev nD) → (b : Ref sig .tc) → Buf (Elt F) ((c : Thread nD τ).loc b) := fun c b => W4 m c b
/-- After the two gathers (the edge-score call's entry). -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b
/-- After the edge-score call, its result array at contents x. -/
abbrev W6x (c : Dev nD) (x : Buf (Elt F) ((c : Thread nD τ).loc main_v54)) : Valuation τ sig (Elt F) :=
  Function.update (W5 m c) main_v54 x
/-- What the edge-score call leaves in its result array, where that can be named. -/
def o6 (c : Dev nD) : Buf (Elt F) ((c : Thread nD τ).loc main_v54) := (dat2 (V5 m) c).arrAt 2 cfg2.N
abbrev W6 : Dev nD → Valuation τ sig (Elt F) := fun c => W6x m c (o6 m c)
abbrev V6 : (c : Dev nD) → (b : Ref sig .tc) → Buf (Elt F) ((c : Thread nD τ).loc b) := fun c b => W6 m c b
/-- After the closing reshape, from the edge-score result at contents x; and from the named one. -/
abbrev W7x (c : Dev nD) (x : Buf (Elt F) ((c : Thread nD τ).loc main_v54)) : Valuation τ sig (Elt F) :=
  StableHlo.after hostOps3 (W6x m c x)
abbrev W7 : Dev nD → Valuation τ sig (Elt F) := fun c => W7x m c (o6 m c)

/-! ## What each item leaves unchanged -/

theorem W1_of (c : Dev nD) (r : Ref sig .tc) (h : r ∉ hostOps0_W) : W1 m c r = W0 m c r :=
  StableHlo.after_of_writes_sub hostOps0 _ hostOps0_writes h
theorem W2_of (c : Dev nD) (r : Ref sig .tc) (h : r ∉ ([main_v19] : List (Ref sig .tc))) : W2 m c r = W1 m c r := by
  simp only [W2, Function.update_of_ne (StableHlo.devRef_ne_of_ne (List.ne_of_not_mem_cons h) : (Proc.devRef .tc r : DevRef τ sig) ≠ Proc.devRef .tc main_v19)]
theorem W3_of (c : Dev nD) (r : Ref sig .tc) (h : r ∉ hostOps1_W) : W3 m c r = W2 m c r :=
  StableHlo.after_of_writes_sub hostOps1 _ hostOps1_writes h
theorem W4_of (c : Dev nD) (r : Ref sig .tc) (h : r ∉ ([main_v39] : List (Ref sig .tc))) : W4 m c r = W3 m c r := by
  simp only [W4, Function.update_of_ne (StableHlo.devRef_ne_of_ne (List.ne_of_not_mem_cons h) : (Proc.devRef .tc r : DevRef τ sig) ≠ Proc.devRef .tc main_v39)]
theorem W5_of (c : Dev nD) (r : Ref sig .tc) (h : r ∉ hostOps2_W) : W5 m c r = W4 m c r :=
  StableHlo.after_of_writes_sub hostOps2 _ hostOps2_writes h
theorem W6x_of (c : Dev nD) (x) (r : Ref sig .tc) (h : r ∉ ([main_v54] : List (Ref sig .tc))) : W6x m c x r = W5 m c r := by
  simp only [W6x, Function.update_of_ne (StableHlo.devRef_ne_of_ne (List.ne_of_not_mem_cons h) : (Proc.devRef .tc r : DevRef τ sig) ≠ Proc.devRef .tc main_v54)]
theorem W7x_of (c : Dev nD) (x) (r : Ref sig .tc) (h : r ∉ hostOps3_W) : W7x m c x r = W6x m c x r :=
  StableHlo.after_of_writes_sub hostOps3 _ hostOps3_writes h

/-- An argument array (any reference no host operation writes and no call's result array is) ends as launched,
    whatever the edge-score call left. -/
theorem W7x_arg (c : Dev nD) (x) (r : Ref sig .tc) (h0 : r ∉ hostOps0_W) (h1 : r ∉ hostOps1_W) (h2 : r ∉ hostOps2_W)
    (h3 : r ∉ hostOps3_W) (h19 : r ∉ ([main_v19] : List (Ref sig .tc))) (h39 : r ∉ ([main_v39] : List (Ref sig .tc)))
    (h54 : r ∉ ([main_v54] : List (Ref sig .tc))) : W7x m c x r = m ((c : Thread nD τ).loc r) :=
  (W7x_of m c x r h3).trans <| (W6x_of m c x r h54).trans <| (W5_of m c r h2).trans <| (W4_of m c r h39).trans <|
    (W3_of m c r h1).trans <| (W2_of m c r h19).trans <| (W1_of m c r h0).trans rfl

theorem W7x_main_arg0 (c : Dev nD) (x) : W7x m c x main_arg0 = m ((c : Thread nD τ).loc main_arg0) :=
  W7x_arg m c x main_arg0 (by decide) (by decide) (by decide) (by decide) (by decide) (by decide) (by decide)
theorem W7x_main_arg1 (c : Dev nD) (x) : W7x m c x main_arg1 = m ((c : Thread nD τ).loc main_arg1) :=
  W7x_arg m c x main_arg1 (by decide) (by decide) (by decide) (by decide) (by decide) (by decide) (by decide)
theorem W7x_main_arg2 (c : Dev nD) (x) : W7x m c x main_arg2 = m ((c : Thread nD τ).loc main_arg2) :=
  W7x_arg m c x main_arg2 (by decide) (by decide) (by decide) (by decide) (by decide) (by decide) (by decide)
theorem W7x_main_arg3 (c : Dev nD) (x) : W7x m c x main_arg3 = m ((c : Thread nD τ).loc main_arg3) :=
  W7x_arg m c x main_arg3 (by decide) (by decide) (by decide) (by decide) (by decide) (by decide) (by decide)
theorem W7x_main_arg4 (c : Dev nD) (x) : W7x m c x main_arg4 = m ((c : Thread nD τ).loc main_arg4) :=
  W7x_arg m c x main_arg4 (by decide) (by decide) (by decide) (by decide) (by decide) (by decide) (by decide)
theorem W7x_main_arg5 (c : Dev nD) (x) : W7x m c x main_arg5 = m ((c : Thread nD τ).loc main_arg5) :=
  W7x_arg m c x main_arg5 (by decide) (by decide) (by decide) (by decide) (by decide) (by decide) (by decide)
theorem W7x_main_arg6 (c : Dev nD) (x) : W7x m c x main_arg6 = m ((c : Thread nD τ).loc main_arg6) :=
  W7x_arg m c x main_arg6 (by decide) (by decide) (by decide) (by decide) (by decide) (by decide) (by decide)
theorem W7x_main_arg7 (c : Dev nD) (x) : W7x m c x main_arg7 = m ((c : Thread nD τ).loc main_arg7) :=
  W7x_arg m c x main_arg7 (by decide) (by decide) (by decide) (by decide) (by decide) (by decide) (by decide)
theorem W7x_main_arg8 (c : Dev nD) (x) : W7x m c x main_arg8 = m ((c : Thread nD τ).loc main_arg8) :=
  W7x_arg m c x main_arg8 (by decide) (by decide) (by decide) (by decide) (by decide) (by decide) (by decide)

/-! ## Each call's arrays at its exit: the result array at what the call wrote, the others as entered -/

theorem hF0 (c : Dev nD) (w : Fin cfg0.W) : (dat0 (V1 m) c).arrAt w cfg0.N = V2 m c (Pipeline.arrRef spec0 w) := by
  match w with
  | ⟨0, _⟩ => exact ((dat0 (V1 m) c).arrAt_in 0 rfl _).trans ((A_eq0 (V1 m) c 0).trans (W2_of m c main_arg0 (by decide)).symm)
  | ⟨1, _⟩ => exact ((dat0 (V1 m) c).arrAt_in 1 rfl _).trans ((A_eq0 (V1 m) c 1).trans (W2_of m c main_v18 (by decide)).symm)
  | ⟨2, _⟩ => exact ((dat0 (V1 m) c).arrAt_in 2 rfl _).trans ((A_eq0 (V1 m) c 2).trans (W2_of m c main_arg3 (by decide)).symm)
  | ⟨3, _⟩ => exact ((dat0 (V1 m) c).arrAt_in 3 rfl _).trans ((A_eq0 (V1 m) c 3).trans (W2_of m c main_arg4 (by decide)).symm)
  | ⟨4, _⟩ => exact ((dat0 (V1 m) c).arrAt_in 4 rfl _).trans ((A_eq0 (V1 m) c 4).trans (W2_of m c main_arg5 (by decide)).symm)
  | ⟨5, _⟩ => exact (Function.update_self (β := fun b : DevRef τ sig => Buf (Elt F) ((c : Thread nD τ).1, b)) (Proc.devRef .tc main_v19) _ _).symm
theorem hrest0 (c : Dev nD) : ∀ b, b ∉ Finset.univ.image (Pipeline.arrRef spec0) → V2 m c b = V1 m c b := fun b hb =>
  W2_of m c b fun h => hb (Finset.mem_image.mpr ⟨5, Finset.mem_univ _, show Pipeline.arrRef spec0 5 = b from (List.mem_singleton.mp h).symm⟩)
theorem hF1 (c : Dev nD) (w : Fin cfg1.W) : (dat1 (V3 m) c).arrAt w cfg1.N = V4 m c (Pipeline.arrRef spec1 w) := by
  match w with
  | ⟨0, _⟩ => exact ((dat1 (V3 m) c).arrAt_in 0 rfl _).trans ((A_eq1 (V3 m) c 0).trans (W4_of m c main_v19 (by decide)).symm)
  | ⟨1, _⟩ => exact ((dat1 (V3 m) c).arrAt_in 1 rfl _).trans ((A_eq1 (V3 m) c 1).trans (W4_of m c main_v38 (by decide)).symm)
  | ⟨2, _⟩ => exact ((dat1 (V3 m) c).arrAt_in 2 rfl _).trans ((A_eq1 (V3 m) c 2).trans (W4_of m c main_arg6 (by decide)).symm)
  | ⟨3, _⟩ => exact ((dat1 (V3 m) c).arrAt_in 3 rfl _).trans ((A_eq1 (V3 m) c 3).trans (W4_of m c main_arg7 (by decide)).symm)
  | ⟨4, _⟩ => exact ((dat1 (V3 m) c).arrAt_in 4 rfl _).trans ((A_eq1 (V3 m) c 4).trans (W4_of m c main_arg8 (by decide)).symm)
  | ⟨5, _⟩ => exact (Function.update_self (β := fun b : DevRef τ sig => Buf (Elt F) ((c : Thread nD τ).1, b)) (Proc.devRef .tc main_v39) _ _).symm
theorem hrest1 (c : Dev nD) : ∀ b, b ∉ Finset.univ.image (Pipeline.arrRef spec1) → V4 m c b = V3 m c b := fun b hb =>
  W4_of m c b fun h => hb (Finset.mem_image.mpr ⟨5, Finset.mem_univ _, show Pipeline.arrRef spec1 5 = b from (List.mem_singleton.mp h).symm⟩)
theorem hF2 (c : Dev nD) (w : Fin cfg2.W) : (dat2 (V5 m) c).arrAt w cfg2.N = V6 m c (Pipeline.arrRef spec2 w) := by
  match w with
  | ⟨0, _⟩ => exact ((dat2 (V5 m) c).arrAt_in 0 rfl _).trans ((A_eq2 (V5 m) c 0).trans (W6x_of m c (o6 m c) main_v46 (by decide)).symm)
  | ⟨1, _⟩ => exact ((dat2 (V5 m) c).arrAt_in 1 rfl _).trans ((A_eq2 (V5 m) c 1).trans (W6x_of m c (o6 m c) main_v53 (by decide)).symm)
  | ⟨2, _⟩ => exact (Function.update_self (β := fun b : DevRef τ sig => Buf (Elt F) ((c : Thread nD τ).1, b)) (Proc.devRef .tc main_v54) _ _).symm
theorem hrest2 (c : Dev nD) : ∀ b, b ∉ Finset.univ.image (Pipeline.arrRef spec2) → V6 m c b = V5 m c b := fun b hb =>
  W6x_of m c (o6 m c) b fun h => hb (Finset.mem_image.mpr ⟨2, Finset.mem_univ _, show Pipeline.arrRef spec2 2 = b from (List.mem_singleton.mp h).symm⟩)

/-! ## The proof data family and the thread state's pieces -/

/-- No call has a prefetched table. -/
abbrev adm : (p : Fin 3) → (pcfgs (F := F) p).Adm := fun p => (cfgs p).toPCfg_adm
/-- Every call's proof data, each at the contents its call is entered from. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its debts, none. -/
abbrev R (c : Dev nD) : sProp 𝕄 := iprop((∃ r, prngReg c r) ∗ ∃ W, owes (c : Thread nD τ) (0 : CellTallies nD τ sig Unit) W)
/-- A stretch of host operations as an item: from the contents W to `StableHlo.after ops (W c)`, R riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Regions

end
-- ==== Proof.KI.LastStretch.lean ====
/-
  The closing stretch of host operations — the one reshape of the edge-score result into the program's result — as an
  item whose thread state does not name what the edge-score call left: from the buffers at the contents after that
  call with its result array at SOME contents x, to the buffers after the reshape from those same contents x.
-/
import proofs.«117563_j13804024889624_1_alg».proof.Proof.KI.Fold

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-- The closing reshape as an item, existential in the edge-score result array's contents: whatever contents x the
    array holds before, the stretch run from the buffers at x leaves them at the reshape of x, and that x is the
    witness after. What rides beside the buffers is untouched. -/
def seg6x : Pipeline.HostSeg (Name := ℕ) (U := UR sig nD τ) (pcfgs (F := F)) defs₀ 𝒱₀ L lv where
  prog := StableHlo.seq hostOps3
  pre c := iprop(∃ x, StableHlo.held (c : Thread nD τ) (Pipeline.ucRefs τ sig) (W6x m c x) ∗ R c)
  post c := iprop(∃ x, StableHlo.held (c : Thread nD τ) (Pipeline.ucRefs τ sig) (W7x m c x) ∗ R c)
  run c {β} k K := by
    iintro ⟨Hk, Hbd, ⟨%x, Hpre⟩, Hlev⟩
    have h := (hseg hostOps3 hostOps3_sub hostOps3_fresh (fun c => W6x m c x)).run c k K
    dsimp only [hseg, Pipeline.HostSeg.ofOps] at h
    iapply h
    isplitl [Hk]
    · iintro ⟨Hbd, Hpost⟩
      iapply Hk
      isplitl [Hbd]; · iexact Hbd
      iexists x
      iexact Hpost
    isplitl [Hbd]; · iexact Hbd
    isplitl [Hpre]; · iexact Hpre
    iexact Hlev

theorem seg6x_prog : (seg6x m).prog = StableHlo.seq hostOps3 := rfl

theorem seg6x_pre (c : Dev nD) : (seg6x m).pre c
    = iprop(∃ x, StableHlo.held (c : Thread nD τ) (Pipeline.ucRefs τ sig) (W6x m c x) ∗ R c) := rfl

theorem seg6x_post (c : Dev nD) : (seg6x m).post c
    = iprop(∃ x, StableHlo.held (c : Thread nD τ) (Pipeline.ucRefs τ sig) (W7x m c x) ∗ R c) := rfl

end Cert.KernelIdeal.Regions

end
-- ==== Proof.KI.RunFrame.lean ====
/-
  The whole program's run with the edge-score call's result left unnamed. The program is seven items in a row: an
  aggregation (host operations), the first node-combine call, the second aggregation, the second node-combine call,
  the two gathers, the edge-score call, the closing reshape. The two node-combine calls are read exactly as their
  proof data name them. The edge-score call's last grid point overhangs its arrays: the rows of its result block
  there may depend on staging words nothing names, so its result window is FORGOTTEN — the call is entered from the
  contents after the two gathers and left with its two input arrays as entered and its result array at SOME contents x.
  The closing reshape then runs from the buffers at that x, whatever it is, and no argument array is the result
  array or is written by the reshape: read back through the fold, each of the nine arguments ends as launched.
-/
import proofs.«117563_j13804024889624_1_alg».proof.Proof.KI.Fold
import proofs.«117563_j13804024889624_1_alg».proof.Proof.KI.LastStretch

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-! ## Every call's proof data read as a relation on what the body leaves -/

/-- Each call's proof data as a relation between what the body finds in a window's buffer and what it leaves there:
    the two node-combine calls' exactly as named; the edge-score call's with its result window forgotten. -/
def rdats : (p : Fin 3) → (c : Dev nD) → RDat τ (Elt F) Unit ℕ (UR sig nD τ) ℕ (Pipeline.pin (pcfgs (F := F)) adm p) c
  | ⟨0, _⟩ => fun c => (dat0 (V1 m) c).toR
  | ⟨1, _⟩ => fun c => (dat1 (V3 m) c).toR
  | ⟨2, _⟩ => fun c => (dat2 (V5 m) c).toRForget fgt2

/-! ## The three calls as items -/

set_option backward.isDefEq.respectTransparency.types false in
/-- The first node-combine call: entered from every unscoped buffer at the contents after the first aggregation, left
    with its result array at what its ten write-backs leave and every other buffer as entered. -/
def freg0 (hb : ∀ c : Dev nD, BodyObligation (dat0 (F := F) (V1 m) c) (defs₀ (F := F)) Variants.none () Set.univ) :
    Pipeline.RDat.RegionSeg (pcfgs (F := F)) adm (rdats m) () defs₀ 𝒱₀ L lv 0 where
  win := launch0.win.to₀
  block_pos := launch0.block_pos
  stage_whole := launch0.stage_whole
  K := PEmpty
  osem k := k.elim
  ho := Pipeline.OwnSemFacts.none _
  hbody c := (hb c).loose.toR
  hwaits := Pipeline.RDat.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.RDat.arrays_of_unscopedBufs (p := 0) (pcfgs (F := F)) adm (rdats m) launch0.win launch0.arr_whole c
      ((dat0 (V1 m) c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    rw [show (rdats m 0 c).arraysAt (Pipeline.pin (pcfgs (F := F)) adm 0).N = ((pdats m 0 c).arrays ((pdats m 0 c).arrAt · cfg0.N) : sProp 𝕄)
      from (dat0 (V1 m) c).toR_arraysAt_eq cfg0.N]
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

set_option backward.isDefEq.respectTransparency.types false in
/-- The second node-combine call, the same kernel on the first layer's output and its aggregate: entered at the
    contents after the second aggregation, left with the second layer's output written. -/
def freg1 (hb : ∀ c : Dev nD, BodyObligation (dat1 (F := F) (V3 m) c) (defs₀ (F := F)) Variants.none () Set.univ) :
    Pipeline.RDat.RegionSeg (pcfgs (F := F)) adm (rdats m) () defs₀ 𝒱₀ L lv 1 where
  win := launch1.win.to₀
  block_pos := launch1.block_pos
  stage_whole := launch1.stage_whole
  K := PEmpty
  osem k := k.elim
  ho := Pipeline.OwnSemFacts.none _
  hbody c := (hb c).loose.toR
  hwaits := Pipeline.RDat.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.RDat.arrays_of_unscopedBufs (p := 1) (pcfgs (F := F)) adm (rdats m) launch1.win launch1.arr_whole c
      ((dat1 (V3 m) c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    rw [show (rdats m 1 c).arraysAt (Pipeline.pin (pcfgs (F := F)) adm 1).N = ((pdats m 1 c).arrays ((pdats m 1 c).arrAt · cfg1.N) : sProp 𝕄)
      from (dat1 (V3 m) c).toR_arraysAt_eq cfg1.N]
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

/-! ### The edge-score call: its result array left at contents nothing names -/

/-- The TensorCore's buffers after the edge-score call, its result array at contents x. -/
abbrev V6x (c : Dev nD) (x : Buf (Elt F) ((c : Thread nD τ).loc main_v54)) :
    (b : Ref sig .tc) → Buf (Elt F) ((c : Thread nD τ).loc b) := fun b => W6x m c x b

/-- Off the call's three arrays the buffers are as the call was entered, whatever x. -/
theorem hrest2x (c : Dev nD) (x : Buf (Elt F) ((c : Thread nD τ).loc main_v54)) :
    ∀ b, b ∉ Finset.univ.image (Pipeline.arrRef spec2) → V6x m c x b = V5 m c b := fun b hb =>
  W6x_of m c x b fun h => hb (Finset.mem_image.mpr ⟨2, Finset.mem_univ _, show Pipeline.arrRef spec2 2 = b from (List.mem_singleton.mp h).symm⟩)

/-- The source-side array is an input: whatever it may hold after the write-backs is what the call was entered with,
    which is what the buffers after the call hold there, whatever x. -/
theorem in2_0 (c : Dev nD) (x : Buf (Elt F) ((c : Thread nD τ).loc main_v54)) (G) (h : (rdats m 2 c).ArrAt 0 cfg2.N G) :
    G = V6x m c x (Pipeline.arrRef spec2 0) :=
  (((dat2 (V5 m) c).toRForget_arrAt_iff (fgt := fgt2) (w := 0) rfl cfg2.N G).mp h).trans
    (((dat2 (V5 m) c).arrAt_in 0 rfl _).trans ((A_eq2 (V5 m) c 0).trans (W6x_of m c x main_v46 (by decide)).symm))
/-- The destination-side array likewise. -/
theorem in2_1 (c : Dev nD) (x : Buf (Elt F) ((c : Thread nD τ).loc main_v54)) (G) (h : (rdats m 2 c).ArrAt 1 cfg2.N G) :
    G = V6x m c x (Pipeline.arrRef spec2 1) :=
  (((dat2 (V5 m) c).toRForget_arrAt_iff (fgt := fgt2) (w := 1) rfl cfg2.N G).mp h).trans
    (((dat2 (V5 m) c).arrAt_in 1 rfl _).trans ((A_eq2 (V5 m) c 1).trans (W6x_of m c x main_v53 (by decide)).symm))
/-- The result array at x is what the buffers with the result array at x hold there. -/
theorem out2_2 (c : Dev nD) (x : Buf (Elt F) ((c : Thread nD τ).loc main_v54)) : V6x m c x (Pipeline.arrRef spec2 2) = x :=
  Function.update_self (β := fun b : DevRef τ sig => Buf (Elt F) ((c : Thread nD τ).1, b)) (Proc.devRef .tc main_v54) _ _

/-- The call's three arrays after every write-back, each at some contents it may then hold, are the three arrays as
    the buffers hold them with the result array at some x: the two inputs as entered, the result at what it holds. -/
theorem exit2 (c : Dev nD) :
    ((rdats m 2 c).arraysAt cfg2.N : sProp 𝕄)
      ⊢ iprop(∃ x, (pdats m 2 c).arrays fun w => V6x m c x (Pipeline.arrRef spec2 w)) := by
  unfold RDat.arraysAt
  rw [bigSep_W2]
  iintro ⟨⟨%G0, %h0, H0⟩, ⟨%G1, %h1, H1⟩, ⟨%G2, -, H2⟩⟩
  iexists G2
  unfold Dat.arrays
  rw [bigSep_W2]
  have e0 := in2_0 m c G2 G0 h0
  have e1 := in2_1 m c G2 G1 h1
  subst e0 e1
  beta_reduce
  rw [out2_2 m c G2]
  isplitl [H0]; · iexact H0
  isplitl [H1]; · iexact H1
  iexact H2

set_option backward.isDefEq.respectTransparency.types false in
/-- The edge-score call: entered from every unscoped buffer at the contents after the two gathers; left with every
    buffer but its result array as entered and the result array at some contents x. Its arrays are split out of the
    buffers as for the other calls; at the exit the two input arrays are as entered (no write-back touches them) and the
    result array holds whatever the forty-nine write-backs left, which names x. -/
def freg2 (hb : ∀ c : Dev nD, BodyObligationLoose (dat2 (F := F) (V5 m) c) (defs₀ (F := F)) Variants.none () Set.univ fgt2) :
    Pipeline.RDat.RegionSeg (pcfgs (F := F)) adm (rdats m) () defs₀ 𝒱₀ L lv 2 where
  win := launch2.win.to₀
  block_pos := launch2.block_pos
  stage_whole := launch2.stage_whole
  K := PEmpty
  osem k := k.elim
  ho := Pipeline.OwnSemFacts.none _
  hbody c := (hb c).toRForget
  hwaits := Pipeline.RDat.hwaits_of_owed_zero _ _ _ _ L lv 2 fun _ _ => rfl
  pre c := iprop(StableHlo.held (c : Thread nD τ) (Pipeline.ucRefs τ sig) (W5 m c) ∗ R c)
  post c := iprop(∃ x, StableHlo.held (c : Thread nD τ) (Pipeline.ucRefs τ sig) (W6x m c x) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.RDat.arrays_of_unscopedBufs (p := 2) (pcfgs (F := F)) adm (rdats m) launch2.win launch2.arr_whole c
      ((dat2 (V5 m) c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (rdats m 2 c).Φ (Fin.last _) = Pipeline.ΦA spec2 c from rfl]; unfold Pipeline.ΦA
    iintro ⟨Hr, Hp⟩
    isplitl [Hp]; · iexact Hp
    isplitr; · iempintro
    iexact Hr
  hexit c := by
    iintro ⟨Ha, HO, HY, Hrest⟩
    ihave Hx := (exit2 m c) $$ Ha
    icases Hx with ⟨%x, Ha⟩
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6x m c x) (fun w => V6x m c x (Pipeline.arrRef spec2 w)) (fun _ => rfl) (hrest2x m c x)
    rw [Pipeline.unscopedBufs_held] at hjoin
    imodintro
    iexists x
    isplitl [Ha Hrest]
    · iapply hjoin; isplitl [Ha] <;> iassumption
    isplitl [HY]; · iexact HY
    unfold Pipeline.RDat.owesAt Pipeline.owesWithin
    icases HO with ⟨%W, -, HO⟩; iexists W; iexact HO

/-! ## The program as its seven items, and the launch -/

section Run

variable (hb0 : ∀ c : Dev nD, BodyObligation (dat0 (F := F) (V1 m) c) (defs₀ (F := F)) Variants.none () Set.univ)
  (hb1 : ∀ c : Dev nD, BodyObligation (dat1 (F := F) (V3 m) c) (defs₀ (F := F)) Variants.none () Set.univ)
  (hb2 : ∀ c : Dev nD, BodyObligationLoose (dat2 (F := F) (V5 m) c) (defs₀ (F := F)) Variants.none () Set.univ fgt2)

/-- The seven items in order: each host stretch from the contents of the boundary before it, each call's record; the
    closing reshape from the buffers with the edge-score result at whatever contents the call left. -/
abbrev fsegs : List (Pipeline.RDat.Seg (pcfgs (F := F)) adm (rdats m) () defs₀ 𝒱₀ L lv) :=
  [ .host (hseg hostOps0 hostOps0_sub hostOps0_fresh (W0 m)),
    .region (freg0 m hb0),
    .host (hseg hostOps1 hostOps1_sub hostOps1_fresh (W2 m)),
    .region (freg1 m hb1),
    .host (hseg hostOps2 hostOps2_sub hostOps2_fresh (W4 m)),
    .region (freg2 m hb2),
    .host (seg6x m) ]

/-- The program is the run of the seven items: it is the chain of their fragments, and the run of a list of items is
    the chain of its fragments. -/
theorem fmain_run (c : Dev nD) : main (F := F) c = Pipeline.RDat.Seg.run (fsegs m hb0 hb1 hb2) := by
  rw [main_chain c, Pipeline.RDat.Seg.run_eq_chain]
  rfl

end Run

set_option backward.isDefEq.respectTransparency.types false in
/-- THE FRAME WITH THE EDGE-SCORE RESULT FORGOTTEN. Given the two node-combine calls' body obligations and the
    edge-score call's obligation with its result window forgotten, each at the contents its call is entered from: from
    any memory with zero counters, every weakly fair execution of the program terminates, nothing faulting, and in every
    final memory each of the nine argument arrays holds what it held at launch. -/
theorem run_frame (ρ : Dev nD → PrngReg)
    (hb0 : ∀ c : Dev nD, BodyObligation (dat0 (F := F) (V1 m) c) (defs₀ (F := F)) Variants.none () Set.univ)
    (hb1 : ∀ c : Dev nD, BodyObligation (dat1 (F := F) (V3 m) c) (defs₀ (F := F)) Variants.none () Set.univ)
    (hb2 : ∀ c : Dev nD, BodyObligationLoose (dat2 (F := F) (V5 m) c) (defs₀ (F := F)) Variants.none () Set.univ fgt2) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.RDat.θ_run_regions_kit (pcfgs (F := F)) adm (rdats m) () cellOf_inj emb₁ defs₀ 𝒱₀ L lv m ρ main (fsegs m hb0 hb1 hb2)
    (fun c Q => by rw [fmain_run m hb0 hb1 hb2 c])
    (by simp only [fsegs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(∃ x, StableHlo.held (c : Thread nD τ) (Pipeline.ucRefs τ sig) (W7x m c x) ∗ ∃ r, prngReg c r))
    (hch := ⟨fun _ => .rfl, fun _ => .rfl, fun _ => .rfl, fun _ => .rfl, fun _ => .rfl, fun _ => .rfl, fun _ => .rfl,
      fun c => by
        -- the reshape leaves the buffers at the fold's end, for some x, beside the register and the debts: regroup
        show iprop(∃ x, StableHlo.held (c : Thread nD τ) (Pipeline.ucRefs τ sig) (W7x m c x) ∗ R c)
          ⊢ iprop((∃ x, StableHlo.held (c : Thread nD τ) (Pipeline.ucRefs τ sig) (W7x m c x) ∗ ∃ r, prngReg c r)
              ∗ ∃ W, owes (c : Thread nD τ) (0 : CellTallies nD τ sig Unit) W)
        iintro ⟨%x, Hh, Hp, HO⟩
        isplitl [Hh Hp]
        · iexists x; isplitl [Hh] <;> iassumption
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s =>
      s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8))
    (hfin := fun c s' => by
      -- whatever x the edge-score call left, the buffers at the fold's end are read against the final memory
      unfold StableHlo.held
      iintro ⟨⟨%x, Hh, -⟩, HSI⟩
      ihave Hr := (pointsTo_read_all (Pipeline.ucRefs τ sig) (fun b => ((c : Thread nD τ).1, b)) (W7x m c x) s') $$ [Hh HSI]
      · isplitl [Hh] <;> iassumption
      icases Hr with ⟨%h, HSI⟩
      imodintro
      isplitr
      · ipureintro
        exact ⟨(h _ (mem_uc main_arg0 (by decide))).trans (W7x_main_arg0 m c x),
          (h _ (mem_uc main_arg1 (by decide))).trans (W7x_main_arg1 m c x),
          (h _ (mem_uc main_arg2 (by decide))).trans (W7x_main_arg2 m c x),
          (h _ (mem_uc main_arg3 (by decide))).trans (W7x_main_arg3 m c x),
          (h _ (mem_uc main_arg4 (by decide))).trans (W7x_main_arg4 m c x),
          (h _ (mem_uc main_arg5 (by decide))).trans (W7x_main_arg5 m c x),
          (h _ (mem_uc main_arg6 (by decide))).trans (W7x_main_arg6 m c x),
          (h _ (mem_uc main_arg7 (by decide))).trans (W7x_main_arg7 m c x),
          (h _ (mem_uc main_arg8 (by decide))).trans (W7x_main_arg8 m c x)⟩
      · iexact HSI)
    (hQ := fun _ h => h)

end Cert.KernelIdeal.Regions

end
-- ==== Proof.KI.RunExact.lean ====
/-
  The whole program's run with every unscoped buffer's final contents named. The program is seven items in a row:
  an aggregation (host operations), the first node-combine call, the second aggregation, the second node-combine
  call, the two gathers, the edge-score call, the closing reshape. Each item takes the thread state "every unscoped
  buffer at the contents of the boundary before it, the generator register at some state, nothing owed" to the same
  statement at the boundary after it: a host stretch applies its operations to the contents; a call splits its
  arrays out of the buffers, runs its grid over them (given the body's obligation at every point), and puts them back
  with the result array at what the write-backs leave and every other buffer as entered. Chained from the launch
  memory to the return, the last state read against the final memory gives every unscoped buffer at the fold's end.
-/
import proofs.«117563_j13804024889624_1_alg».proof.Proof.KI.Fold

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-- The last thread state without the debts: every unscoped buffer at the contents after the closing reshape, the
    generator register at some state. -/
abbrev Tₙ (c : Dev nD) : sProp 𝕄 := iprop(StableHlo.held (c : Thread nD τ) (Pipeline.ucRefs τ sig) (W7 m c) ∗ ∃ r, prngReg c r)

/-! ## The three calls as items -/

set_option backward.isDefEq.respectTransparency.types false in
/-- The first node-combine call: entered from every unscoped buffer at the contents after the first aggregation, left
    with its result array (the first layer's output) at what its ten write-backs leave and every other buffer as
    entered. Its six arrays are split out of the unscoped buffers and put back; the generator register goes into the
    grid's invariant and comes out; nothing is owed; the kernel has no semaphore of its own. -/
def reg0 (hb : ∀ c : Dev nD, BodyObligation (dat0 (F := F) (V1 m) c) (defs₀ (F := F)) Variants.none () Set.univ) :
    Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (hb c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second node-combine call, the same kernel on the first layer's output and its aggregate: entered at the
    contents after the second aggregation, left with the second layer's output written. -/
def reg1 (hb : ∀ c : Dev nD, BodyObligation (dat1 (F := F) (V3 m) c) (defs₀ (F := F)) Variants.none () Set.univ) :
    Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (hb c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The edge-score call: entered at the contents after the two gathers, left with the 800000 scores written. Its last
    grid point's blocks overhang the arrays, so its body's obligation is the one stated on the rows inside the arrays;
    splitting the arrays out of the buffers and putting them back is the same as for the other two calls. -/
def reg2 (hb : ∀ c : Dev nD, BodyObligationLoose (dat2 (F := F) (V5 m) c) (defs₀ (F := F)) Variants.none () Set.univ) :
    Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := hb c
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its seven items, and the launch -/

section Run

variable (hb0 : ∀ c : Dev nD, BodyObligation (dat0 (F := F) (V1 m) c) (defs₀ (F := F)) Variants.none () Set.univ)
  (hb1 : ∀ c : Dev nD, BodyObligation (dat1 (F := F) (V3 m) c) (defs₀ (F := F)) Variants.none () Set.univ)
  (hb2 : ∀ c : Dev nD, BodyObligationLoose (dat2 (F := F) (V5 m) c) (defs₀ (F := F)) Variants.none () Set.univ)

/-- The seven items in order: each host stretch from the contents of the boundary before it, each call's record. -/
abbrev segs : List (Pipeline.Seg (pcfgs (F := F)) adm (pdats m) () defs₀ 𝒱₀ L lv) :=
  [ .host (hseg hostOps0 hostOps0_sub hostOps0_fresh (W0 m)),
    .region (reg0 m hb0),
    .host (hseg hostOps1 hostOps1_sub hostOps1_fresh (W2 m)),
    .region (reg1 m hb1),
    .host (hseg hostOps2 hostOps2_sub hostOps2_fresh (W4 m)),
    .region (reg2 m hb2),
    .host (hseg hostOps3 hostOps3_sub hostOps3_fresh (W6 m)) ]

/-- The program is the run of the seven items: it is the chain of their fragments, and the run of a list of items is
    the chain of its fragments. -/
theorem main_run (c : Dev nD) : main (F := F) c = Pipeline.Seg.run (segs m hb0 hb1 hb2) := by
  rw [main_chain c, Pipeline.Seg.run_eq_chain]
  rfl

end Run

set_option backward.isDefEq.respectTransparency.types false in
/-- THE EXACT RUN. Given each call's body obligation at the contents its call is entered from: from any memory with
    zero counters, every weakly fair execution of the program terminates, and in every final memory each unscoped
    buffer holds what the fold through the seven items leaves in it. -/
theorem run_exact (ρ : Dev nD → PrngReg)
    (hb0 : ∀ c : Dev nD, BodyObligation (dat0 (F := F) (V1 m) c) (defs₀ (F := F)) Variants.none () Set.univ)
    (hb1 : ∀ c : Dev nD, BodyObligation (dat1 (F := F) (V3 m) c) (defs₀ (F := F)) Variants.none () Set.univ)
    (hb2 : ∀ c : Dev nD, BodyObligationLoose (dat2 (F := F) (V5 m) c) (defs₀ (F := F)) Variants.none () Set.univ) :
    θ_run defs (onTc (τ := τ) (main (F := F))) ⟨m, fun _ => 0, ρ⟩
      (fun r => ∀ c : Dev nD, ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m hb0 hb1 hb2)
    (fun c Q => by rw [main_run m hb0 hb1 hb2 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun c => by
        -- the last item leaves the buffers at the fold's end beside the register and the debts: regroup
        show iprop(StableHlo.held (c : Thread nD τ) (Pipeline.ucRefs τ sig) (W7 m c) ∗ R c)
          ⊢ iprop(Tₙ m c ∗ ∃ W, owes (c : Thread nD τ) (0 : CellTallies nD τ sig Unit) W)
        iintro ⟨Hh, Hp, HO⟩
        isplitl [Hh Hp]
        · isplitl [Hh] <;> iassumption
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

end Cert.KernelIdeal.Regions

end
-- ==== Proof.KI.Body0.lean ====
/-
  The node-combine call number 0: its body obligation. At each of the ten grid points the five input windows'
  current buffers hold their blocks — the two node arrays' rows 5000·t … 5000·t + 4999, brought in at every point;
  the two 64 × 64 weight matrices and the bias, brought in at the first point and left in place since, their block
  index never moving —; the body reads the five buffers whole and lays max(x·W_self + h·W_neigh + b, 0) over the
  whole of the result's buffer, whatever that held.
-/
import proofs.«117563_j13804024889624_1_alg».proof.Proof.KI.Data0

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## What the body finds in the five input buffers

For proof data whose array is the one found at entry and whose body leaves the input's block where it was, the
window's current buffer holds the block of the point: where the window is brought in at the point that is the fetch;
where it is not, its block index has not moved since the last fetch and nothing has touched the buffer. No block of
this call overhangs its array and no point is idle for any window. -/

/-- The x rows of point t are in window 0's buffer (brought in at every point). -/
theorem found0_x {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl)
      (fun t => by rw [hafter]; unfold Dat.blockOf iblk0; rw [hA]; try rfl) t d).trans
    (by unfold Dat.fetched Dat.blockOf iblk0; rw [hA]; try rfl)

/-- The h rows of point t are in window 1's buffer (brought in at every point). -/
theorem found0_h {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl)
      (fun t => by rw [hafter]; unfold Dat.blockOf iblk0; rw [hA]; try rfl) t d).trans
    (by unfold Dat.fetched Dat.blockOf iblk0; rw [hA]; try rfl)

/-- W_self whole is in window 2's buffer at every point (brought in once, at the first). -/
theorem found0_wself {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl)
      (fun t => by rw [hafter]; unfold Dat.blockOf iblk0; rw [hA]; try rfl) t d).trans
    (by unfold Dat.fetched Dat.blockOf iblk0; rw [hA]; try rfl)

/-- W_neigh whole is in window 3's buffer at every point (brought in once, at the first). -/
theorem found0_wneigh {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl)
      (fun t => by rw [hafter]; unfold Dat.blockOf iblk0; rw [hA]; try rfl) t d).trans
    (by unfold Dat.fetched Dat.blockOf iblk0; rw [hA]; try rfl)

/-- The bias whole is in window 4's buffer at every point (brought in once, at the first). -/
theorem found0_bias {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl)
      (fun t => by rw [hafter]; unfold Dat.blockOf iblk0; rw [hA]; try rfl) t d).trans
    (by unfold Dat.fetched Dat.blockOf iblk0; rw [hA]; try rfl)

/-! ## The body's one store covers the result buffer -/

/-- The store's rectangle is the whole 5000 × 64 buffer, so every index of the buffer lies in it. -/
theorem cover0_out (p : Vec F S5000x64 .f32) (y : S5000x64.Idx) :
    ∃ pc ∈ ([⟨rA0, p⟩] : List (View.Piece (Elt F) S5000x64 .f32)), y ∈ pc.1.set :=
  View.cover_of_tiled [⟨rA0, p⟩] S5000x64.size (by rfl) y

/-! ## The body's triple -/

set_option maxHeartbeats 1000000 in
/-- The combine body on whole buffers: the five inputs' at read contents x, h, ws, wn, b and the result's at
    anything; it runs to the continuation with the inputs' as they were and the result's at out0_5 of them. The body
    is five whole loads of the inputs, one load of the result buffer whose value is never used, and one whole store. -/
theorem sound_kernel0 (c : Dev nD) (E : Set ℕ) (i : grid0.Coords)
    (mx : Memref sig .tc .vmem S5000x64 .f32) (hmx : mx.IsWhole) (mh : Memref sig .tc .vmem S5000x64 .f32) (hmh : mh.IsWhole)
    (mws : Memref sig .tc .vmem S64x64 .f32) (hmws : mws.IsWhole) (mwn : Memref sig .tc .vmem S64x64 .f32) (hmwn : mwn.IsWhole)
    (mb : Memref sig .tc .vmem S64 .f32) (hmb : mb.IsWhole) (mo : Memref sig .tc .vmem S5000x64 .f32) (hmo : mo.IsWhole)
    (x h : Vec F S5000x64 .f32) (ws wn : Vec F S64x64 .f32) (b : Vec F S64 .f32) (K : PUnit → sProp 𝕄) :
    iprop(owns (c : Thread nD τ) mx fullShare x ∗ owns (c : Thread nD τ) mh fullShare h
        ∗ owns (c : Thread nD τ) mws fullShare ws ∗ owns (c : Thread nD τ) mwn fullShare wn
        ∗ owns (c : Thread nD τ) mb fullShare b ∗ (∃ d, owns (c : Thread nD τ) mo fullShare d)
        ∗ (iprop(owns (c : Thread nD τ) mx fullShare x ∗ owns (c : Thread nD τ) mh fullShare h
            ∗ owns (c : Thread nD τ) mws fullShare ws ∗ owns (c : Thread nD τ) mwn fullShare wn
            ∗ owns (c : Thread nD τ) mb fullShare b ∗ owns (c : Thread nD τ) mo fullShare (out0_5 x h ws wn b)) -∗ K ⟨⟩))
      ⊢ wp frame (wpE (defs₀ (F := F)) Variants.none c none) E (cc0__combine_kernel i mx hmx mh hmh mws hmws mwn hmwn mb hmb mo hmo) K := by
  simp only [cc0__combine_kernel_eq_skeleton]; unfold cc0__combine_kernel_skel
  unfold owns
  iintro ⟨⟨%fx, %hfx, Hx⟩, ⟨%fh, %hfh, Hh⟩, ⟨%fws, %hfws, Hws⟩, ⟨%fwn, %hfwn, Hwn⟩, ⟨%fb, %hfb, Hb⟩, ⟨%d, %fo, -, Ho⟩, Hk⟩
  subst hfx hfh hfws hfwn hfb
  sl_exec
  sl_step
  iapply Hk
  isplitl [Hx]
  · iexists fx; isplitr; · ipureintro; rfl
    iexact Hx
  isplitl [Hh]
  · iexists fh; isplitr; · ipureintro; rfl
    iexact Hh
  isplitl [Hws]
  · iexists fws; isplitr; · ipureintro; rfl
    iexact Hws
  isplitl [Hwn]
  · iexists fwn; isplitr; · ipureintro; rfl
    iexact Hwn
  isplitl [Hb]
  · iexists fb; isplitr; · ipureintro; rfl
    iexact Hb
  iexists _; isplitr
  swap; · iexact Ho
  ipureintro
  exact View.read_writes_eq_canon _ _ _ (cover0_out _)

/-! ## The input buffers at this call's proof data -/

theorem before0_0 (c : Dev nD) (t : Fin cfg0.N) (d) : (dat0 V c).before 0 t d = iblk0 V c 0 t :=
  found0_x V (dat0 V c) (A_eq0 V c 0) (after0_0 V c) t d
theorem before0_1 (c : Dev nD) (t : Fin cfg0.N) (d) : (dat0 V c).before 1 t d = iblk0 V c 1 t :=
  found0_h V (dat0 V c) (A_eq0 V c 1) (after0_1 V c) t d
theorem before0_2 (c : Dev nD) (t : Fin cfg0.N) (d) : (dat0 V c).before 2 t d = iblk0 V c 2 t :=
  found0_wself V (dat0 V c) (A_eq0 V c 2) (after0_2 V c) t d
theorem before0_3 (c : Dev nD) (t : Fin cfg0.N) (d) : (dat0 V c).before 3 t d = iblk0 V c 3 t :=
  found0_wneigh V (dat0 V c) (A_eq0 V c 3) (after0_3 V c) t d
theorem before0_4 (c : Dev nD) (t : Fin cfg0.N) (d) : (dat0 V c).before 4 t d = iblk0 V c 4 t :=
  found0_bias V (dat0 V c) (A_eq0 V c 4) (after0_4 V c) t d

/-! ## The body obligation, at a generic point -/

/-- What the body is handed at point t: the invariant, the core's dues, and the six windows' current buffers, each
    at what it then holds. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- What it hands back: the same, each buffer at what the proof data says the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the five input buffers hold their blocks, so the body's triple applies at them; the
    invariant and the core's dues are the same before and after the point and pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Hd, ⟨%d0, Hx⟩, ⟨%d1, Hh⟩, ⟨%d2, Hws⟩, ⟨%d3, Hwn⟩, ⟨%d4, Hb⟩, ⟨%d5, Ho⟩⟩
  iapply (sound_kernel0 c Set.univ _ _ _ _ _ _ _ _ _ _ _ _ _
    (iblk0 V c 0 t) (iblk0 V c 1 t) (iblk0 V c 2 t) (iblk0 V c 3 t) (iblk0 V c 4 t) _)
  isplitl [Hx]; · iexact Hx
  isplitl [Hh]; · iexact Hh
  isplitl [Hws]; · iexact Hws
  isplitl [Hwn]; · iexact Hwn
  isplitl [Hb]; · iexact Hb
  isplitl [Ho]; · iexists _; iexact Ho
  iintro ⟨Hx, Hh, Hws, Hwn, Hb, Ho⟩
  isplitl [HΦ]; · iexact HΦ
  isplitl [Hd]; · iexact Hd
  isplitl [Hx]; · iexact Hx
  isplitl [Hh]; · iexact Hh
  isplitl [Hws]; · iexact Hws
  isplitl [Hwn]; · iexact Hwn
  isplitl [Hb]; · iexact Hb
  iexact Ho

/-- The body obligation of call 0: the six windows' buffers written out one by one, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Regions

end
-- ==== Proof.KI.Body1.lean ====
/-
  The node-combine call number 1: its body obligation. At each of the ten grid points the five input windows'
  current buffers hold their blocks — the two node arrays' rows 5000·t … 5000·t + 4999, brought in at every point;
  the two 64 × 64 weight matrices and the bias, brought in at the first point and left in place since, their block
  index never moving —; the body reads the five buffers whole and lays max(x·W_self + h·W_neigh + b, 0) over the
  whole of the result's buffer, whatever that held.
-/
import proofs.«117563_j13804024889624_1_alg».proof.Proof.KI.Data1

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## What the body finds in the five input buffers

For proof data whose array is the one found at entry and whose body leaves the input's block where it was, the
window's current buffer holds the block of the point: where the window is brought in at the point that is the fetch;
where it is not, its block index has not moved since the last fetch and nothing has touched the buffer. No block of
this call overhangs its array and no point is idle for any window. -/

/-- The x rows of point t are in window 0's buffer (brought in at every point). -/
theorem found1_x {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl)
      (fun t => by rw [hafter]; unfold Dat.blockOf iblk1; rw [hA]; try rfl) t d).trans
    (by unfold Dat.fetched Dat.blockOf iblk1; rw [hA]; try rfl)

/-- The h rows of point t are in window 1's buffer (brought in at every point). -/
theorem found1_h {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl)
      (fun t => by rw [hafter]; unfold Dat.blockOf iblk1; rw [hA]; try rfl) t d).trans
    (by unfold Dat.fetched Dat.blockOf iblk1; rw [hA]; try rfl)

/-- W_self whole is in window 2's buffer at every point (brought in once, at the first). -/
theorem found1_wself {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl)
      (fun t => by rw [hafter]; unfold Dat.blockOf iblk1; rw [hA]; try rfl) t d).trans
    (by unfold Dat.fetched Dat.blockOf iblk1; rw [hA]; try rfl)

/-- W_neigh whole is in window 3's buffer at every point (brought in once, at the first). -/
theorem found1_wneigh {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl)
      (fun t => by rw [hafter]; unfold Dat.blockOf iblk1; rw [hA]; try rfl) t d).trans
    (by unfold Dat.fetched Dat.blockOf iblk1; rw [hA]; try rfl)

/-- The bias whole is in window 4's buffer at every point (brought in once, at the first). -/
theorem found1_bias {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl)
      (fun t => by rw [hafter]; unfold Dat.blockOf iblk1; rw [hA]; try rfl) t d).trans
    (by unfold Dat.fetched Dat.blockOf iblk1; rw [hA]; try rfl)

/-! ## The body's one store covers the result buffer -/

/-- The store's rectangle is the whole 5000 × 64 buffer, so every index of the buffer lies in it. -/
theorem cover1_out (p : Vec F S5000x64 .f32) (y : S5000x64.Idx) :
    ∃ pc ∈ ([⟨rA1, p⟩] : List (View.Piece (Elt F) S5000x64 .f32)), y ∈ pc.1.set :=
  View.cover_of_tiled [⟨rA1, p⟩] S5000x64.size (by rfl) y

/-! ## The body's triple -/

set_option maxHeartbeats 1000000 in
/-- The combine body on whole buffers: the five inputs' at read contents x, h, ws, wn, b and the result's at
    anything; it runs to the continuation with the inputs' as they were and the result's at out1_5 of them. The body
    is five whole loads of the inputs, one load of the result buffer whose value is never used, and one whole store. -/
theorem sound_kernel1 (c : Dev nD) (E : Set ℕ) (i : grid1.Coords)
    (mx : Memref sig .tc .vmem S5000x64 .f32) (hmx : mx.IsWhole) (mh : Memref sig .tc .vmem S5000x64 .f32) (hmh : mh.IsWhole)
    (mws : Memref sig .tc .vmem S64x64 .f32) (hmws : mws.IsWhole) (mwn : Memref sig .tc .vmem S64x64 .f32) (hmwn : mwn.IsWhole)
    (mb : Memref sig .tc .vmem S64 .f32) (hmb : mb.IsWhole) (mo : Memref sig .tc .vmem S5000x64 .f32) (hmo : mo.IsWhole)
    (x h : Vec F S5000x64 .f32) (ws wn : Vec F S64x64 .f32) (b : Vec F S64 .f32) (K : PUnit → sProp 𝕄) :
    iprop(owns (c : Thread nD τ) mx fullShare x ∗ owns (c : Thread nD τ) mh fullShare h
        ∗ owns (c : Thread nD τ) mws fullShare ws ∗ owns (c : Thread nD τ) mwn fullShare wn
        ∗ owns (c : Thread nD τ) mb fullShare b ∗ (∃ d, owns (c : Thread nD τ) mo fullShare d)
        ∗ (iprop(owns (c : Thread nD τ) mx fullShare x ∗ owns (c : Thread nD τ) mh fullShare h
            ∗ owns (c : Thread nD τ) mws fullShare ws ∗ owns (c : Thread nD τ) mwn fullShare wn
            ∗ owns (c : Thread nD τ) mb fullShare b ∗ owns (c : Thread nD τ) mo fullShare (out1_5 x h ws wn b)) -∗ K ⟨⟩))
      ⊢ wp frame (wpE (defs₀ (F := F)) Variants.none c none) E (cc1__combine_kernel i mx hmx mh hmh mws hmws mwn hmwn mb hmb mo hmo) K := by
  simp only [cc1__combine_kernel_eq_skeleton]; unfold cc1__combine_kernel_skel
  unfold owns
  iintro ⟨⟨%fx, %hfx, Hx⟩, ⟨%fh, %hfh, Hh⟩, ⟨%fws, %hfws, Hws⟩, ⟨%fwn, %hfwn, Hwn⟩, ⟨%fb, %hfb, Hb⟩, ⟨%d, %fo, -, Ho⟩, Hk⟩
  subst hfx hfh hfws hfwn hfb
  sl_exec
  sl_step
  iapply Hk
  isplitl [Hx]
  · iexists fx; isplitr; · ipureintro; rfl
    iexact Hx
  isplitl [Hh]
  · iexists fh; isplitr; · ipureintro; rfl
    iexact Hh
  isplitl [Hws]
  · iexists fws; isplitr; · ipureintro; rfl
    iexact Hws
  isplitl [Hwn]
  · iexists fwn; isplitr; · ipureintro; rfl
    iexact Hwn
  isplitl [Hb]
  · iexists fb; isplitr; · ipureintro; rfl
    iexact Hb
  iexists _; isplitr
  swap; · iexact Ho
  ipureintro
  exact View.read_writes_eq_canon _ _ _ (cover1_out _)

/-! ## The input buffers at this call's proof data -/

theorem before1_0 (c : Dev nD) (t : Fin cfg1.N) (d) : (dat1 V c).before 0 t d = iblk1 V c 0 t :=
  found1_x V (dat1 V c) (A_eq1 V c 0) (after1_0 V c) t d
theorem before1_1 (c : Dev nD) (t : Fin cfg1.N) (d) : (dat1 V c).before 1 t d = iblk1 V c 1 t :=
  found1_h V (dat1 V c) (A_eq1 V c 1) (after1_1 V c) t d
theorem before1_2 (c : Dev nD) (t : Fin cfg1.N) (d) : (dat1 V c).before 2 t d = iblk1 V c 2 t :=
  found1_wself V (dat1 V c) (A_eq1 V c 2) (after1_2 V c) t d
theorem before1_3 (c : Dev nD) (t : Fin cfg1.N) (d) : (dat1 V c).before 3 t d = iblk1 V c 3 t :=
  found1_wneigh V (dat1 V c) (A_eq1 V c 3) (after1_3 V c) t d
theorem before1_4 (c : Dev nD) (t : Fin cfg1.N) (d) : (dat1 V c).before 4 t d = iblk1 V c 4 t :=
  found1_bias V (dat1 V c) (A_eq1 V c 4) (after1_4 V c) t d

/-! ## The body obligation, at a generic point -/

/-- What the body is handed at point t: the invariant, the core's dues, and the six windows' current buffers, each
    at what it then holds. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- What it hands back: the same, each buffer at what the proof data says the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the five input buffers hold their blocks, so the body's triple applies at them; the
    invariant and the core's dues are the same before and after the point and pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Hd, ⟨%d0, Hx⟩, ⟨%d1, Hh⟩, ⟨%d2, Hws⟩, ⟨%d3, Hwn⟩, ⟨%d4, Hb⟩, ⟨%d5, Ho⟩⟩
  iapply (sound_kernel1 c Set.univ _ _ _ _ _ _ _ _ _ _ _ _ _
    (iblk1 V c 0 t) (iblk1 V c 1 t) (iblk1 V c 2 t) (iblk1 V c 3 t) (iblk1 V c 4 t) _)
  isplitl [Hx]; · iexact Hx
  isplitl [Hh]; · iexact Hh
  isplitl [Hws]; · iexact Hws
  isplitl [Hwn]; · iexact Hwn
  isplitl [Hb]; · iexact Hb
  isplitl [Ho]; · iexists _; iexact Ho
  iintro ⟨Hx, Hh, Hws, Hwn, Hb, Ho⟩
  isplitl [HΦ]; · iexact HΦ
  isplitl [Hd]; · iexact Hd
  isplitl [Hx]; · iexact Hx
  isplitl [Hh]; · iexact Hh
  isplitl [Hws]; · iexact Hws
  isplitl [Hwn]; · iexact Hwn
  isplitl [Hb]; · iexact Hb
  iexact Ho

/-- The body obligation of call 1: the six windows' buffers written out one by one, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Regions

end
-- ==== Proof.KI.Body2.lean ====
/-
  The edge-score call's body at one grid point. The body reads its two 16384 × 64 staging buffers whole, multiplies
  them lane by lane, sums each row's 64 products, applies the logistic function twice and stores the 16384 × 1
  result over the whole of the third buffer; the two input buffers are left as found.

  At the last of the forty-nine points only 13568 of a buffer's 16384 rows lie inside the 800000-row arrays. The
  row sum is, for arbitrary float values, a function of the whole vector it is given, so what the body leaves on the
  result's rows depends on the input buffers' rows past the arrays' end, which hold words nothing names. The
  obligation proved here therefore says nothing of the result's buffer: it is taken at any contents and given back
  at any contents. The two input buffers arrive holding their blocks on the rows inside the array and some filler
  past it, and are given back holding exactly that, which is what a window stated on the rows inside the array asks.
-/
import proofs.«117563_j13804024889624_1_alg».proof.Proof.KI.Data2
import Idealize.ShloMosaic.Lib.Pipeline.Value

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's triple -/

set_option maxHeartbeats 1000000 in
/-- The body on three whole buffers, the inputs' reading `x0` and `x1` and the result's holding anything: it runs
    to the continuation with the inputs' as they were and the result's holding σ(σ(row sums of x0 · x1)), the
    body's arithmetic as one term (`k2_pay1`). Each of the two loads is through the rectangle at offsets zero of the
    buffer's own sizes, so it reads the contents; the one store is through that rectangle of the result's buffer and
    unmasked, so it covers the buffer and leaves its payload whatever was there (the load of the result's buffer
    before it is dead). -/
theorem sound_kernel2 (c : Dev nD) (E : Set ℕ) (i : grid2.Coords) (arg0 : Memref sig .tc .vmem S16384x64 .f32) (harg0 : arg0.IsWhole) (arg1 : Memref sig .tc .vmem S16384x64 .f32) (harg1 : arg1.IsWhole) (arg2 : Memref sig .tc .vmem S16384x1 .f32) (harg2 : arg2.IsWhole) (x0 x1 : Vec F S16384x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (k2_pay1 x0 x1)) -∗ K ⟨⟩))
      ⊢ wp frame (wpE (defs₀ (F := F)) Variants.none c none) E (cc2__edge_score_kernel i arg0 harg0 arg1 harg1 arg2 harg2) K := by
  simp only [cc2__edge_score_kernel_eq_skeleton]; unfold cc2__edge_score_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  -- the result's buffer after the one store reads the payload of what the two loads read:
  have hz : (![0, 0] : Fin 2 → Nat) = fun _ => 0 := funext fun a => by fin_cases a <;> rfl
  -- a load through the whole-buffer rectangle reads the contents,
  have hl0 : View.readAt (Elt F) arg0.view (Rect.unit (s := S16384x64) ![0, 0] S16384x64.size inb_S16384x64_S16384x64_0_0).toLoadRect f0
      = View.read (Elt F) arg0.view f0 :=
    (View.readAt_eq_ld arg0.view f0 _).trans (View.ld_unit_zero hz inb_S16384x64_S16384x64_0_0 _)
  have hl1 : View.readAt (Elt F) arg1.view (Rect.unit (s := S16384x64) ![0, 0] S16384x64.size inb_S16384x64_S16384x64_0_0).toLoadRect f1
      = View.read (Elt F) arg1.view f1 :=
    (View.readAt_eq_ld arg1.view f1 _).trans (View.ld_unit_zero hz inb_S16384x64_S16384x64_0_0 _)
  rw [hl0, hl1]
  generalize k2_pay1 (View.read (Elt F) arg0.view f0) (View.read (Elt F) arg1.view f1) = w
  -- and one store through it, which every index of the buffer lies in, leaves its payload
  have hcov : ∀ y : S16384x1.Idx, ∃ p ∈ ([⟨Rect.unit (s := S16384x1) ![0, 0] S16384x1.size inb_S16384x1_S16384x1_0_0, w⟩] :
      List (View.Piece (Elt F) S16384x1 .f32)), y ∈ p.1.set :=
    fun y => ⟨_, List.mem_singleton_self _, View.mem_set_unit_zero hz inb_S16384x1_S16384x1_0_0 y⟩
  rw [View.read_writes_eq_canon arg2.view f2
    [⟨Rect.unit (s := S16384x1) ![0, 0] S16384x1.size inb_S16384x1_S16384x1_0_0, w⟩] hcov]
  exact View.canon_unit_zero (Val := Elt F) (S := S16384x1) (e := .f32) (off := ![0, 0]) hz inb_S16384x1_S16384x1_0_0 w

-- the TensorCore's buffer contents when the region is entered
variable (V : (c : Dev nD) → (b : Ref sig .tc) → Buf (Elt F) ((c : Thread nD τ).loc b))

/-! ## What the body finds in the two input buffers -/

/-- Both inputs are fetched at every point (the block index is the point), so each input's buffer holds what the
    fetch just landed: the block's rows inside the array, and `d`, what the buffer held, on the rows past it. -/
theorem before2_0 (c : Dev nD) (t : Fin cfg2.N) (d) :
    (dat2 V c).before 0 t d = win2_0.fill (grid2.coords t) d (xblk2 V c t) := by
  unfold Dat.before; rw [if_pos (fetch2_0 t)]; rfl
theorem before2_1 (c : Dev nD) (t : Fin cfg2.N) (d) :
    (dat2 V c).before 1 t d = win2_1.fill (grid2.coords t) d (yblk2 V c t) := by
  unfold Dat.before; rw [if_pos (fetch2_1 t)]; rfl

/-! ## The body obligation, forgetting the result's window -/

/-- The library's obligation at every point, the result's window forgotten. The invariant and the core's debts pass
    through unread. Each input's buffer arrives at its block filled out with some `d` past the array's end, and
    the body leaves it so; the data say the buffer then holds the block filled out with the zero word, and cutting
    that back to the rows inside the array gives the block again, so the buffer as left is the block filled out
    with the same `d`: the form a window stated on the rows inside the array only is handed back in. The result's
    buffer arrives at any contents and leaves at the body's value of the two buffers, which is some contents. -/
theorem body_obligation2_fgt (c : Dev nD) :
    BodyObligationLoose (dat2 (F := F) V c) (defs₀ (F := F)) Variants.none () Set.univ fgt2 := fun t => by
  rw [bigSep_W2, bigSep_W2]
  -- the mask forgets window 2 only; no point is idle for any window and all three are stated on the rows inside
  -- the array
  have hm0 : fgt2 0 = false := by decide
  have hm1 : fgt2 1 = false := by decide
  have hm2 : fgt2 2 = true := by decide
  simp only [hm0, hm1, hm2]
  rw [show (dat2 V c).Φ t.succ = (dat2 V c).Φ t.castSucc from rfl,
    show (dat2 V c).owesAt () t.succ = (dat2 V c).owesAt () t.castSucc from rfl]
  iintro ⟨HΦ, Ho, ⟨%d0, H0⟩, ⟨%d1, H1⟩, ⟨%X, H2⟩⟩
  rw [before2_0 V c t d0, before2_1 V c t d1]
  iapply (sound_kernel2 (F := F) c Set.univ (grid2.coords t)
    (st2_0 t) (hstage2_0 ((cfg2.slots t 0).cast nbuf2_0)) (st2_1 t) (hstage2_1 ((cfg2.slots t 1).cast nbuf2_1))
    (st2_2 t) (hstage2_2 ((cfg2.slots t 2).cast nbuf2_2))
    (win2_0.fill (grid2.coords t) d0 (xblk2 V c t)) (win2_1.fill (grid2.coords t) d1 (yblk2 V c t)) _)
  isplitl [H0]; · iexact H0
  isplitl [H1]; · iexact H1
  isplitl [H2]; · iexists X; iexact H2
  iintro ⟨H0, H1, H2⟩
  isplitl [HΦ]; · iexact HΦ
  isplitl [Ho]; · iexact Ho
  -- the zero-filled block cut back to the rows inside the array is the block
  have hx : (win2 0).cut (grid2.coords t) ((dat2 V c).after 0 t) = xblk2 V c t := by
    rw [after2_0]; exact win2_0.cut_fill _ _ _
  have hy : (win2 1).cut (grid2.coords t) ((dat2 V c).after 1 t) = yblk2 V c t := by
    rw [after2_1]; exact win2_1.cut_fill _ _ _
  isplitl [H0]
  · iexists d0; rw [hx]; iexact H0
  isplitl [H1]
  · iexists d1; rw [hy]; iexact H1
  · iexists _; iexact H2

end Cert.KernelIdeal.Regions

end
-- ==== Proof.KI.Body2Exact.lean ====
/-
  The edge-score call's body obligation at the ideal values, stated exactly.

  At the ideal values the body's result at row r is σ(σ(Σ_k x0[r,k] · x1[r,k])): the lane sum at row r is the finite
  sum over that row's 64 lanes, the shape casts are re-indexings that keep the row, and the product and the logistic
  function act element by element. So row r of the result reads row r of the two operands and nothing else.

  At the last grid point the two input blocks and the result block overhang their 800000-row arrays by the same 2816
  rows: the three windows' index maps are the same function of the point, and the row axis is cut at the same place on
  each; the inputs' lane axis is not cut. A fetch lands an input block's rows inside the array and leaves the staging
  buffer's remaining rows at words nothing names. Since a row of the result inside the array reads only rows of the
  operands inside the array, on those rows the body's value is the same whatever the operands' remaining rows hold —
  in particular it is the value computed from the blocks filled out with the zero word, which is what the call's proof
  data name. Every window being stated on its rows inside the array only, that is the whole obligation.
-/
import proofs.«117563_j13804024889624_1_alg».proof.Proof.KI.Body2
import Idealize.ShloMosaic.PureOps.Ideal.Laws
import Idealize.ShloMosaic.Lib.ValueIdx
import Idealize.ShloMosaic.Lib.Pipeline.Value

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx
open scoped BigOperators

/-! ## The body's value at a row -/

/-- The source index the lane sum reads at row r and lane k is (r, k). -/
theorem lane_lift_row (r : Fin 16384) (k : Fin 64) :
    (reduces_S16384x64_S16384.lift (ix1 r) k : S16384x64.Idx) = ix2 r k := by
  funext a
  match a with
  | ⟨0, _⟩ => rfl
  | ⟨1, _⟩ => rfl

/-- The body's value at row r: the logistic of the logistic of the row's inner product. The outer shape cast sends
    (r, 0) of the 16384 × 1 result to r of the row sums (the same row-major position); the lane sum at r is the sum
    over the 64 lanes of row r; the inner shape casts are the identity. -/
theorem score_at_row (x0 x1 : Vec Ideal S16384x64 .f32) (r : Fin 16384) (u : Fin 1) :
    k2_pay1 (F := Ideal) x0 x1 (ix2 r u)
      = Ideal.logistic (Ideal.logistic (∑ k : Fin 64, x0 (ix2 r k) * x1 (ix2 r k))) := by
  unfold k2_pay1
  have hj : ∀ (v : FVec Ideal S16384x1 .f32), logistic v (ix2 r u) = Ideal.logistic (v (ix2 r u)) := fun _ => rfl
  rw [hj, hj]
  have hrm : (S16384.rowMajor (ix1 r)).val = (S16384x1.rowMajor (ix2 r u)).val := by
    rw [Shape.rowMajor_val_one, Shape.rowMajor_val_two]
    have h1 : u.val < 1 := u.isLt
    show r.val = r.val * 1 + u.val
    omega
  rw [shapeCast_apply _ shapeCasts_S16384_S16384x1 (ix2 r u) (ix1 r) hrm]
  refine congrArg Ideal.logistic (congrArg Ideal.logistic ?_)
  refine (Ideal.multiReduction_add_single _ _ reduces_S16384x64_S16384 _ _ (ix1 r)).trans ?_
  show (∑ k : Fin 64, _) = _
  refine Finset.sum_congr rfl fun k _ => ?_
  rw [lane_lift_row, mulf_apply]
  have hsc : ∀ (x : Vec Ideal S16384x64 .f32) (i : S16384x64.Idx),
      shapeCast S16384x64 x shapeCasts_S16384x64_S16384x64 i = x i := fun x i =>
    shapeCast_apply x shapeCasts_S16384x64_S16384x64 i i rfl
  rw [hsc, hsc]

/-- Two pairs of operands that agree on row i₀ give the body the same value at (i₀, ·). -/
theorem score_congr_row (x0 x0' x1 x1' : Vec Ideal S16384x64 .f32) (i : S16384x1.Idx)
    (h0 : ∀ k : Fin 64, x0 (ix2 (n0 := 16384) (i 0) k) = x0' (ix2 (n0 := 16384) (i 0) k))
    (h1 : ∀ k : Fin 64, x1 (ix2 (n0 := 16384) (i 0) k) = x1' (ix2 (n0 := 16384) (i 0) k)) :
    k2_pay1 (F := Ideal) x0 x1 i = k2_pay1 (F := Ideal) x0' x1' i := by
  obtain ⟨r, u, rfl⟩ : ∃ (r : Fin 16384) (u : Fin 1), i = ix2 r u := ⟨i 0, i 1, eq_ix2 i⟩
  have h0' : ∀ k : Fin 64, x0 (ix2 r k) = x0' (ix2 r k) := h0
  have h1' : ∀ k : Fin 64, x1 (ix2 r k) = x1' (ix2 r k) := h1
  rw [score_at_row, score_at_row]
  refine congrArg Ideal.logistic (congrArg Ideal.logistic (Finset.sum_congr rfl fun k _ => ?_))
  rw [h0' k, h1' k]

/-! ## The three windows cut alike -/

/-- The three index maps are one function of the point and the three arrays have 800000 rows in blocks of 16384, so
    the row axis is cut at the same place on the two inputs' windows as on the result's (by unfolding the maps, the
    point kept symbolic); -/
theorem rows_cut_0 (coords : grid2.Coords) : win2_0.xsize coords 0 = win2_2.xsize coords 0 := rfl
theorem rows_cut_1 (coords : grid2.Coords) : win2_1.xsize coords 0 = win2_2.xsize coords 0 := rfl
/-- and the inputs' lane axis, one block of 64 in an array of 64, is not cut. -/
theorem lanes_cut_0 (coords : grid2.Coords) : win2_0.xsize coords 1 = 64 := rfl
theorem lanes_cut_1 (coords : grid2.Coords) : win2_1.xsize coords 1 = 64 := rfl

/-- On an index the transfer moves, a filled block holds the moved part, whatever filled it out. -/
theorem fill_at_moved {G : Pipeline.Grid} (w : Window sig G) {α : Type} (i : G.Coords) (d d' : w.block.Idx → α)
    (g : (w.xblock i).Idx → α) (j : w.block.Idx) (h : w.moved i j = true) : w.fill i d g j = w.fill i d' g j := by
  unfold Window.fill; rw [dif_pos h, dif_pos h]

/-- If row r of the result block lies inside the array, every lane of row r of an input block is moved by its fetch. -/
theorem moved_row_0 (coords : grid2.Coords) (r : Fin 16384) (k : Fin 64) (hr : r.val < win2_2.xsize coords 0) :
    win2_0.moved coords (ix2 r k) = true := by
  rw [Window.moved_iff]
  intro a
  match a with
  | ⟨0, _⟩ => exact (rows_cut_0 coords).symm ▸ hr
  | ⟨1, _⟩ => exact (lanes_cut_0 coords).symm ▸ k.isLt
theorem moved_row_1 (coords : grid2.Coords) (r : Fin 16384) (k : Fin 64) (hr : r.val < win2_2.xsize coords 0) :
    win2_1.moved coords (ix2 r k) = true := by
  rw [Window.moved_iff]
  intro a
  match a with
  | ⟨0, _⟩ => exact (rows_cut_1 coords).symm ▸ hr
  | ⟨1, _⟩ => exact (lanes_cut_1 coords).symm ▸ k.isLt

/-- On the rows inside the array the body's value does not depend on what fills its operands out past the array's
    end: row r of the result reads row r of the operands, which the fetches moved. -/
theorem pay_rows (coords : grid2.Coords) (d0 d1 d0' d1' : Vec Ideal S16384x64 .f32)
    (x : (win2_0.xblock coords).Idx → Elt Ideal .f32) (y : (win2_1.xblock coords).Idx → Elt Ideal .f32) :
    win2_2.cut coords (k2_pay1 (F := Ideal) (win2_0.fill coords d0 x) (win2_1.fill coords d1 y))
      = win2_2.cut coords (k2_pay1 (F := Ideal) (win2_0.fill coords d0' x) (win2_1.fill coords d1' y)) := by
  funext j
  have hr : ((win2_2.xinj coords j) 0).val < win2_2.xsize coords 0 := (j 0).isLt
  exact score_congr_row _ _ _ _ (win2_2.xinj coords j)
    (fun k => fill_at_moved win2_0 coords d0 d0' x _ (moved_row_0 coords _ k hr))
    (fun k => fill_at_moved win2_1 coords d1 d1' y _ (moved_row_1 coords _ k hr))

/-! ## The obligation -/

/-- The library's body obligation at the ideal values. The two inputs' buffers arrive holding their blocks filled out
    past the array's end with words nothing names (d0, d1), the result's holding anything. The body leaves the inputs'
    as they were and the result's at its value of them. On the rows inside the array the inputs' buffers are the
    zero-filled blocks' rows (cutting a filled block gives the block back) and the result's is the body's value of the
    zero-filled blocks (pay_rows): all that a window stated on the rows inside the array asks. -/
theorem body_obligation2 (V : (c : Dev nD) → (b : Ref sig .tc) → Buf (Elt Ideal) ((c : Thread nD τ).loc b)) (c : Dev nD) :
    BodyObligationLoose (dat2 (F := Ideal) V c) (defs₀ (F := Ideal)) Variants.none () Set.univ := fun t => by
  rw [bigSep_W2, bigSep_W2]
  -- no point is idle and every window is stated on its rows inside the array (the matches reduce); the invariant
  -- and what is owed are the same at the two positions
  simp only
  rw [show (dat2 V c).Φ t.succ = (dat2 V c).Φ t.castSucc from rfl,
    show (dat2 V c).owesAt () t.succ = (dat2 V c).owesAt () t.castSucc from rfl]
  iintro ⟨HΦ, Ho, ⟨%d0, H0⟩, ⟨%d1, H1⟩, ⟨%d2, H2⟩⟩
  rw [before2_0 V c t d0, before2_1 V c t d1]
  iapply (sound_kernel2 (F := Ideal) c Set.univ (grid2.coords t)
    (win2_0.stage (cfg2.slots t 0)) (hstage2_0 ((cfg2.slots t 0).cast nbuf2_0))
    (win2_1.stage (cfg2.slots t 1)) (hstage2_1 ((cfg2.slots t 1).cast nbuf2_1))
    (win2_2.stage (cfg2.slots t 2)) (hstage2_2 ((cfg2.slots t 2).cast nbuf2_2))
    (win2_0.fill (grid2.coords t) d0 (xblk2 V c t)) (win2_1.fill (grid2.coords t) d1 (yblk2 V c t)) _)
  isplitl [H0]
  · iexact H0
  isplitl [H1]
  · iexact H1
  isplitl [H2]
  · iexists _; iexact H2
  iintro ⟨H0, H1, H2⟩
  isplitl [HΦ]; · iexact HΦ
  isplitl [Ho]; · iexact Ho
  have hx : win2_0.cut (grid2.coords t) (xfill2 V c t) = xblk2 V c t := win2_0.cut_fill _ _ _
  have hy : win2_1.cut (grid2.coords t) (yfill2 V c t) = yblk2 V c t := win2_1.cut_fill _ _ _
  isplitl [H0]
  · iexists d0
    change _ ⊢ owns (c : Thread nD τ) (stage2_0 (cfg2.slots t 0)) fullShare
      (win2_0.fill (grid2.coords t) d0 (win2_0.cut (grid2.coords t) (xfill2 V c t)))
    rw [hx]
  isplitl [H1]
  · iexists d1
    change _ ⊢ owns (c : Thread nD τ) (stage2_1 (cfg2.slots t 1)) fullShare
      (win2_1.fill (grid2.coords t) d1 (win2_1.cut (grid2.coords t) (yfill2 V c t)))
    rw [hy]
  · -- the buffer holds the body's value B of the d-filled blocks; take B itself as the filler: B's rows inside the
    -- array are those of the value of the zero-filled blocks (pay_rows), and a block filled out with its own rows is
    -- itself
    iexists k2_pay1 (F := Ideal) (win2_0.fill (grid2.coords t) d0 (xblk2 V c t)) (win2_1.fill (grid2.coords t) d1 (yblk2 V c t))
    change _ ⊢ owns (c : Thread nD τ) (stage2_2 (cfg2.slots t 2)) fullShare
      (win2_2.fill (α := Elt Ideal .f32) (grid2.coords t) (k2_pay1 (F := Ideal) (win2_0.fill (grid2.coords t) d0 (xblk2 V c t)) (win2_1.fill (grid2.coords t) d1 (yblk2 V c t)))
        (win2_2.cut (α := Elt Ideal .f32) (grid2.coords t) (k2_pay1 (F := Ideal) (xfill2 V c t) (yfill2 V c t))))
    unfold xfill2 yfill2
    rw [pay_rows (grid2.coords t) _ _ d0 d1 (xblk2 V c t) (yblk2 V c t), win2_2.fill_cut]

end Cert.KernelIdeal.Regions

end
-- ==== Proof.KI.HostReads.lean ====
/-
  What each stretch of host operations leaves in the arrays the next call reads, as one term of the operations.

  The mean aggregation of a node array x along the edges (src, dst): row n of the result is the sum over the edges e with
  dst[e] = n of row src[e] of x, divided by max(the number of such edges, 1). An index below zero counts from the end
  of the node array (50000 is added to it). The edge gathers take row idx[e] of a node array for every edge e, with the
  same reading of an index below zero. The closing reshape reads the 800000 × 1 edge scores as 800000 numbers in row-major order.
-/
import proofs.«117563_j13804024889624_1_alg».proof.Proof.KI.Fold
import Idealize.ShloMosaic.Lib.StableHlo.Run

set_option maxRecDepth 16384

noncomputable section

namespace Cert.KernelIdeal.Regions

open Cert.KernelIdeal Cert.KernelIdeal.Gen
open Idealize.ShloMosaic Idealize.ShloMosaic.TcCoe Idealize.ShloMosaic.Tactic

variable {F : FTy → Type} [FloatOps F]

/-! ## The operations' terms -/

/-- An edge-index array with every index below zero moved up by the number of nodes, as a column of row indices. -/
def rowsK (idx : IVec S800000 32) : IVec S800000x1 32 :=
  broadcastInDim S800000x1 ![0] bcast_S800000_S800000x1_0
    (select (cmpi .slt idx (broadcastInDim S800000 ![] bcast_S_S800000 (constantI S_ 32 0#32)))
      (addi idx (broadcastInDim S800000 ![] bcast_S_S800000 (constantI S_ 32 50000#32))) idx)

/-- Row idx[e] of the node array x, for every edge e. -/
def gathK (x : FVec F S50000x64 .f32) (idx : IVec S800000 32) : FVec F S800000x64 .f32 :=
  Host.gather gather_S50000x64_S800000x1_S800000x64_1_0_n_n_0_1_164 x (rowsK idx)

/-- The mean over each node's incoming edges of the source rows of x: the sum of the gathered rows scattered to their
    destination nodes, over the number of incoming edges (at least one). -/
def aggK (x : FVec F S50000x64 .f32) (src dst : IVec S800000 32) : FVec F S50000x64 .f32 :=
  Host.divf
    (Host.scatterAdd scatter_S50000x64_S800000x1_S800000x64_1_0_0_1
      (broadcastInDim S50000x64 ![] bcast_S_S50000x64 (constant S_ .f32 0x00000000#32))
      (broadcastInDim S800000x1 ![0] bcast_S800000_S800000x1_0 dst)
      (gathK x src))
    (broadcastInDim S50000x64 ![0, 1] bcast_S50000x1_S50000x64_0_1
      (broadcastInDim S50000x1 ![0] bcast_S50000_S50000x1_0
        (maximumf
          (Host.scatterAdd scatter_S50000_S800000x1_S800000_n_0_0_1
            (broadcastInDim S50000 ![] bcast_S_S50000 (constant S_ .f32 0x00000000#32))
            (broadcastInDim S800000x1 ![0] bcast_S800000_S800000x1_0 dst)
            (broadcastInDim S800000 ![] bcast_S_S800000 (constant S_ .f32 0x3F800000#32)))
          (broadcastInDim S50000 ![] bcast_S_S50000 (constant S_ .f32 0x3F800000#32)))))

/-- The edge scores as one row of 800000 numbers. -/
def flatK (x : FVec F S800000x1 .f32) : FVec F S800000 .f32 := shapeCast S800000 x shapeCasts_S800000x1_S800000

/-! ## Each stretch from any contents W -/

/-- The first aggregation leaves the mean of the node features in the first call's second array. -/
theorem agg0_read (W : Valuation τ sig (Elt F)) :
    StableHlo.after hostOps0 W (Proc.devRef .tc main_v18) = aggK (W main_arg0) (W main_arg1) (W main_arg2) := by
  after_results_simp; rfl

/-- The second aggregation, of the first call's result. -/
theorem agg1_read (W : Valuation τ sig (Elt F)) :
    StableHlo.after hostOps1 W (Proc.devRef .tc main_v38) = aggK (W main_v19) (W main_arg1) (W main_arg2) := by
  after_results_simp; rfl

/-- The two edge gathers of the second call's result: at the source ends and at the destination ends. -/
theorem gath_src_read (W : Valuation τ sig (Elt F)) :
    StableHlo.after hostOps2 W (Proc.devRef .tc main_v46) = gathK (W main_v39) (W main_arg1) := by
  after_results_simp; rfl
theorem gath_dst_read (W : Valuation τ sig (Elt F)) :
    StableHlo.after hostOps2 W (Proc.devRef .tc main_v53) = gathK (W main_v39) (W main_arg2) := by
  after_results_simp; rfl

/-- The closing reshape of the edge scores. -/
theorem flat_read (W : Valuation τ sig (Elt F)) :
    StableHlo.after hostOps3 W (Proc.devRef .tc main_v55) = flatK (W main_v54) := by
  after_results_simp; rfl

/-! ## Read through the fold -/

variable (m : (ℓ : Loc nD τ sig) → Buf (Elt F) ℓ)

/-- An argument array no item before the first call writes is entered as launched. -/
theorem V1_main_arg0 (c : Dev nD) : V1 m c main_arg0 = m ((c : Thread nD τ).loc main_arg0) := W1_of m c main_arg0 (by decide)
theorem V1_main_arg3 (c : Dev nD) : V1 m c main_arg3 = m ((c : Thread nD τ).loc main_arg3) := W1_of m c main_arg3 (by decide)
theorem V1_main_arg4 (c : Dev nD) : V1 m c main_arg4 = m ((c : Thread nD τ).loc main_arg4) := W1_of m c main_arg4 (by decide)
theorem V1_main_arg5 (c : Dev nD) : V1 m c main_arg5 = m ((c : Thread nD τ).loc main_arg5) := W1_of m c main_arg5 (by decide)

/-- The first call's neighbour array: the mean aggregation of the launched node features along the launched edges. -/
theorem V1_v18 (c : Dev nD) :
    V1 m c main_v18 = aggK (m ((c : Thread nD τ).loc main_arg0)) (m ((c : Thread nD τ).loc main_arg1)) (m ((c : Thread nD τ).loc main_arg2)) :=
  agg0_read (W0 m c)

/-- An argument array is unchanged up to the second call's entry. -/
theorem W2_arg (c : Dev nD) (r : Ref sig .tc) (h0 : r ∉ hostOps0_W) (h19 : r ∉ ([main_v19] : List (Ref sig .tc))) :
    W2 m c r = m ((c : Thread nD τ).loc r) :=
  (W2_of m c r h19).trans (W1_of m c r h0)
theorem V3_arg (c : Dev nD) (r : Ref sig .tc) (h0 : r ∉ hostOps0_W) (h1 : r ∉ hostOps1_W) (h19 : r ∉ ([main_v19] : List (Ref sig .tc))) :
    V3 m c r = m ((c : Thread nD τ).loc r) :=
  (W3_of m c r h1).trans (W2_arg m c r h0 h19)
theorem V3_main_arg6 (c : Dev nD) : V3 m c main_arg6 = m ((c : Thread nD τ).loc main_arg6) := V3_arg m c main_arg6 (by decide) (by decide) (by decide)
theorem V3_main_arg7 (c : Dev nD) : V3 m c main_arg7 = m ((c : Thread nD τ).loc main_arg7) := V3_arg m c main_arg7 (by decide) (by decide) (by decide)
theorem V3_main_arg8 (c : Dev nD) : V3 m c main_arg8 = m ((c : Thread nD τ).loc main_arg8) := V3_arg m c main_arg8 (by decide) (by decide) (by decide)

/-- What the first call wrote is what the second call's first array holds. -/
theorem W2_v19 (c : Dev nD) : W2 m c main_v19 = o2 m c :=
  Function.update_self (β := fun b : DevRef τ sig => Buf (Elt F) ((c : Thread nD τ).1, b)) (Proc.devRef .tc main_v19) _ _
theorem V3_v19 (c : Dev nD) : V3 m c main_v19 = o2 m c :=
  (W3_of m c main_v19 (by decide)).trans (W2_v19 m c)

/-- The second call's neighbour array: the mean aggregation of the first call's result along the launched edges. -/
theorem V3_v38 (c : Dev nD) :
    V3 m c main_v38 = aggK (o2 m c) (m ((c : Thread nD τ).loc main_arg1)) (m ((c : Thread nD τ).loc main_arg2)) := by
  refine (agg1_read (W2 m c)).trans ?_
  rw [W2_v19 m c, W2_arg m c main_arg1 (by decide) (by decide), W2_arg m c main_arg2 (by decide) (by decide)]

/-- An argument array is unchanged up to the edge gathers. -/
theorem W4_arg (c : Dev nD) (r : Ref sig .tc) (h0 : r ∉ hostOps0_W) (h1 : r ∉ hostOps1_W) (h19 : r ∉ ([main_v19] : List (Ref sig .tc)))
    (h39 : r ∉ ([main_v39] : List (Ref sig .tc))) : W4 m c r = m ((c : Thread nD τ).loc r) :=
  (W4_of m c r h39).trans (V3_arg m c r h0 h1 h19)
theorem W4_v39 (c : Dev nD) : W4 m c main_v39 = o4 m c :=
  Function.update_self (β := fun b : DevRef τ sig => Buf (Elt F) ((c : Thread nD τ).1, b)) (Proc.devRef .tc main_v39) _ _

/-- The edge-score call's two arrays: the second call's result gathered at the source and at the destination ends. -/
theorem V5_v46 (c : Dev nD) : V5 m c main_v46 = gathK (o4 m c) (m ((c : Thread nD τ).loc main_arg1)) := by
  refine (gath_src_read (W4 m c)).trans ?_
  rw [W4_v39 m c, W4_arg m c main_arg1 (by decide) (by decide) (by decide) (by decide)]
theorem V5_v53 (c : Dev nD) : V5 m c main_v53 = gathK (o4 m c) (m ((c : Thread nD τ).loc main_arg2)) := by
  refine (gath_dst_read (W4 m c)).trans ?_
  rw [W4_v39 m c, W4_arg m c main_arg2 (by decide) (by decide) (by decide) (by decide)]

/-- The program's result array: the edge-score call's result array, whatever it holds, read as one row. -/
theorem W7x_v55 (c : Dev nD) (x : Buf (Elt F) ((c : Thread nD τ).loc main_v54)) : W7x m c x main_v55 = flatK x := by
  refine (flat_read (W6x m c x)).trans ?_
  rw [show W6x m c x main_v54 = x from
    Function.update_self (β := fun b : DevRef τ sig => Buf (Elt F) ((c : Thread nD τ).1, b)) (Proc.devRef .tc main_v54) _ _]

end Cert.KernelIdeal.Regions

end
-- ==== Proof.Spec.lean ====
/-
  What the program computes, as functions of whole arrays over the extended reals.

  A layer takes the node array x, the neighbour means h, two 64 × 64 weight matrices and a bias, and gives, at node n
  and feature f, max(Σ_k x[n,k]·W_self[k,f] + Σ_k h[n,k]·W_neigh[k,f] + b[f], 0). It is stated for any number of
  rows, so that a block of 5000 rows of the layer of the whole array is the layer of that block of rows.
  The edge score of two gathered arrays is, at edge e, σ(σ(Σ_k x_src[e,k]·x_dst[e,k])) with σ(t) = 1/(1 + e^(−t)).
-/
import Idealize.ShloMosaic.Lib.ValueIdx
import Idealize.ShloMosaic.PureOps.Ideal.Laws

noncomputable section

open scoped BigOperators

namespace Cert.Spec

open Idealize.ShloMosaic Idealize.ShloMosaic.ValueIdx

/-- One layer at node `i 0` and feature `i 1`. -/
def layerFn {N : Nat} (x h : FVec Ideal ⟨2, ![N, 64]⟩ .f32) (ws wn : FVec Ideal ⟨2, ![64, 64]⟩ .f32)
    (b : FVec Ideal ⟨1, ![64]⟩ .f32) : FVec Ideal ⟨2, ![N, 64]⟩ .f32 :=
  fun i => max (((∑ k : Fin 64, x (ix2 (i 0) k) * ws (ix2 k (i 1))) + (∑ k : Fin 64, h (ix2 (i 0) k) * wn (ix2 k (i 1))))
    + b (ix1 (i 1))) 0

/-- The edge score at edge `i 0` (the second coordinate has one value). -/
def scoreFn {E : Nat} (xs xd : FVec Ideal ⟨2, ![E, 64]⟩ .f32) : FVec Ideal ⟨2, ![E, 1]⟩ .f32 :=
  fun i => Ideal.logistic (Ideal.logistic (∑ k : Fin 64, xs (ix2 (i 0) k) * xd (ix2 (i 0) k)))

end Cert.Spec

end
-- ==== Proof.LibDot.lean ====
/-
  Matrix products with ONE contracted axis and no batch axis, read at an entry at the ideal values, for any dimension
  numbers record whose axis lists are the stated ones (a printed record satisfies each hypothesis by `rfl`).

  With the accumulator the zero constant, the product at entry (a, b) is the sum over the contracted coordinate `c` of
  the left operand's entry times the right operand's entry; which coordinate of each operand `c` runs over is what the
  three forms below differ in: rows by columns (`_10`), the left operand transposed against a right operand contracted
  on its last axis (`_01`), and both operands contracted on their first axis (`_00`).
  Also: a non-contracting axis of either operand reads the output index, and the bf16 zero pattern is the real zero.
-/
import Idealize.ShloMosaic.Lib.ValueIdx
import Idealize.ShloMosaic.PureOps.Ideal.Laws

noncomputable section

open scoped BigOperators

namespace Cert.LibDot

open Idealize.ShloMosaic Idealize.ShloMosaic.ValueIdx

/-- The bf16 pattern of all zero bits is the number zero. -/
theorem ofBits_zero_bf16 : Ideal.ofBits .bf16 0x0000#16 = 0 := by simp [Ideal.ofBits, Ideal.ieee]

section Axes
variable {sl sr so : Shape} (d : DotDims sl sr so)

/-- With no batch axis and one non-contracting axis on the left, that axis of the left operand reads the output's
    first coordinate. -/
theorem lhsIdx_val_non {nl : Fin sl.rank} (hb : d.lhsBatch = []) (hn : d.lhsNonContracting = [nl]) (j : so.Idx)
    (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis and one non-contracting axis on each side, the right operand's non-contracting axis reads the
    output's second coordinate. -/
theorem rhsIdx_val_non {nl : Fin sl.rank} {nr : Fin sr.rank} (hlb : d.lhsBatch = []) (hrb : d.rhsBatch = [])
    (hln : d.lhsNonContracting = [nl]) (hn : d.rhsNonContracting = [nr]) (j : so.Idx)
    (k : d.contr.Idx) (h1 : 1 < so.rank) : (d.rhsIdx j k nr).val = (j ⟨1, h1⟩).val := by
  have hnb : nr ∉ d.rhsBatch := by rw [hrb]; exact List.not_mem_nil
  have hmem : nr ∈ d.rhsNonContracting := by rw [hn]; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hn])

end Axes

/-- Rows by columns: an `M × K` by a `K × N` operand, the left contracted on its last axis and the right on its
    first. -/
theorem matmul_10_zero_apply {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![M, K]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 a c) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l0 := lhsIdx_val_non d hlb hln (ix2 a b) ((contrEquiv1 d K hr hs).symm c) Nat.zero_lt_two
  have l1 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 a c := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

/-- A `K × M` left operand contracted on its first axis against an `N × K` right operand contracted on its last. -/
theorem matmul_01_zero_apply {M K N : Nat} {φ₁ φ₂ : FTy} (d : DotDims ⟨2, ![K, M]⟩ ⟨2, ![N, K]⟩ ⟨2, ![M, N]⟩)
    (hlc : d.lhsContracting = [0]) (hrc : d.rhsContracting = [1]) (hln : d.lhsNonContracting = [1])
    (hrn : d.rhsNonContracting = [0]) (hlb : d.lhsBatch = []) (hrb : d.rhsBatch = [])
    (prec : Option ContractPrecision) (A : FVec Ideal ⟨2, ![K, M]⟩ φ₁) (B : FVec Ideal ⟨2, ![N, K]⟩ φ₂)
    (a : Fin M) (b : Fin N) :
    matmul (F := Ideal) d prec A B (constant ⟨2, ![M, N]⟩ .f32 0x00000000#32) (ix2 a b)
      = ∑ c : Fin K, A (ix2 c a) * B (ix2 b c) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r1 := (d.rhsIdx_val_of_single hrc (ix2 a b) ((contrEquiv1 d K hr hs).symm c)).trans c2
  have r0 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 b c := by
    funext ax; apply Fin.ext
    match ax with
    | ⟨0, _⟩ => exact r0
    | ⟨1, _⟩ => exact r1
  rw [l2, r2]

/-- Both operands contracted on their first axis: a `K × M` by a `K × N` operand. -/
theorem matmul_00_zero_apply {M K N : Nat} {φ₁ φ₂ : FTy} (d : DotDims ⟨2, ![K, M]⟩ ⟨2, ![K, N]⟩ ⟨2, ![M, N]⟩)
    (hlc : d.lhsContracting = [0]) (hrc : d.rhsContracting = [0]) (hln : d.lhsNonContracting = [1])
    (hrn : d.rhsNonContracting = [1]) (hlb : d.lhsBatch = []) (hrb : d.rhsBatch = [])
    (prec : Option ContractPrecision) (A : FVec Ideal ⟨2, ![K, M]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 c a) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

end Cert.LibDot

end
-- ==== Proof.KI.Val0.lean ====
/-
  The result array of node-combine call number 0 in closed form over the extended reals: row n, feature f of it is
  max(Σ_k x[n,k]·W_self[k,f] + Σ_k h[n,k]·W_neigh[k,f] + b[f], 0) of the arrays the call finds.
-/
import proofs.«117563_j13804024889624_1_alg».proof.Proof.KI.Data0
import proofs.«117563_j13804024889624_1_alg».proof.Proof.Spec
import proofs.«117563_j13804024889624_1_alg».proof.Proof.LibDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Regions

open Cert.KernelIdeal Cert.KernelIdeal.Gen
open Idealize.ShloMosaic Idealize.ShloMosaic.TcCoe Idealize.ShloMosaic.Tactic Idealize.ShloMosaic.ValueIdx
open Idealize.ShloMosaic.Pipeline (Dat Cfg Window cellOf)

/-- The zero offsets of a whole rank-2 rectangle, as the constant function. -/
theorem origin2_0 : (![0, 0] : Fin 2 → Nat) = fun _ => 0 := funext fun a => by fin_cases a <;> rfl

/-- The zero offset of a whole rank-1 rectangle, as the constant function. -/
theorem origin1_0 : (![0] : Fin 1 → Nat) = fun _ => 0 := funext fun a => by fin_cases a; rfl

/-- The bias, given one row by a shape cast and repeated down the 5000 rows, reads the bias at the column. -/
theorem bias_rows0 (b : Vec Ideal S64 .f32) (p : Fin 5000) (q : Fin 64) :
    broadcastTo S5000x64 (shapeCast S1x64 b shapeCasts_S64_S1x64) broadcasts_S1x64_S5000x64 (ix2 p q) = b (ix1 q) := by
  refine (broadcastTo_apply _ broadcasts_S1x64_S5000x64 (ix2 p q) (ix2 (0 : Fin 1) q) fun a => ?_).trans ?_
  · match a with
    | ⟨0, _⟩ => rfl
    | ⟨1, _⟩ => rfl
  · refine shapeCast_apply b shapeCasts_S64_S1x64 (ix2 (0 : Fin 1) q) (ix1 q) ?_
    rw [Shape.rowMajor_val_one, Shape.rowMajor_val_two]
    show q.val = 0 * 64 + q.val
    omega

/-- The body's value at row p and column q of a block, over the extended reals: the two products summed over the
    64 features, plus the bias at the column, cut off below at zero. The changes of float format and the cast of the neighbour block to its own shape are the identity. -/
theorem combine_at0 (x0 x1 : Vec Ideal S5000x64 .f32) (w0 w1 : Vec Ideal S64x64 .f32) (b : Vec Ideal S64 .f32)
    (p : Fin 5000) (q : Fin 64) :
    k0_pay1 x0 x1 w0 w1 b (ix2 p q)
      = max (((∑ k : Fin 64, x0 (ix2 p k) * w0 (ix2 k q)) + (∑ k : Fin 64, x1 (ix2 p k) * w1 (ix2 k q))) + b (ix1 q)) 0 := by
  unfold k0_pay1
  rw [maximumf_apply, addf_apply, addf_apply, broadcast_apply, bias_rows0]
  simp only [shapeCast_self]
  rw [Cert.LibDot.matmul_10_zero_apply dot_S5000x64_S64x64_S5000x64_1_0_0_1_n_n rfl rfl rfl rfl rfl rfl,
    Cert.LibDot.matmul_10_zero_apply dot_S5000x64_S64x64_S5000x64_1_0_0_1_n_n rfl rfl rfl rfl rfl rfl]
  simp only [truncf_apply]
  rw [show (Scalar.ofBits .f32 0x00000000#32 : Ideal .f32) = 0 from Ideal.ofBits_zero_f32]

/-- The body's value on a block whose rows are rows of whole arrays X and H, with the weights and the bias whole, is
    the layer of the whole arrays on those rows: at block index (p, q) and array index (r, q), when row p of each node
    block is row r of its array. -/
theorem combine_rows0 (X H : FVec Ideal S50000x64 .f32) (Ws Wn : Vec Ideal S64x64 .f32) (B : Vec Ideal S64 .f32)
    (x0 x1 : Vec Ideal S5000x64 .f32) (w0 w1 : Vec Ideal S64x64 .f32) (b : Vec Ideal S64 .f32)
    (j : S5000x64.Idx) (i : S50000x64.Idx) (p : Fin 5000) (q q' : Fin 64) (r : Fin 50000)
    (hj : j = ix2 p q) (hi : i = ix2 r q') (hq : q = q')
    (hx0 : ∀ k : Fin 64, x0 (ix2 p k) = X (ix2 r k)) (hx1 : ∀ k : Fin 64, x1 (ix2 p k) = H (ix2 r k))
    (hw0 : w0 = Ws) (hw1 : w1 = Wn) (hb : b = B) :
    k0_pay1 x0 x1 w0 w1 b j = Cert.Spec.layerFn (N := 50000) X H Ws Wn B i := by
  subst hj hi hq hw0 hw1 hb
  rw [combine_at0]
  simp only [hx0, hx1]
  rfl

/-- The printed index maps, decided once over the ten grid points: the two node windows and the result window sit at
    block (t, 0) at point t, the two weight windows and the bias window at block 0 throughout. -/
theorem block_indices0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- What point t writes back to the result array is the block at t of the layer of the whole arrays: rows
    5000·t … 5000·t + 4999. The result window is not cut (50000 = 10 · 5000), so the write-back moves all of what the
    body left; row p of each node block is row 5000·t + p of its array, and the weight and bias blocks are the arrays. -/
theorem written_block0 (V : (c : Dev nD) → (b : Ref sig .tc) → Buf (Elt Ideal) ((c : Thread nD τ).loc b)) (c : Dev nD)
    (t : Fin cfg0.N) :
    (dat0 (F := Ideal) V c).flushed 5 t = ((cfg0.win 5).blk t).view.read (Elt Ideal)
      (Cert.Spec.layerFn (N := 50000) (V c main_arg0) (V c main_v18) (V c main_arg3) (V c main_arg4) (V c main_arg5)) := by
  show (cfg0.win 5).cut (grid0.coords t) ((dat0 V c).after 5 t) = _
  rw [after0_5]
  unfold out0_5
  rw [View.canon_unit_zero origin2_0]
  simp only [View.ld_unit_zero (S := S5000x64) origin2_0, View.ld_unit_zero (S := S64x64) origin2_0,
    View.ld_unit_zero (S := S64) origin1_0]
  obtain ⟨a0, a1, h0, h1, s0, s1, n0, n1, b0, o0, o1⟩ := block_indices0 t
  funext j
  refine combine_rows0 _ _ _ _ _ _ _ _ _ _ j (((cfg0.win 5).blk t).view.emb j) (j 0) (j 1)
    ((((cfg0.win 5).blk t).view.emb j) 1) ((((cfg0.win 5).blk t).view.emb j) 0) (eq_ix2 j) (eq_ix2 _) ?_
    (fun k => ?_) (fun k => ?_) ?_ ?_ ?_
  · apply Fin.ext
    show (j 1).val = win0_5.index t (1 : Fin 2) * 64 + 1 * (j 1).val
    rw [o1]; omega
  · show V c main_arg0 (((cfg0.win 0).blk t).view.emb (ix2 (j 0) k)) = V c main_arg0 _
    refine congrArg _ (funext fun a => Fin.ext ?_)
    match a with
    | ⟨0, _⟩ => show win0_0.index t (0 : Fin 2) * 5000 + 1 * (j 0).val = win0_5.index t (0 : Fin 2) * 5000 + 1 * (j 0).val; rw [a0, o0]
    | ⟨1, _⟩ => show win0_0.index t (1 : Fin 2) * 64 + 1 * k.val = k.val; rw [a1]; omega
  · show V c main_v18 (((cfg0.win 1).blk t).view.emb (ix2 (j 0) k)) = V c main_v18 _
    refine congrArg _ (funext fun a => Fin.ext ?_)
    match a with
    | ⟨0, _⟩ => show win0_1.index t (0 : Fin 2) * 5000 + 1 * (j 0).val = win0_5.index t (0 : Fin 2) * 5000 + 1 * (j 0).val; rw [h0, o0]
    | ⟨1, _⟩ => show win0_1.index t (1 : Fin 2) * 64 + 1 * k.val = k.val; rw [h1]; omega
  · funext y
    show V c main_arg3 (((cfg0.win 2).blk t).view.emb y) = V c main_arg3 y
    refine congrArg _ (funext fun a => Fin.ext ?_)
    match a with
    | ⟨0, _⟩ => show win0_2.index t (0 : Fin 2) * 64 + 1 * (y 0).val = (y 0).val; rw [s0]; omega
    | ⟨1, _⟩ => show win0_2.index t (1 : Fin 2) * 64 + 1 * (y 1).val = (y 1).val; rw [s1]; omega
  · funext y
    show V c main_arg4 (((cfg0.win 3).blk t).view.emb y) = V c main_arg4 y
    refine congrArg _ (funext fun a => Fin.ext ?_)
    match a with
    | ⟨0, _⟩ => show win0_3.index t (0 : Fin 2) * 64 + 1 * (y 0).val = (y 0).val; rw [n0]; omega
    | ⟨1, _⟩ => show win0_3.index t (1 : Fin 2) * 64 + 1 * (y 1).val = (y 1).val; rw [n1]; omega
  · funext y
    show V c main_arg5 (((cfg0.win 4).blk t).view.emb y) = V c main_arg5 y
    refine congrArg _ (funext fun a => Fin.ext ?_)
    match a with
    | ⟨0, _⟩ => show win0_4.index t (0 : Fin 1) * 64 + 1 * (y 0).val = (y 0).val; rw [b0]; omega

/-- An index of the result array is in point t's block iff each coordinate is in the block's range on its axis. -/
theorem mem_block0 (t : Fin cfg0.N) (i : S50000x64.Idx) :
    i ∈ ((cfg0.win 5).blk t).view.set ↔ ∀ a : Fin 2, win0_5.index t a * S5000x64.size a ≤ (i a).val
      ∧ (i a).val < win0_5.index t a * S5000x64.size a + S5000x64.size a := by
  show i ∈ ((View.whole main_v19).slice (win0_5.rect t)).set ↔ _
  rw [View.set_slice_whole, Rect.mem_set_unit]
  exact Iff.rfl

/-- Row r of the result array is in the block of point r / 5000, and every point writes its block back. -/
theorem rows_covered0 (i : S50000x64.Idx) :
    ∃ t : Fin cfg0.N, (cfg0.win 5).flush t = true ∧ i ∈ ((cfg0.win 5).blk t).view.set := by
  have hi0 : (i 0).val < 50000 := (i 0).isLt
  have hi1 : (i 1).val < 64 := (i 1).isLt
  have hN : cfg0.N = 10 := N_0
  let t : Fin cfg0.N := ⟨(i 0).val / 5000, by rw [hN]; omega⟩
  obtain ⟨-, -, -, -, -, -, -, -, -, o0, o1⟩ := block_indices0 t
  have ht : t.val = (i 0).val / 5000 := rfl
  refine ⟨t, flush0_5 t, ?_⟩
  rw [mem_block0]
  intro a
  match a with
  | ⟨0, _⟩ => show win0_5.index t (0 : Fin 2) * 5000 ≤ (i 0).val ∧ (i 0).val < win0_5.index t (0 : Fin 2) * 5000 + 5000; rw [o0, ht]; omega
  | ⟨1, _⟩ => show win0_5.index t (1 : Fin 2) * 64 ≤ (i 1).val ∧ (i 1).val < win0_5.index t (1 : Fin 2) * 64 + 64; rw [o1]; omega

/-- The result array after the call is the layer of the arrays the call finds. -/
theorem final0 (V : (c : Dev nD) → (b : Ref sig .tc) → Buf (Elt Ideal) ((c : Thread nD τ).loc b)) (c : Dev nD) :
    (dat0 (F := Ideal) V c).arrAt 5 cfg0.N
      = Cert.Spec.layerFn (N := 50000) (V c main_arg0) (V c main_v18) (V c main_arg3) (V c main_arg4) (V c main_arg5) :=
  (dat0 (F := Ideal) V c).arrAt_eq_of_cover 5 _ (fun t _ => written_block0 V c t) rows_covered0

end Cert.KernelIdeal.Regions

end
-- ==== Proof.KI.Val1.lean ====
/-
  The result array of node-combine call number 1 in closed form over the extended reals: row n, feature f of it is
  max(Σ_k x[n,k]·W_self[k,f] + Σ_k h[n,k]·W_neigh[k,f] + b[f], 0) of the arrays the call finds.
-/
import proofs.«117563_j13804024889624_1_alg».proof.Proof.KI.Data1
import proofs.«117563_j13804024889624_1_alg».proof.Proof.Spec
import proofs.«117563_j13804024889624_1_alg».proof.Proof.LibDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Regions

open Cert.KernelIdeal Cert.KernelIdeal.Gen
open Idealize.ShloMosaic Idealize.ShloMosaic.TcCoe Idealize.ShloMosaic.Tactic Idealize.ShloMosaic.ValueIdx
open Idealize.ShloMosaic.Pipeline (Dat Cfg Window cellOf)

/-- The zero offsets of a whole rank-2 rectangle, as the constant function. -/
theorem origin2_1 : (![0, 0] : Fin 2 → Nat) = fun _ => 0 := funext fun a => by fin_cases a <;> rfl

/-- The zero offset of a whole rank-1 rectangle, as the constant function. -/
theorem origin1_1 : (![0] : Fin 1 → Nat) = fun _ => 0 := funext fun a => by fin_cases a; rfl

/-- The bias, given one row by a shape cast and repeated down the 5000 rows, reads the bias at the column. -/
theorem bias_rows1 (b : Vec Ideal S64 .f32) (p : Fin 5000) (q : Fin 64) :
    broadcastTo S5000x64 (shapeCast S1x64 b shapeCasts_S64_S1x64) broadcasts_S1x64_S5000x64 (ix2 p q) = b (ix1 q) := by
  refine (broadcastTo_apply _ broadcasts_S1x64_S5000x64 (ix2 p q) (ix2 (0 : Fin 1) q) fun a => ?_).trans ?_
  · match a with
    | ⟨0, _⟩ => rfl
    | ⟨1, _⟩ => rfl
  · refine shapeCast_apply b shapeCasts_S64_S1x64 (ix2 (0 : Fin 1) q) (ix1 q) ?_
    rw [Shape.rowMajor_val_one, Shape.rowMajor_val_two]
    show q.val = 0 * 64 + q.val
    omega

/-- The body's value at row p and column q of a block, over the extended reals: the two products summed over the
    64 features, plus the bias at the column, cut off below at zero. The changes of float format and the casts of the two node blocks to their own shape are the identity. -/
theorem combine_at1 (x0 x1 : Vec Ideal S5000x64 .f32) (w0 w1 : Vec Ideal S64x64 .f32) (b : Vec Ideal S64 .f32)
    (p : Fin 5000) (q : Fin 64) :
    k1_pay1 x0 x1 w0 w1 b (ix2 p q)
      = max (((∑ k : Fin 64, x0 (ix2 p k) * w0 (ix2 k q)) + (∑ k : Fin 64, x1 (ix2 p k) * w1 (ix2 k q))) + b (ix1 q)) 0 := by
  unfold k1_pay1
  rw [maximumf_apply, addf_apply, addf_apply, broadcast_apply, bias_rows1]
  simp only [shapeCast_self]
  rw [Cert.LibDot.matmul_10_zero_apply dot_S5000x64_S64x64_S5000x64_1_0_0_1_n_n rfl rfl rfl rfl rfl rfl,
    Cert.LibDot.matmul_10_zero_apply dot_S5000x64_S64x64_S5000x64_1_0_0_1_n_n rfl rfl rfl rfl rfl rfl]
  simp only [truncf_apply]
  rw [show (Scalar.ofBits .f32 0x00000000#32 : Ideal .f32) = 0 from Ideal.ofBits_zero_f32]

/-- The body's value on a block whose rows are rows of whole arrays X and H, with the weights and the bias whole, is
    the layer of the whole arrays on those rows: at block index (p, q) and array index (r, q), when row p of each node
    block is row r of its array. -/
theorem combine_rows1 (X H : FVec Ideal S50000x64 .f32) (Ws Wn : Vec Ideal S64x64 .f32) (B : Vec Ideal S64 .f32)
    (x0 x1 : Vec Ideal S5000x64 .f32) (w0 w1 : Vec Ideal S64x64 .f32) (b : Vec Ideal S64 .f32)
    (j : S5000x64.Idx) (i : S50000x64.Idx) (p : Fin 5000) (q q' : Fin 64) (r : Fin 50000)
    (hj : j = ix2 p q) (hi : i = ix2 r q') (hq : q = q')
    (hx0 : ∀ k : Fin 64, x0 (ix2 p k) = X (ix2 r k)) (hx1 : ∀ k : Fin 64, x1 (ix2 p k) = H (ix2 r k))
    (hw0 : w0 = Ws) (hw1 : w1 = Wn) (hb : b = B) :
    k1_pay1 x0 x1 w0 w1 b j = Cert.Spec.layerFn (N := 50000) X H Ws Wn B i := by
  subst hj hi hq hw0 hw1 hb
  rw [combine_at1]
  simp only [hx0, hx1]
  rfl

/-- The printed index maps, decided once over the ten grid points: the two node windows and the result window sit at
    block (t, 0) at point t, the two weight windows and the bias window at block 0 throughout. -/
theorem block_indices1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- What point t writes back to the result array is the block at t of the layer of the whole arrays: rows
    5000·t … 5000·t + 4999. The result window is not cut (50000 = 10 · 5000), so the write-back moves all of what the
    body left; row p of each node block is row 5000·t + p of its array, and the weight and bias blocks are the arrays. -/
theorem written_block1 (V : (c : Dev nD) → (b : Ref sig .tc) → Buf (Elt Ideal) ((c : Thread nD τ).loc b)) (c : Dev nD)
    (t : Fin cfg1.N) :
    (dat1 (F := Ideal) V c).flushed 5 t = ((cfg1.win 5).blk t).view.read (Elt Ideal)
      (Cert.Spec.layerFn (N := 50000) (V c main_v19) (V c main_v38) (V c main_arg6) (V c main_arg7) (V c main_arg8)) := by
  show (cfg1.win 5).cut (grid1.coords t) ((dat1 V c).after 5 t) = _
  rw [after1_5]
  unfold out1_5
  rw [View.canon_unit_zero origin2_1]
  simp only [View.ld_unit_zero (S := S5000x64) origin2_1, View.ld_unit_zero (S := S64x64) origin2_1,
    View.ld_unit_zero (S := S64) origin1_1]
  obtain ⟨a0, a1, h0, h1, s0, s1, n0, n1, b0, o0, o1⟩ := block_indices1 t
  funext j
  refine combine_rows1 _ _ _ _ _ _ _ _ _ _ j (((cfg1.win 5).blk t).view.emb j) (j 0) (j 1)
    ((((cfg1.win 5).blk t).view.emb j) 1) ((((cfg1.win 5).blk t).view.emb j) 0) (eq_ix2 j) (eq_ix2 _) ?_
    (fun k => ?_) (fun k => ?_) ?_ ?_ ?_
  · apply Fin.ext
    show (j 1).val = win1_5.index t (1 : Fin 2) * 64 + 1 * (j 1).val
    rw [o1]; omega
  · show V c main_v19 (((cfg1.win 0).blk t).view.emb (ix2 (j 0) k)) = V c main_v19 _
    refine congrArg _ (funext fun a => Fin.ext ?_)
    match a with
    | ⟨0, _⟩ => show win1_0.index t (0 : Fin 2) * 5000 + 1 * (j 0).val = win1_5.index t (0 : Fin 2) * 5000 + 1 * (j 0).val; rw [a0, o0]
    | ⟨1, _⟩ => show win1_0.index t (1 : Fin 2) * 64 + 1 * k.val = k.val; rw [a1]; omega
  · show V c main_v38 (((cfg1.win 1).blk t).view.emb (ix2 (j 0) k)) = V c main_v38 _
    refine congrArg _ (funext fun a => Fin.ext ?_)
    match a with
    | ⟨0, _⟩ => show win1_1.index t (0 : Fin 2) * 5000 + 1 * (j 0).val = win1_5.index t (0 : Fin 2) * 5000 + 1 * (j 0).val; rw [h0, o0]
    | ⟨1, _⟩ => show win1_1.index t (1 : Fin 2) * 64 + 1 * k.val = k.val; rw [h1]; omega
  · funext y
    show V c main_arg6 (((cfg1.win 2).blk t).view.emb y) = V c main_arg6 y
    refine congrArg _ (funext fun a => Fin.ext ?_)
    match a with
    | ⟨0, _⟩ => show win1_2.index t (0 : Fin 2) * 64 + 1 * (y 0).val = (y 0).val; rw [s0]; omega
    | ⟨1, _⟩ => show win1_2.index t (1 : Fin 2) * 64 + 1 * (y 1).val = (y 1).val; rw [s1]; omega
  · funext y
    show V c main_arg7 (((cfg1.win 3).blk t).view.emb y) = V c main_arg7 y
    refine congrArg _ (funext fun a => Fin.ext ?_)
    match a with
    | ⟨0, _⟩ => show win1_3.index t (0 : Fin 2) * 64 + 1 * (y 0).val = (y 0).val; rw [n0]; omega
    | ⟨1, _⟩ => show win1_3.index t (1 : Fin 2) * 64 + 1 * (y 1).val = (y 1).val; rw [n1]; omega
  · funext y
    show V c main_arg8 (((cfg1.win 4).blk t).view.emb y) = V c main_arg8 y
    refine congrArg _ (funext fun a => Fin.ext ?_)
    match a with
    | ⟨0, _⟩ => show win1_4.index t (0 : Fin 1) * 64 + 1 * (y 0).val = (y 0).val; rw [b0]; omega

/-- An index of the result array is in point t's block iff each coordinate is in the block's range on its axis. -/
theorem mem_block1 (t : Fin cfg1.N) (i : S50000x64.Idx) :
    i ∈ ((cfg1.win 5).blk t).view.set ↔ ∀ a : Fin 2, win1_5.index t a * S5000x64.size a ≤ (i a).val
      ∧ (i a).val < win1_5.index t a * S5000x64.size a + S5000x64.size a := by
  show i ∈ ((View.whole main_v39).slice (win1_5.rect t)).set ↔ _
  rw [View.set_slice_whole, Rect.mem_set_unit]
  exact Iff.rfl

/-- Row r of the result array is in the block of point r / 5000, and every point writes its block back. -/
theorem rows_covered1 (i : S50000x64.Idx) :
    ∃ t : Fin cfg1.N, (cfg1.win 5).flush t = true ∧ i ∈ ((cfg1.win 5).blk t).view.set := by
  have hi0 : (i 0).val < 50000 := (i 0).isLt
  have hi1 : (i 1).val < 64 := (i 1).isLt
  have hN : cfg1.N = 10 := N_1
  let t : Fin cfg1.N := ⟨(i 0).val / 5000, by rw [hN]; omega⟩
  obtain ⟨-, -, -, -, -, -, -, -, -, o0, o1⟩ := block_indices1 t
  have ht : t.val = (i 0).val / 5000 := rfl
  refine ⟨t, flush1_5 t, ?_⟩
  rw [mem_block1]
  intro a
  match a with
  | ⟨0, _⟩ => show win1_5.index t (0 : Fin 2) * 5000 ≤ (i 0).val ∧ (i 0).val < win1_5.index t (0 : Fin 2) * 5000 + 5000; rw [o0, ht]; omega
  | ⟨1, _⟩ => show win1_5.index t (1 : Fin 2) * 64 ≤ (i 1).val ∧ (i 1).val < win1_5.index t (1 : Fin 2) * 64 + 64; rw [o1]; omega

/-- The result array after the call is the layer of the arrays the call finds. -/
theorem final1 (V : (c : Dev nD) → (b : Ref sig .tc) → Buf (Elt Ideal) ((c : Thread nD τ).loc b)) (c : Dev nD) :
    (dat1 (F := Ideal) V c).arrAt 5 cfg1.N
      = Cert.Spec.layerFn (N := 50000) (V c main_v19) (V c main_v38) (V c main_arg6) (V c main_arg7) (V c main_arg8) :=
  (dat1 (F := Ideal) V c).arrAt_eq_of_cover 5 _ (fun t _ => written_block1 V c t) rows_covered1

end Cert.KernelIdeal.Regions

end
-- ==== Proof.KI.Val2.lean ====
/-
  The edge-score call's result array in closed form over the extended reals: after the forty-nine points have
  written their blocks back, row e of the 800000 × 1 result holds σ(σ(Σ_k x_src[e,k]·x_dst[e,k])).
-/
import proofs.«117563_j13804024889624_1_alg».proof.Proof.KI.Data2
import proofs.«117563_j13804024889624_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Regions

open Cert.KernelIdeal Cert.KernelIdeal.Gen
open Idealize.ShloMosaic Idealize.ShloMosaic.TcCoe Idealize.ShloMosaic.Tactic
open Idealize.ShloMosaic.ValueIdx
open Idealize.ShloMosaic.Pipeline (Dat Cfg Window cellOf)
open scoped BigOperators

/-- The body's value as one term of its two loaded blocks. -/
theorem pay2_eq (x0 x1 : Vec Ideal S16384x64 .f32) :
    k2_pay1 x0 x1 = logistic (logistic (shapeCast S16384x1 (multiReduction .add [1] S16384
      (mulf (shapeCast S16384x64 x0 shapeCasts_S16384x64_S16384x64) (shapeCast S16384x64 x1 shapeCasts_S16384x64_S16384x64))
      0x00000000#32 reduces_S16384x64_S16384 (.inl rfl) rfl) shapeCasts_S16384_S16384x1)) := rfl

/-- The index the lane sum puts back at row r and lane k is (r, k). -/
theorem lift2 (r : Fin 16384) (k : Fin 64) :
    (reduces_S16384x64_S16384.lift (ix1 r) k : S16384x64.Idx) = ix2 r k := by
  funext a
  apply Fin.ext
  match a with
  | ⟨0, _⟩ => rfl
  | ⟨1, _⟩ => rfl

/-- A logistic of a block reads, at an index, the logistic of the block's value there. -/
theorem logistic_at {s : Shape} (v : FVec Ideal s .f32) (i : s.Idx) : logistic v i = Ideal.logistic (v i) := rfl

/-- The score block's value at row r: the doubled logistic of the row's inner product. -/
theorem pay2_apply (x0 x1 : Vec Ideal S16384x64 .f32) (r : Fin 16384) (u : Fin 1) :
    k2_pay1 x0 x1 (ix2 r u) = Ideal.logistic (Ideal.logistic (∑ k : Fin 64, x0 (ix2 r k) * x1 (ix2 r k))) := by
  rw [pay2_eq, logistic_at, logistic_at]
  rw [shapeCast_self, shapeCast_self]
  rw [shapeCast_apply _ shapeCasts_S16384_S16384x1 (ix2 r u) (ix1 r) (by
    have hu : u.val = 0 := by omega
    rw [Shape.rowMajor_val_two, Shape.rowMajor_val_one]
    show r.val = r.val * 1 + u.val
    omega)]
  refine congrArg (fun z => Ideal.logistic (Ideal.logistic z))
    ((Ideal.multiReduction_add_single (mulf (F := Ideal) (φ := .f32) x0 x1) _ reduces_S16384x64_S16384 _ _ (ix1 r)).trans ?_)
  refine Finset.sum_congr rfl fun k _ => ?_
  exact congrArg (mulf (F := Ideal) (φ := .f32) x0 x1) (lift2 r k)

/-- The three index maps, decided once over the forty-nine points: point t takes block t of rows on every window and
    the one block of lanes; the rows a transfer moves are the same on the three windows — all 16384 but at the last
    point, 13568 there — and the lanes all of them. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_0.xsize (grid2.coords t) (0 : Fin 2) = win2_2.xsize (grid2.coords t) (0 : Fin 2)
    ∧ win2_1.xsize (grid2.coords t) (0 : Fin 2) = win2_2.xsize (grid2.coords t) (0 : Fin 2)
    ∧ win2_0.xsize (grid2.coords t) (1 : Fin 2) = 64
    ∧ win2_1.xsize (grid2.coords t) (1 : Fin 2) = 64
    ∧ win2_2.xsize (grid2.coords t) (1 : Fin 2) = 1
    ∧ win2_2.xsize (grid2.coords t) (0 : Fin 2) = (if t.val < 48 then 16384 else 13568) :=
  (by decide +kernel : ∀ t : Fin grid2.N, _)

variable (V : (c : Dev nD) → (b : Ref sig .tc) → Buf (Elt Ideal) ((c : Thread nD τ).loc b))

/-- A row of the source-side block inside the array is the array's row: at point t, row r below the rows the
    transfer moves and lane k read the gathered source array at row 16384·t + r. -/
theorem xfill2_apply (c : Dev nD) (t : Fin cfg2.N) (r : Fin 16384) (k : Fin 64)
    (hr : r.val < win2_2.xsize (grid2.coords t) (0 : Fin 2)) (e : Fin 800000) (he : e.val = t.val * 16384 + r.val) :
    xfill2 V c t (ix2 r k) = V c main_v46 (ix2 e k) := by
  obtain ⟨i00, i01, -, -, -, -, x0, -, s0, -, -, -⟩ := idx_facts2 t
  have hm : win2_0.moved (grid2.coords t) (ix2 r k) = true := (win2_0.moved_iff _ _).mpr fun a =>
    match a with
    | ⟨0, _⟩ => by show r.val < win2_0.xsize (grid2.coords t) (0 : Fin 2); omega
    | ⟨1, _⟩ => by show k.val < win2_0.xsize (grid2.coords t) (1 : Fin 2); omega
  unfold xfill2 Pipeline.Window.fill
  rw [dif_pos hm]
  unfold xblk2
  rw [View.read_apply]
  show V c main_v46 _ = V c main_v46 (ix2 e k)
  refine congrArg (V c main_v46) (funext fun a => Fin.ext ?_)
  match a with
  | ⟨0, _⟩ => show win2_0.index t (0 : Fin 2) * 16384 + 1 * r.val = e.val; omega
  | ⟨1, _⟩ => show win2_0.index t (1 : Fin 2) * 64 + 1 * k.val = k.val; omega

/-- The destination-side block likewise. -/
theorem yfill2_apply (c : Dev nD) (t : Fin cfg2.N) (r : Fin 16384) (k : Fin 64)
    (hr : r.val < win2_2.xsize (grid2.coords t) (0 : Fin 2)) (e : Fin 800000) (he : e.val = t.val * 16384 + r.val) :
    yfill2 V c t (ix2 r k) = V c main_v53 (ix2 e k) := by
  obtain ⟨-, -, i10, i11, -, -, -, x1, -, s1, -, -⟩ := idx_facts2 t
  have hm : win2_1.moved (grid2.coords t) (ix2 r k) = true := (win2_1.moved_iff _ _).mpr fun a =>
    match a with
    | ⟨0, _⟩ => by show r.val < win2_1.xsize (grid2.coords t) (0 : Fin 2); omega
    | ⟨1, _⟩ => by show k.val < win2_1.xsize (grid2.coords t) (1 : Fin 2); omega
  unfold yfill2 Pipeline.Window.fill
  rw [dif_pos hm]
  unfold yblk2
  rw [View.read_apply]
  show V c main_v53 _ = V c main_v53 (ix2 e k)
  refine congrArg (V c main_v53) (funext fun a => Fin.ext ?_)
  match a with
  | ⟨0, _⟩ => show win2_1.index t (0 : Fin 2) * 16384 + 1 * r.val = e.val; omega
  | ⟨1, _⟩ => show win2_1.index t (1 : Fin 2) * 64 + 1 * k.val = k.val; omega

/-- The edge score at row e. -/
theorem scoreFn_apply {E : Nat} (xs xd : FVec Ideal ⟨2, ![E, 64]⟩ .f32) (e : Fin E) (u : Fin 1) :
    Cert.Spec.scoreFn xs xd (ix2 e u)
      = Ideal.logistic (Ideal.logistic (∑ k : Fin 64, xs (ix2 e k) * xd (ix2 e k))) := rfl

/-- What point t writes back is block t, cut at the array's end, of the edge score of the two gathered arrays. -/
theorem flushed2_eq (c : Dev nD) (t : Fin cfg2.N) :
    (dat2 (F := Ideal) V c).flushed 2 t
      = ((cfg2.win 2).blk t).view.read (Elt Ideal) (Cert.Spec.scoreFn (V c main_v46) (V c main_v53)) := by
  show (cfg2.win 2).cut (grid2.coords t) ((dat2 V c).after 2 t) = _
  rw [after2_2]
  funext j
  obtain ⟨-, -, -, -, i20, i21, -, -, -, -, s2, z2⟩ := idx_facts2 t
  have hj0 : (j 0).val < win2_2.xsize (grid2.coords t) (0 : Fin 2) := (j 0).isLt
  have hj1 : (j 1).val < win2_2.xsize (grid2.coords t) (1 : Fin 2) := (j 1).isLt
  have ht : t.val < 49 := t.isLt
  have hlt : t.val * 16384 + (j 0).val < 800000 := by
    rw [z2] at hj0; split at hj0 <;> omega
  rw [View.read_apply]
  show k2_pay1 (xfill2 V c t) (yfill2 V c t) (win2_2.xinj (grid2.coords t) j)
    = Cert.Spec.scoreFn (V c main_v46) (V c main_v53) (((cfg2.win 2).blk t).view.emb j)
  have hr : (j 0).val < 16384 := by rw [z2] at hj0; split at hj0 <;> omega
  have hu : (j 1).val < 1 := by omega
  have ex : win2_2.xinj (grid2.coords t) j
      = (ix2 (⟨(j 0).val, hr⟩ : Fin 16384) (⟨(j 1).val, hu⟩ : Fin 1) : S16384x1.Idx) := by
    funext a
    apply Fin.ext
    match a with
    | ⟨0, _⟩ => rfl
    | ⟨1, _⟩ => rfl
  refine ((congrArg (k2_pay1 (xfill2 V c t) (yfill2 V c t)) ex).trans (pay2_apply _ _ _ _)).trans ?_
  have eemb : (((cfg2.win 2).blk t).view.emb j : (⟨2, ![800000, 1]⟩ : Shape).Idx)
      = ix2 (⟨t.val * 16384 + (j 0).val, hlt⟩ : Fin 800000) (⟨(j 1).val, hu⟩ : Fin 1) := by
    funext a
    apply Fin.ext
    match a with
    | ⟨0, _⟩ => show win2_2.index t (0 : Fin 2) * 16384 + 1 * (j 0).val = t.val * 16384 + (j 0).val; omega
    | ⟨1, _⟩ => show win2_2.index t (1 : Fin 2) * 1 + 1 * (j 1).val = (j 1).val; omega
  refine Eq.trans ?_
    ((congrArg (Cert.Spec.scoreFn (V c main_v46) (V c main_v53)) eemb).trans (scoreFn_apply _ _ _ _)).symm
  refine congrArg (fun z => Ideal.logistic (Ideal.logistic z)) (Finset.sum_congr rfl fun k _ => ?_)
  rw [xfill2_apply V c t ⟨(j 0).val, hr⟩ k hj0 ⟨t.val * 16384 + (j 0).val, hlt⟩ rfl,
    yfill2_apply V c t ⟨(j 0).val, hr⟩ k hj0 ⟨t.val * 16384 + (j 0).val, hlt⟩ rfl]

/-- An index of the result array is in point t's block iff each coordinate is among those the write-back moves. -/
theorem mem_blk2 (t : Fin cfg2.N) (i : S800000x1.Idx) :
    i ∈ ((cfg2.win 2).blk t).view.set ↔ ∀ a : Fin 2, win2_2.index t a * S16384x1.size a ≤ (i a).val
      ∧ (i a).val < win2_2.index t a * S16384x1.size a + win2_2.xsize (grid2.coords t) a := by
  show i ∈ ((View.whole main_v54).slice (win2_2.rect t)).set ↔ _
  rw [View.set_slice_whole, Rect.mem_set_unit]
  exact Iff.rfl

/-- Every row of the result is in some point's block: row e in that of point e / 16384 (800000 = 48·16384 + 13568). -/
theorem cover2 (i : S800000x1.Idx) :
    ∃ t : Fin cfg2.N, (cfg2.win 2).flush t = true ∧ i ∈ ((cfg2.win 2).blk t).view.set := by
  have hi0 : (i 0).val < 800000 := (i 0).isLt
  have hi1 : (i 1).val < 1 := (i 1).isLt
  refine ⟨⟨(i 0).val / 16384, by show (i 0).val / 16384 < 49; omega⟩, flush2_2 _, ?_⟩
  rw [mem_blk2]
  obtain ⟨-, -, -, -, i20, i21, -, -, -, -, s2, z2⟩ := idx_facts2 ⟨(i 0).val / 16384, by show (i 0).val / 16384 < 49; omega⟩
  intro a
  match a with
  | ⟨0, _⟩ =>
    show win2_2.index _ (0 : Fin 2) * 16384 ≤ (i 0).val ∧ (i 0).val < win2_2.index _ (0 : Fin 2) * 16384 + win2_2.xsize _ (0 : Fin 2)
    rw [i20, z2]
    show (i 0).val / 16384 * 16384 ≤ (i 0).val ∧ (i 0).val < (i 0).val / 16384 * 16384 + (if (i 0).val / 16384 < 48 then 16384 else 13568)
    split <;> omega
  | ⟨1, _⟩ =>
    show win2_2.index _ (1 : Fin 2) * 1 ≤ (i 1).val ∧ (i 1).val < win2_2.index _ (1 : Fin 2) * 1 + win2_2.xsize _ (1 : Fin 2)
    rw [i21, s2]
    omega

/-- After the forty-nine write-backs the result array is the edge score of the two gathered arrays: every row is in
    some point's block, and each block written is that block of the score. -/
theorem final2 (V : (c : Dev nD) → (b : Ref sig .tc) → Buf (Elt Ideal) ((c : Thread nD τ).loc b)) (c : Dev nD) :
    (dat2 (F := Ideal) V c).arrAt 2 cfg2.N = Cert.Spec.scoreFn (V c main_v46) (V c main_v53) :=
  (dat2 (F := Ideal) V c).arrAt_eq_of_cover 2 _ (fun t _ => flushed2_eq V c t) cover2

end Cert.KernelIdeal.Regions

end
-- ==== Proof.KI.KResult.lean ====
/-
  The program's result array in closed form over the extended reals: the edge score, read as one row, of the second
  layer's node features gathered at the two ends of every edge; each layer is the specification's layer of its node
  array and of that array's mean aggregation along the edges.
-/
import proofs.«117563_j13804024889624_1_alg».proof.Proof.KI.HostReads
import proofs.«117563_j13804024889624_1_alg».proof.Proof.KI.Val0
import proofs.«117563_j13804024889624_1_alg».proof.Proof.KI.Val1
import proofs.«117563_j13804024889624_1_alg».proof.Proof.KI.Val2
import proofs.«117563_j13804024889624_1_alg».proof.Proof.Spec

set_option maxRecDepth 16384

noncomputable section

namespace Cert.KernelIdeal.Regions

open Cert.KernelIdeal Cert.KernelIdeal.Gen
open Idealize.ShloMosaic Idealize.ShloMosaic.TcCoe Idealize.ShloMosaic.Tactic

variable (m : (ℓ : Loc nD τ sig) → Buf (Elt Ideal) ℓ)

/-- The node features after the first layer: the layer of the launched features and of their mean aggregation. -/
def layer1K (c : Dev nD) : FVec Ideal S50000x64 .f32 :=
  Cert.Spec.layerFn (N := 50000) (m ((c : Thread nD τ).loc main_arg0))
    (aggK (m ((c : Thread nD τ).loc main_arg0)) (m ((c : Thread nD τ).loc main_arg1)) (m ((c : Thread nD τ).loc main_arg2)))
    (m ((c : Thread nD τ).loc main_arg3)) (m ((c : Thread nD τ).loc main_arg4)) (m ((c : Thread nD τ).loc main_arg5))

/-- The node features after the second layer: the layer of the first layer's and of their mean aggregation. -/
def layer2K (c : Dev nD) : FVec Ideal S50000x64 .f32 :=
  Cert.Spec.layerFn (N := 50000) (layer1K m c)
    (aggK (layer1K m c) (m ((c : Thread nD τ).loc main_arg1)) (m ((c : Thread nD τ).loc main_arg2)))
    (m ((c : Thread nD τ).loc main_arg6)) (m ((c : Thread nD τ).loc main_arg7)) (m ((c : Thread nD τ).loc main_arg8))

/-- The first call leaves the first layer. -/
theorem o2_eq (c : Dev nD) : o2 m c = layer1K m c := by
  unfold o2 layer1K
  rw [final0 (V1 m) c, V1_v18 m c, V1_main_arg0 m c, V1_main_arg3 m c, V1_main_arg4 m c, V1_main_arg5 m c]

/-- The second call leaves the second layer. -/
theorem o4_eq (c : Dev nD) : o4 m c = layer2K m c := by
  unfold o4 layer2K
  rw [final1 (V3 m) c, V3_v38 m c, V3_v19 m c, V3_main_arg6 m c, V3_main_arg7 m c, V3_main_arg8 m c, o2_eq m c]

/-- The edge-score call leaves the score of the second layer's features at the two ends of every edge. -/
theorem o6_eq (c : Dev nD) :
    o6 m c = Cert.Spec.scoreFn (gathK (layer2K m c) (m ((c : Thread nD τ).loc main_arg1)))
      (gathK (layer2K m c) (m ((c : Thread nD τ).loc main_arg2))) := by
  unfold o6
  rw [final2 (V5 m) c, V5_v46 m c, V5_v53 m c, o4_eq m c]

/-- The program's result array. -/
theorem kernel_result (c : Dev nD) :
    W7 m c main_v55 = flatK (Cert.Spec.scoreFn (gathK (layer2K m c) (m ((c : Thread nD τ).loc main_arg1)))
      (gathK (layer2K m c) (m ((c : Thread nD τ).loc main_arg2)))) := by
  rw [← o6_eq m c]
  exact W7x_v55 m c (o6 m c)

end Cert.KernelIdeal.Regions

end
-- ==== Proof.RefImports.lean ====
/-
  The reference program's run read back, and its operations read at an index: the two generated modules
  every statement about the reference's result is made over.
-/
import proofs.«117563_j13804024889624_1_alg».proof.Proof.Gen.ReferenceIdeal.Run
import proofs.«117563_j13804024889624_1_alg».proof.Proof.Gen.ReferenceIdeal.Read
-- ==== Proof.LibDotHost.lean ====
/-
  The host's `dot_general` with ONE contracted axis and no batch axis, read at an entry at the ideal values.

  For any dimension numbers record whose axis lists say "the left operand is contracted on its last axis, the right on
  its first, no batch axis" (a printed record satisfies each hypothesis by `rfl`), the product of an `M × K` by a
  `K × N` operand at entry (a, b) is the sum over the contracted coordinate `c` of the left operand's entry (a, c) times
  the right operand's entry (c, b): rows by columns. It is the statement a kernel's matrix product into the zero
  accumulator has, for the host's operation, which has no accumulator.
-/
import proofs.«117563_j13804024889624_1_alg».proof.Proof.LibDot

noncomputable section

open scoped BigOperators

namespace Cert.LibDotHost

open Idealize.ShloMosaic Idealize.ShloMosaic.ValueIdx

/-- Rows by columns on the host: an `M × K` by a `K × N` operand, the left contracted on its last axis and the right
    on its first; the contraction index, a one-coordinate index of size `K`, is re-indexed by `Fin K`, and each
    operand's index at it is read off coordinate by coordinate. -/
theorem dotGeneral_10_apply {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![M, K]⟩ φ₁) (B : FVec Ideal ⟨2, ![K, N]⟩ φ₂)
    (a : Fin M) (b : Fin N) :
    Host.dotGeneral (F := Ideal) d prec A B (ix2 a b) = ∑ c : Fin K, A (ix2 a c) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.dotGeneral d prec .single A B (ix2 a b) = _
  rw [Ideal.dotGeneral_apply, ← Equiv.sum_comp (contrEquiv1 d K hr hs).symm]
  refine Finset.sum_congr rfl fun c _ => ?_
  have c2 := contrEquiv1_symm_val d K hr hs c
  have l0 := Cert.LibDot.lhsIdx_val_non d hlb hln (ix2 a b) ((contrEquiv1 d K hr hs).symm c) Nat.zero_lt_two
  have l1 := (d.lhsIdx_val_of_single hlc (ix2 a b) ((contrEquiv1 d K hr hs).symm c)).trans c2
  have r0 := (d.rhsIdx_val_of_single hrc (ix2 a b) ((contrEquiv1 d K hr hs).symm c)).trans c2
  have r1 := Cert.LibDot.rhsIdx_val_non d hlb hrb hln hrn (ix2 a b) ((contrEquiv1 d K hr hs).symm c) Nat.one_lt_two
  have l2 : d.lhsIdx (ix2 a b) ((contrEquiv1 d K hr hs).symm c) = ix2 a c := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

end Cert.LibDotHost

end
-- ==== Proof.RefValue.lean ====
/-
  The reference program's result, cut into the four host computations it is composed of, and each of the two
  arithmetic ones read at an index over the extended reals.

  The reference computes, from the node array x, the two edge index arrays and two layers' weights:
  the neighbour mean of x over the edges (a gather of rows by the source index, a scatter-add by the destination index,
  a division by the clamped in-degree), one layer max(x·W_self + mean·W_neigh + b, 0), the same again on the result,
  and the score σ(σ(Σ_k x₂[src e, k]·x₂[dst e, k])) of every edge e.
  `res_eq` states the reference's composed result as that composition; `layerR_eq` and `tailR_eq` read a layer and
  the score at an index as the functions of `Cert.Spec`.
-/
import proofs.«117563_j13804024889624_1_alg».proof.Proof.RefImports
import proofs.«117563_j13804024889624_1_alg».proof.Proof.Spec
import proofs.«117563_j13804024889624_1_alg».proof.Proof.LibDot
import proofs.«117563_j13804024889624_1_alg».proof.Proof.LibDotHost
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

open scoped BigOperators

namespace Cert.RefBridge

open Cert.ReferenceIdeal Cert.ReferenceIdeal.Gen Idealize.ShloMosaic Idealize.ShloMosaic.TcCoe Idealize.SL.Sem Idealize.ShloMosaic.StableHlo Idealize.ShloMosaic.ValueIdx

/-- The rows of `x` an index array names, one per edge: a negative index counts from the end (50000 is added to it). -/
def gathR (x : FVec Ideal S50000x64 .f32) (idx : IVec S800000 32) : FVec Ideal S800000x64 .f32 :=
  Host.gather gather_S50000x64_S800000x1_S800000x64_1_0_n_n_0_1_164 x (broadcastInDim S800000x1 ![0] bcast_S800000_S800000x1_0 (select (cmpi .slt idx (broadcastInDim S800000 ![] bcast_S_S800000 (constantI S_ 32 0#32))) (addi idx (broadcastInDim S800000 ![] bcast_S_S800000 (constantI S_ 32 50000#32))) idx))

/-- The mean of `x`'s rows over each node's incoming edges: the rows gathered by `src` are added into the row `dst`
    names, and each row of sums is divided by the number of edges that name it, or by one where none does. -/
def aggR (x : FVec Ideal S50000x64 .f32) (src dst : IVec S800000 32) : FVec Ideal S50000x64 .f32 :=
  Host.divf (Host.scatterAdd scatter_S50000x64_S800000x1_S800000x64_1_0_0_1 (broadcastInDim S50000x64 ![] bcast_S_S50000x64 (constant S_ .f32 0x00000000#32)) (broadcastInDim S800000x1 ![0] bcast_S800000_S800000x1_0 dst) (Host.gather gather_S50000x64_S800000x1_S800000x64_1_0_n_n_0_1_164 x (broadcastInDim S800000x1 ![0] bcast_S800000_S800000x1_0 (select (cmpi .slt src (broadcastInDim S800000 ![] bcast_S_S800000 (constantI S_ 32 0#32))) (addi src (broadcastInDim S800000 ![] bcast_S_S800000 (constantI S_ 32 50000#32))) src)))) (broadcastInDim S50000x64 ![0, 1] bcast_S50000x1_S50000x64_0_1 (broadcastInDim S50000x1 ![0] bcast_S50000_S50000x1_0 (maximumf (Host.scatterAdd scatter_S50000_S800000x1_S800000_n_0_0_1 (broadcastInDim S50000 ![] bcast_S_S50000 (constant S_ .f32 0x00000000#32)) (broadcastInDim S800000x1 ![0] bcast_S800000_S800000x1_0 dst) (broadcastInDim S800000 ![] bcast_S_S800000 (constant S_ .f32 0x3F800000#32))) (broadcastInDim S50000 ![] bcast_S_S50000 (constant S_ .f32 0x3F800000#32)))))

/-- One layer on whole arrays: max(x·W_self + h·W_neigh + b, 0), the bias spread over the rows. -/
def layerR (x h : FVec Ideal S50000x64 .f32) (ws wn : FVec Ideal S64x64 .f32) (b : FVec Ideal S64 .f32) : FVec Ideal S50000x64 .f32 :=
  maximumf (addf (addf (Host.dotGeneral dot_S50000x64_S64x64_S50000x64_1_0_0_1_n_n none x ws) (Host.dotGeneral dot_S50000x64_S64x64_S50000x64_1_0_0_1_n_n none h wn)) (broadcastInDim S50000x64 ![0, 1] bcast_S1x64_S50000x64_0_1 (broadcastInDim S1x64 ![1] bcast_S64_S1x64_1 b))) (broadcastInDim S50000x64 ![] bcast_S_S50000x64 (constant S_ .f32 0x00000000#32))

/-- The score of every edge from the two gathered arrays: the row-wise dot product, then 1/(1 + e^(−t)) twice. -/
def tailR (xs xd : FVec Ideal S800000x64 .f32) : FVec Ideal S800000 .f32 :=
  Host.divf (broadcastInDim S800000 ![] bcast_S_S800000 (constant S_ .f32 0x3F800000#32)) (addf (broadcastInDim S800000 ![] bcast_S_S800000 (constant S_ .f32 0x3F800000#32)) (Host.exp (Host.negf (Host.divf (broadcastInDim S800000 ![] bcast_S_S800000 (constant S_ .f32 0x3F800000#32)) (addf (broadcastInDim S800000 ![] bcast_S_S800000 (constant S_ .f32 0x3F800000#32)) (Host.exp (Host.negf (Host.reduceAdd (mulf xs xd) (constant S_ .f32 0x00000000#32) reducesTo_S800000x64_S800000_d1 h_S_))))))))

set_option maxRecDepth 8192 in
/-- The reference's result is the score of the second layer's output gathered by the two index arrays. -/
theorem res_eq (m' : (ℓ : Loc nD τ sig) → Buf (Elt Ideal) ℓ) (c : Dev nD) :
    Cert.ReferenceIdeal.Value.res_main_v79 (F := Ideal) m' c
      = tailR
          (gathR (layerR
              (layerR (m' ((c.tc : Thread nD τ).loc main_arg0))
                (aggR (m' ((c.tc : Thread nD τ).loc main_arg0)) (m' ((c.tc : Thread nD τ).loc main_arg1)) (m' ((c.tc : Thread nD τ).loc main_arg2)))
                (m' ((c.tc : Thread nD τ).loc main_arg3)) (m' ((c.tc : Thread nD τ).loc main_arg4)) (m' ((c.tc : Thread nD τ).loc main_arg5)))
              (aggR (layerR (m' ((c.tc : Thread nD τ).loc main_arg0))
                  (aggR (m' ((c.tc : Thread nD τ).loc main_arg0)) (m' ((c.tc : Thread nD τ).loc main_arg1)) (m' ((c.tc : Thread nD τ).loc main_arg2)))
                  (m' ((c.tc : Thread nD τ).loc main_arg3)) (m' ((c.tc : Thread nD τ).loc main_arg4)) (m' ((c.tc : Thread nD τ).loc main_arg5)))
                (m' ((c.tc : Thread nD τ).loc main_arg1)) (m' ((c.tc : Thread nD τ).loc main_arg2)))
              (m' ((c.tc : Thread nD τ).loc main_arg6)) (m' ((c.tc : Thread nD τ).loc main_arg7)) (m' ((c.tc : Thread nD τ).loc main_arg8)))
            (m' ((c.tc : Thread nD τ).loc main_arg1)))
          (gathR (layerR
              (layerR (m' ((c.tc : Thread nD τ).loc main_arg0))
                (aggR (m' ((c.tc : Thread nD τ).loc main_arg0)) (m' ((c.tc : Thread nD τ).loc main_arg1)) (m' ((c.tc : Thread nD τ).loc main_arg2)))
                (m' ((c.tc : Thread nD τ).loc main_arg3)) (m' ((c.tc : Thread nD τ).loc main_arg4)) (m' ((c.tc : Thread nD τ).loc main_arg5)))
              (aggR (layerR (m' ((c.tc : Thread nD τ).loc main_arg0))
                  (aggR (m' ((c.tc : Thread nD τ).loc main_arg0)) (m' ((c.tc : Thread nD τ).loc main_arg1)) (m' ((c.tc : Thread nD τ).loc main_arg2)))
                  (m' ((c.tc : Thread nD τ).loc main_arg3)) (m' ((c.tc : Thread nD τ).loc main_arg4)) (m' ((c.tc : Thread nD τ).loc main_arg5)))
                (m' ((c.tc : Thread nD τ).loc main_arg1)) (m' ((c.tc : Thread nD τ).loc main_arg2)))
              (m' ((c.tc : Thread nD τ).loc main_arg6)) (m' ((c.tc : Thread nD τ).loc main_arg7)) (m' ((c.tc : Thread nD τ).loc main_arg8)))
            (m' ((c.tc : Thread nD τ).loc main_arg2))) := by
  unfold Cert.ReferenceIdeal.Value.res_main_v79 tailR gathR layerR aggR
  rfl

/-- A layer of the reference is the layer function at every node and feature. -/
theorem layerR_eq (x h : FVec Ideal S50000x64 .f32) (ws wn : FVec Ideal S64x64 .f32) (b : FVec Ideal S64 .f32) :
    layerR x h ws wn b = Cert.Spec.layerFn (N := 50000) x h ws wn b := by
  funext i
  obtain ⟨p, q, rfl⟩ : ∃ (p : Fin 50000) (q : Fin 64), i = ix2 p q := ⟨i 0, i 1, eq_ix2 i⟩
  have hd1 := Cert.LibDotHost.dotGeneral_10_apply dot_S50000x64_S64x64_S50000x64_1_0_0_1_n_n rfl rfl rfl rfl rfl rfl none x ws p q
  have hd2 := Cert.LibDotHost.dotGeneral_10_apply dot_S50000x64_S64x64_S50000x64_1_0_0_1_n_n rfl rfl rfl rfl rfl rfl none h wn p q
  -- the bias: the row array [1, 64] reads b at the column, and every row of the [50000, 64] array reads that row
  have hb : broadcastInDim S50000x64 ![0, 1] bcast_S1x64_S50000x64_0_1 (broadcastInDim S1x64 ![1] bcast_S64_S1x64_1 b) (ix2 p q)
      = b (ix1 q) := by
    rw [broadcastInDim_apply _ bcast_S1x64_S50000x64_0_1 _ (ix2 p q) (ix2 (0 : Fin 1) q) (fun a => match a with
      | ⟨0, _⟩ => by show 0 = if (1 : Nat) = 1 then 0 else p.val; rw [if_pos rfl]
      | ⟨1, _⟩ => by show q.val = if (64 : Nat) = 1 then 0 else q.val; rw [if_neg (by decide)])]
    exact broadcastInDim_apply _ bcast_S64_S1x64_1 b (ix2 (0 : Fin 1) q) (ix1 q) (fun a => match a with
      | ⟨0, _⟩ => by show q.val = if (64 : Nat) = 1 then 0 else q.val; rw [if_neg (by decide)])
  -- the zero the maximum is taken with
  have hz : broadcastInDim S50000x64 ![] bcast_S_S50000x64 (constant (F := Ideal) S_ .f32 0x00000000#32) (ix2 p q) = 0 := by
    rw [broadcastInDim_scalar_apply]
    exact Ideal.ofBits_zero_f32
  show max ((Host.dotGeneral dot_S50000x64_S64x64_S50000x64_1_0_0_1_n_n none x ws (ix2 p q)
        + Host.dotGeneral dot_S50000x64_S64x64_S50000x64_1_0_0_1_n_n none h wn (ix2 p q))
      + broadcastInDim S50000x64 ![0, 1] bcast_S1x64_S50000x64_0_1 (broadcastInDim S1x64 ![1] bcast_S64_S1x64_1 b) (ix2 p q))
    (broadcastInDim S50000x64 ![] bcast_S_S50000x64 (constant (F := Ideal) S_ .f32 0x00000000#32) (ix2 p q)) = _
  rw [hd1, hd2, hb, hz]
  rfl

/-- The reference's score at edge `e` is the score function there. -/
theorem tailR_eq (xs xd : FVec Ideal S800000x64 .f32) (e : Fin 800000) :
    tailR xs xd (ix1 e) = Cert.Spec.scoreFn (E := 800000) xs xd (ix2 e 0) := by
  -- the constant 1.0 spread over the edges
  have hone : ∀ j : S800000.Idx,
      broadcastInDim S800000 ![] bcast_S_S800000 (constant (F := Ideal) S_ .f32 0x3F800000#32) j = 1 := by
    intro j
    rw [broadcastInDim_scalar_apply]
    exact Ideal.ofBits_one_f32
  -- the sum over the features of edge e, from the initial value zero
  have hred : Host.reduceAdd (mulf xs xd) (constant (F := Ideal) S_ .f32 0x00000000#32) reducesTo_S800000x64_S800000_d1 h_S_ (ix1 e)
      = ∑ k : Fin 64, xs (ix2 e k) * xd (ix2 e k) := by
    rw [hostReduceAdd_apply, Ideal.hostReduceAdd_single reducesTo_S800000x64_S800000_d1 (by decide)]
    show Ideal.ofBits .f32 0x00000000#32 + _ = _
    rw [Ideal.ofBits_zero_f32, zero_add]
    refine Finset.sum_congr rfl fun k _ => ?_
    have hi : (Shape.Reduces.lift (s := S800000x64) (t := S800000) (a := 1) (by decide) (ix1 e) k) = ix2 e k :=
      funext fun a => Fin.ext (by match a with | ⟨0, _⟩ => rfl | ⟨1, _⟩ => rfl)
    rw [hi]
    rfl
  -- the host's exponential and negation at an edge
  have hexp : ∀ (v : FVec Ideal S800000 .f32) (j : S800000.Idx), Host.exp v j = Ideal.exp (v j) := fun _ _ => rfl
  have hneg : ∀ (v : FVec Ideal S800000 .f32) (j : S800000.Idx), Host.negf v j = -(v j) := fun _ _ => rfl
  unfold tailR
  rw [hostDivf_apply, addf_apply, hexp, hneg, hostDivf_apply, addf_apply, hexp, hneg, hone, hred]
  rfl

end Cert.RefBridge

end
-- ==== Proof.LibColumn.lean ====
/-
  A column, an [a, 1] array, and the vector [a] it lists: a shape cast between the two keeps the row-major
  position, and the position of (i, 0) in a column is i · 1 + 0 = i, the position of i in the vector. Two lemmas,
  one per direction, with both indices written by coordinates, so that each applies to a printed shape cast by
  unification (the forms for a leading unit axis, [1, a], are in idealize's Lib/ValueLayout.lean).
-/
import Idealize.ShloMosaic.Lib.Pipeline.Value
import Idealize.ShloMosaic.Lib.ValueIdx

namespace Cert.LibColumn

open Idealize.ShloMosaic Idealize.ShloMosaic.ValueIdx

/-- An [a, 1] column cast to the vector [a] reads, at i, the column's entry (i, 0): the vector's position of i is i,
    the column's position of (i, 0) is i · 1 + 0. -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A vector [a] cast to the [a, 1] column reads, at (i, u), the vector's entry i, whatever the unit coordinate u
    (it can only be 0): the column's position of (i, u) is i · 1 + u = i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

end Cert.LibColumn
-- ==== Proof.Join.lean ====
/-
  The two results are one function of the arguments.

  The kernel's result buffer ends holding the flattened edge score of the second layer's rows gathered at the two
  index arrays, each layer taking the node array and its neighbour means; the reference's result is its own closing
  operations of the same gathers of its own two layers. Layer against layer: the reference's two matrix products, bias
  and maximum are the layer function index by index. Tail against tail: the reference's sum over the 64 features
  followed by twice 1/(1 + e^(−t)) is the edge score at that edge, and flattening an n × 1 array reads it at (e, 0).
  The neighbour means and the gathers are the same host operations on both sides, carried as they stand.
-/
import proofs.«117563_j13804024889624_1_alg».proof.Proof.KI.KResult
import proofs.«117563_j13804024889624_1_alg».proof.Proof.RefValue
import proofs.«117563_j13804024889624_1_alg».proof.Proof.LibColumn

noncomputable section

namespace Cert.Join

open Idealize.ShloMosaic Idealize.ShloMosaic.TcCoe Idealize.SL.Sem Idealize.ShloMosaic.ValueIdx
open Cert.KernelIdeal.Regions Cert.RefBridge

/-- The neighbour means: one chain of host operations, printed once in each program. -/
theorem agg_eq (x : FVec Ideal Cert.ReferenceIdeal.S50000x64 .f32) (src dst : IVec Cert.ReferenceIdeal.S800000 32) :
    aggR x src dst = aggK (F := Ideal) x src dst := rfl

/-- The gather of rows at an index array (negative indices wrapped first): likewise. -/
theorem gath_eq (x : FVec Ideal Cert.ReferenceIdeal.S50000x64 .f32) (idx : IVec Cert.ReferenceIdeal.S800000 32) :
    gathR x idx = gathK (F := Ideal) x idx := rfl

/-- The reference's closing operations on two gathered arrays are the flattened edge score. -/
theorem tail_eq (xs xd : FVec Ideal Cert.ReferenceIdeal.S800000x64 .f32) :
    tailR xs xd = flatK (F := Ideal) (Cert.Spec.scoreFn (E := 800000) xs xd) := by
  funext i
  obtain ⟨e, rfl⟩ : ∃ e : Fin 800000, i = ix1 e := ⟨i 0, eq_ix1 i⟩
  rw [tailR_eq]
  exact (Cert.LibColumn.shapeCast_a1_a_apply _ _ e).symm

/-- From memories that agree on the nine arguments, the kernel's result buffer and the reference's hold one array. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    Cert.ReferenceIdeal.Value.res_main_v79 (F := Ideal) m' c = W7 m c Cert.KernelIdeal.main_v55 := by
  rw [res_eq, kernel_result, h0, h1, h2, h3, h4, h5, h6, h7, h8]
  simp only [layerR_eq, agg_eq, gath_eq, tail_eq]
  rfl

end Cert.Join

end
-- ==== Proof.Claims.lean ====
/-
  The five claims.

  Frames. Both printed kernels run to the end with their nine argument arrays unchanged: the program is three kernel
  calls among stretches of host operations, each call's body runs at every grid point on the blocks the pipeline
  stages, and no item writes an argument. The frame says nothing of what the edge-score call writes: at the word level
  its lane sum is an unknown function of a whole staging buffer whose tail, at the last (overhanging) grid point, holds
  words nothing names. The reference is a list of host operations; its run is read back operation by operation.
  Preserves: the idealization rewrote nothing.
  Algebraic: over the extended reals the overhang is harmless, because the edge score of a row reads that row only;
  every buffer's final contents are then named, the kernel's result is the flattened edge score of the gathered rows of
  two layers, and that is the reference's result term.
-/
import proofs.«117563_j13804024889624_1_alg».proof.Defs
import proofs.«117563_j13804024889624_1_alg».proof.Proof.Gen.Pre_finite_inputs
import proofs.«117563_j13804024889624_1_alg».proof.Proof.K.RunFrame
import proofs.«117563_j13804024889624_1_alg».proof.Proof.K.Body0
import proofs.«117563_j13804024889624_1_alg».proof.Proof.K.Body1
import proofs.«117563_j13804024889624_1_alg».proof.Proof.K.Body2
import proofs.«117563_j13804024889624_1_alg».proof.Proof.KI.RunFrame
import proofs.«117563_j13804024889624_1_alg».proof.Proof.KI.RunExact
import proofs.«117563_j13804024889624_1_alg».proof.Proof.KI.Body0
import proofs.«117563_j13804024889624_1_alg».proof.Proof.KI.Body1
import proofs.«117563_j13804024889624_1_alg».proof.Proof.KI.Body2
import proofs.«117563_j13804024889624_1_alg».proof.Proof.KI.Body2Exact
import proofs.«117563_j13804024889624_1_alg».proof.Proof.Join

noncomputable section

namespace Cert.Proof.Claims

open Idealize.ShloMosaic Idealize.ShloMosaic.TcCoe Idealize.SL.Sem

/-- The word-level kernel runs, and its arguments end as launched. -/
theorem frame_kernel : Cert.frame_Kernel := fun m ρ _ =>
  Cert.Kernel.Regions.run_frame m ρ
    (fun c => Cert.Kernel.Regions.body_obligation0 (Cert.Kernel.Regions.V1 m) c)
    (fun c => Cert.Kernel.Regions.body_obligation1 (Cert.Kernel.Regions.V3 m) c)
    (fun c => Cert.Kernel.Regions.body_obligation2_fgt (Cert.Kernel.Regions.V5 m) c)

/-- So does the idealized kernel (the same text read at the extended reals). -/
theorem frame_kernel_ideal : Cert.frame_KernelIdeal := fun m ρ _ =>
  Cert.KernelIdeal.Regions.run_frame m ρ
    (fun c => Cert.KernelIdeal.Regions.body_obligation0 (Cert.KernelIdeal.Regions.V1 m) c)
    (fun c => Cert.KernelIdeal.Regions.body_obligation1 (Cert.KernelIdeal.Regions.V3 m) c)
    (fun c => Cert.KernelIdeal.Regions.body_obligation2_fgt (Cert.KernelIdeal.Regions.V5 m) c)

/-- The reference runs: its generated run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization's ledger is empty. -/
theorem preserves : Cert.preserves_Kernel_KernelIdeal := trivial

/-- From memories agreeing on the arguments both programs end with one result array: the kernel's run names every
    buffer's final contents, the result buffer's among them; the reference's run ends at its result term, which is that
    array. -/
theorem algebraic : Cert.algebraic_KernelIdeal_ReferenceIdeal := by
  intro m ρ m' ρ' _ hagree
  refine ⟨fun c => Cert.KernelIdeal.Regions.W7 m c Cert.KernelIdeal.main_v55, ?_, ?_⟩
  · exact (θ_run Cert.KernelIdeal.defs _ _).mono
      (fun r h c => ⟨h c _ (Cert.KernelIdeal.Regions.mem_uc Cert.KernelIdeal.main_v55 (by decide)),
        (h c _ (Cert.KernelIdeal.Regions.mem_uc Cert.KernelIdeal.main_arg0 (by decide))).trans (Cert.KernelIdeal.Regions.W7x_main_arg0 m c _),
        (h c _ (Cert.KernelIdeal.Regions.mem_uc Cert.KernelIdeal.main_arg1 (by decide))).trans (Cert.KernelIdeal.Regions.W7x_main_arg1 m c _),
        (h c _ (Cert.KernelIdeal.Regions.mem_uc Cert.KernelIdeal.main_arg2 (by decide))).trans (Cert.KernelIdeal.Regions.W7x_main_arg2 m c _),
        (h c _ (Cert.KernelIdeal.Regions.mem_uc Cert.KernelIdeal.main_arg3 (by decide))).trans (Cert.KernelIdeal.Regions.W7x_main_arg3 m c _),
        (h c _ (Cert.KernelIdeal.Regions.mem_uc Cert.KernelIdeal.main_arg4 (by decide))).trans (Cert.KernelIdeal.Regions.W7x_main_arg4 m c _),
        (h c _ (Cert.KernelIdeal.Regions.mem_uc Cert.KernelIdeal.main_arg5 (by decide))).trans (Cert.KernelIdeal.Regions.W7x_main_arg5 m c _),
        (h c _ (Cert.KernelIdeal.Regions.mem_uc Cert.KernelIdeal.main_arg6 (by decide))).trans (Cert.KernelIdeal.Regions.W7x_main_arg6 m c _),
        (h c _ (Cert.KernelIdeal.Regions.mem_uc Cert.KernelIdeal.main_arg7 (by decide))).trans (Cert.KernelIdeal.Regions.W7x_main_arg7 m c _),
        (h c _ (Cert.KernelIdeal.Regions.mem_uc Cert.KernelIdeal.main_arg8 (by decide))).trans (Cert.KernelIdeal.Regions.W7x_main_arg8 m c _)⟩)
      (Cert.KernelIdeal.Regions.run_exact m ρ
        (fun c => Cert.KernelIdeal.Regions.body_obligation0 (Cert.KernelIdeal.Regions.V1 m) c)
        (fun c => Cert.KernelIdeal.Regions.body_obligation1 (Cert.KernelIdeal.Regions.V3 m) c)
        (fun c => Cert.KernelIdeal.Regions.body_obligation2 (Cert.KernelIdeal.Regions.V5 m) c))
  · exact (θ_run Cert.ReferenceIdeal.defs _ _).mono
      (fun r h c => by
        obtain ⟨h0, h1, h2, h3, h4, h5, h6, h7, h8⟩ := hagree c
        exact ⟨(h c).1.trans (Cert.Join.result_eq m m' c h0 h1 h2 h3 h4 h5 h6 h7 h8), (h c).2⟩)
      (Cert.ReferenceIdeal.Value.run (F := Ideal) m' ρ')

end Cert.Proof.Claims

end
-- ==== Proof.lean ====
/-
  A two-layer graph network with an edge scorer, as three tiled kernel calls among gathers and scatter-adds on the
  host, against its array-level reference. Each layer is max(x·W_self + h·W_neigh + b, 0) on blocks of 5000 of 50000
  nodes, h the mean of the neighbours' rows; the score of edge e is σ(σ(Σ_k x[src e, k]·x[dst e, k])) on blocks of
  16384 of 800000 edges, the last block reaching 2816 rows past the arrays' end. Over the extended reals a change of
  float format is the identity, a matrix product into the zero accumulator and the host's contraction are the same sum,
  a lane sum and the host's reduction are the same sum, and the kernel's logistic is 1/(1 + e^(−t)) as the reference
  spells it; so the two programs apply the same operations to the same arrays, and no law of the extended reals beyond
  those identities is used. The claims are proved in Proof/Claims.lean; here they are put together.
-/
import proofs.«117563_j13804024889624_1_alg».proof.Defs
import proofs.«117563_j13804024889624_1_alg».proof.Proof.Gen.Kernel
import proofs.«117563_j13804024889624_1_alg».proof.Proof.Gen.KernelIdeal
import proofs.«117563_j13804024889624_1_alg».proof.Proof.Gen.ReferenceIdeal
import proofs.«117563_j13804024889624_1_alg».proof.Proof.Gen.Pre_finite_inputs
import proofs.«117563_j13804024889624_1_alg».proof.Proof.Claims

noncomputable section

namespace Cert.Proof

theorem claim : Cert.Claim :=
  ⟨Cert.Kernel.Gen.facts, Cert.KernelIdeal.Gen.facts, Cert.ReferenceIdeal.Gen.facts, Cert.Pre_finite_inputs.Gen.facts,
    Claims.frame_kernel, Claims.frame_kernel_ideal, Claims.frame_reference, Claims.preserves, Claims.algebraic⟩

end Cert.Proof

end
